-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S1000000 : Shape := ⟨1, ![1000000]⟩
abbrev S100000 : Shape := ⟨1, ![100000]⟩
abbrev S10240 : Shape := ⟨1, ![10240]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_
  bcast_S_S100000 : S_.BroadcastsInDim S100000 (![] : Fin 0 → Fin S100000.rank)
  reducesTo_S100000_S_d0 : S100000.ReducesTo [0] S_
  bcast_S_S10240 : S_.BroadcastsInDim S10240 (![] : Fin 0 → Fin S10240.rank)
  reducesTo_S10240_S_d0 : S10240.ReducesTo [0] S_

variable [Facts]

def fn_part3 {F : FTy → Type} [FloatOps F] (main_arg7 : IVec S100000 32) (main_arg8 : IVec S100000 32) (main_v47 : IVec S_ 1) (main_v49 : IVec S100000 1) (main_c_19 : IVec S_ 32) : IVec S_ 1 :=
  let main_v50 : IVec S100000 32 := broadcastInDim S100000 ![] bcast_S_S100000 main_c_19
  let main_v51 : IVec S100000 1 := cmpi .slt main_arg7 main_v50
  let main_v52 : IVec S100000 1 := andi main_v49 main_v51
  let main_c_20 : IVec S_ 1 := constantI S_ 1 1#1
  let main_v53 : IVec S_ 1 := (fun x v => Host.reduce IntOp.andi x v reducesTo_S100000_S_d0 h_S_) main_v52 main_c_20
  let main_v54 : IVec S_ 1 := andi main_v47 main_v53
  let main_c_21 : IVec S_ 32 := constantI S_ 32 0#32
  let main_v55 : IVec S100000 32 := broadcastInDim S100000 ![] bcast_S_S100000 main_c_21
  let main_v56 : IVec S100000 1 := cmpi .sge main_arg8 main_v55
  let main_c_22 : IVec S_ 32 := constantI S_ 32 100000#32
  let main_v57 : IVec S100000 32 := broadcastInDim S100000 ![] bcast_S_S100000 main_c_22
  let main_v58 : IVec S100000 1 := cmpi .slt main_arg8 main_v57
  let main_v59 : IVec S100000 1 := andi main_v56 main_v58
  let main_c_23 : IVec S_ 1 := constantI S_ 1 1#1
  let main_v60 : IVec S_ 1 := (fun x v => Host.reduce IntOp.andi x v reducesTo_S100000_S_d0 h_S_) main_v59 main_c_23
  let main_v61 : IVec S_ 1 := andi main_v54 main_v60
  main_v61

def fn_part2 {F : FTy → Type} [FloatOps F] (main_arg3 : IVec S100000 32) (main_arg5 : IVec S10240 32) (main_arg7 : IVec S100000 32) (main_arg8 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg3 main_v34
  let main_c_13 : IVec S_ 32 := constantI S_ 32 100000#32
  let main_v36 : IVec S100000 32 := broadcastInDim S100000 ![] bcast_S_S100000 main_c_13
  let main_v37 : IVec S100000 1 := cmpi .slt main_arg3 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  let main_c_15 : IVec S_ 32 := constantI S_ 32 0#32
  let main_v41 : IVec S10240 32 := broadcastInDim S10240 ![] bcast_S_S10240 main_c_15
  let main_v42 : IVec S10240 1 := cmpi .sge main_arg5 main_v41
  let main_c_16 : IVec S_ 32 := constantI S_ 32 10000#32
  let main_v43 : IVec S10240 32 := broadcastInDim S10240 ![] bcast_S_S10240 main_c_16
  let main_v44 : IVec S10240 1 := cmpi .slt main_arg5 main_v43
  let main_v45 : IVec S10240 1 := andi main_v42 main_v44
  let main_c_17 : IVec S_ 1 := constantI S_ 1 1#1
  let main_v46 : IVec S_ 1 := (fun x v => Host.reduce IntOp.andi x v reducesTo_S10240_S_d0 h_S_) main_v45 main_c_17
  let main_v47 : IVec S_ 1 := andi main_v40 main_v46
  let main_c_18 : IVec S_ 32 := constantI S_ 32 0#32
  let main_v48 : IVec S100000 32 := broadcastInDim S100000 ![] bcast_S_S100000 main_c_18
  let main_v49 : IVec S100000 1 := cmpi .sge main_arg7 main_v48
  let main_c_19 : IVec S_ 32 := constantI S_ 32 100000#32
  fn_part3 (F := F) main_arg7 main_arg8 main_v47 main_v49 main_c_19

def fn_part1 {F : FTy → Type} [FloatOps F] (main_arg3 : IVec S100000 32) (main_arg5 : IVec S10240 32) (main_arg7 : IVec S100000 32) (main_arg8 : IVec S100000 32) (main_arg12 : FVec F S128 .f32) (main_arg13 : FVec F S128x47 .f32) (main_arg14 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg12
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg13
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg14
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  fn_part2 (F := F) main_arg3 main_arg5 main_arg7 main_arg8 main_v33

def fn {F : FTy → Type} [FloatOps F] (main_arg0 : FVec F S500000x128 .f32) (main_arg1 : IVec S1000000 32) (main_arg2 : IVec S1000000 32) (main_arg3 : IVec S100000 32) (main_arg4 : IVec S100000 32) (main_arg5 : IVec S10240 32) (main_arg6 : IVec S10240 32) (main_arg7 : IVec S100000 32) (main_arg8 : IVec S100000 32) (main_arg9 : FVec F S128x128 .f32) (main_arg10 : FVec F S128 .f32) (main_arg11 : FVec F S128x128 .f32) (main_arg12 : FVec F S128 .f32) (main_arg13 : FVec F S128x47 .f32) (main_arg14 : FVec F S47 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg9
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg10
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg11
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg5 main_arg7 main_arg8 main_arg12 main_arg13 main_arg14 main_v13 main_v16
-- ==== Kernel.lean ====
abbrev S500000x128 : Shape := ⟨2, ![500000, 128]⟩
abbrev S1000000 : Shape := ⟨1, ![1000000]⟩
abbrev S100000 : Shape := ⟨1, ![100000]⟩
abbrev S10240 : Shape := ⟨1, ![10240]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1000000x1 : Shape := ⟨2, ![1000000, 1]⟩
abbrev S1000000x128 : Shape := ⟨2, ![1000000, 128]⟩
abbrev S100000x128 : Shape := ⟨2, ![100000, 128]⟩
abbrev S1x128 : Shape := ⟨2, ![1, 128]⟩
abbrev S10000x128 : Shape := ⟨2, ![10000, 128]⟩
abbrev S100000x1 : Shape := ⟨2, ![100000, 1]⟩
abbrev S1 : Shape := ⟨1, ![1]⟩
abbrev S1x1 : Shape := ⟨2, ![1, 1]⟩
abbrev S10000 : Shape := ⟨1, ![10000]⟩
abbrev S10000x1 : Shape := ⟨2, ![10000, 1]⟩
abbrev S5000x128 : Shape := ⟨2, ![5000, 128]⟩
abbrev S10240x1 : Shape := ⟨2, ![10240, 1]⟩
abbrev S10240x128 : Shape := ⟨2, ![10240, 128]⟩
abbrev S1024x128 : Shape := ⟨2, ![1024, 128]⟩
abbrev S1024 : Shape := ⟨1, ![1024]⟩
abbrev S1024x1 : Shape := ⟨2, ![1024, 1]⟩
abbrev S1x47 : Shape := ⟨2, ![1, 47]⟩
abbrev S1024x47 : Shape := ⟨2, ![1024, 47]⟩

abbrev nBuf : Space → Nat
  | .hbm => 228
  | .vmem => 16
  | .smem => 0
  | _ => 0

abbrev hbmTy0_0 (i : Nat) : BufTy := match i % 128 with
  | 0 => ⟨S500000x128, .f32⟩
  | 1 => ⟨S1000000, .i32⟩
  | 2 => ⟨S1000000, .i32⟩
  | 3 => ⟨S100000, .i32⟩
  | 4 => ⟨S100000, .i32⟩
  | 5 => ⟨S10240, .i32⟩
  | 6 => ⟨S10240, .i32⟩
  | 7 => ⟨S100000, .i32⟩
  | 8 => ⟨S100000, .i32⟩
  | 9 => ⟨S128x128, .f32⟩
  | 10 => ⟨S128, .f32⟩
  | 11 => ⟨S128x128, .f32⟩
  | 12 => ⟨S128, .f32⟩
  | 13 => ⟨S128x47, .f32⟩
  | 14 => ⟨S47, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000x128, .f32⟩
  | 24 => ⟨S_, .f32⟩
  | 25 => ⟨S100000x128, .f32⟩
  | 26 => ⟨S1000000x1, .i32⟩
  | 27 => ⟨S100000x128, .f32⟩
  | 28 => ⟨S1x128, .f32⟩
  | 29 => ⟨S100000x128, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S1, .i32⟩
  | 39 => ⟨S_, .i32⟩
  | 40 => ⟨S100000x1, .i32⟩
  | 41 => ⟨S100000x1, .i1⟩
  | 42 => ⟨S1x1, .i32⟩
  | 43 => ⟨S100000x1, .i32⟩
  | 44 => ⟨S100000x1, .i1⟩
  | 45 => ⟨S100000x1, .i1⟩
  | 46 => ⟨S_, .i1⟩
  | 47 => ⟨S100000, .i1⟩
  | 48 => ⟨S100000, .i32⟩
  | 49 => ⟨S_, .i32⟩
  | 50 => ⟨S100000, .i32⟩
  | 51 => ⟨S100000, .i32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S1, .i32⟩
  | 61 => ⟨S_, .i32⟩
  | 62 => ⟨S100000x1, .i32⟩
  | 63 => ⟨S100000x1, .i1⟩
  | 64 => ⟨S1x1, .i32⟩
  | 65 => ⟨S100000x1, .i32⟩
  | 66 => ⟨S100000x1, .i1⟩
  | 67 => ⟨S100000x1, .i1⟩
  | 68 => ⟨S_, .i1⟩
  | 69 => ⟨S100000, .i1⟩
  | 70 => ⟨S100000, .i32⟩
  | 71 => ⟨S_, .i32⟩
  | 72 => ⟨S100000, .i32⟩
  | 73 => ⟨S100000, .i32⟩
  | 74 => ⟨S_, .f32⟩
  | 75 => ⟨S100000, .f32⟩
  | 76 => ⟨S_, .f32⟩
  | 77 => ⟨S100000, .f32⟩
  | 78 => ⟨S100000x1, .i32⟩
  | 79 => ⟨S100000, .f32⟩
  | 80 => ⟨S_, .f32⟩
  | 81 => ⟨S_, .f32⟩
  | 82 => ⟨S100000, .f32⟩
  | 83 => ⟨S100000, .f32⟩
  | 84 => ⟨S100000, .f32⟩
  | 85 => ⟨S_, .i32⟩
  | 86 => ⟨S100000, .i32⟩
  | 87 => ⟨S100000, .i1⟩
  | 88 => ⟨S_, .i32⟩
  | 89 => ⟨S100000, .i32⟩
  | 90 => ⟨S100000, .i32⟩
  | 91 => ⟨S100000, .i32⟩
  | 92 => ⟨S100000x1, .i32⟩
  | 93 => ⟨S1, .i32⟩
  | 94 => ⟨S_, .i32⟩
  | 95 => ⟨S100000x1, .i32⟩
  | 96 => ⟨S100000x1, .i1⟩
  | 97 => ⟨S1x1, .i32⟩
  | 98 => ⟨S100000x1, .i32⟩
  | 99 => ⟨S100000x1, .i1⟩
  | 100 => ⟨S100000x1, .i1⟩
  | 101 => ⟨S_, .i1⟩
  | 102 => ⟨S100000, .i1⟩
  | 103 => ⟨S100000x128, .f32⟩
  | 104 => ⟨S100000x128, .i1⟩
  | 105 => ⟨S_, .f32⟩
  | 106 => ⟨S100000x128, .f32⟩
  | 107 => ⟨S100000x128, .f32⟩
  | 108 => ⟨S_, .i32⟩
  | 109 => ⟨S100000, .i32⟩
  | 110 => ⟨S100000, .i1⟩
  | 111 => ⟨S_, .i32⟩
  | 112 => ⟨S100000, .i32⟩
  | 113 => ⟨S100000, .i32⟩
  | 114 => ⟨S100000, .i32⟩
  | 115 => ⟨S100000x1, .i32⟩
  | 116 => ⟨S1, .i32⟩
  | 117 => ⟨S_, .i32⟩
  | 118 => ⟨S100000x1, .i32⟩
  | 119 => ⟨S100000x1, .i1⟩
  | 120 => ⟨S1x1, .i32⟩
  | 121 => ⟨S100000x1, .i32⟩
  | 122 => ⟨S100000x1, .i1⟩
  | 123 => ⟨S100000x1, .i1⟩
  | 124 => ⟨S_, .i1⟩
  | 125 => ⟨S100000, .i1⟩
  | 126 => ⟨S100000, .f32⟩
  | 127 => ⟨S_, .f32⟩
  | _ => ⟨S500000x128, .f32⟩

abbrev hbmTy0_1 (i : Nat) : BufTy := match i % 128 with
  | 0 => ⟨S100000, .f32⟩
  | 1 => ⟨S100000, .f32⟩
  | 2 => ⟨S100000x1, .f32⟩
  | 3 => ⟨S100000x128, .f32⟩
  | 4 => ⟨S100000x128, .f32⟩
  | 5 => ⟨S_, .f32⟩
  | 6 => ⟨S10000x128, .f32⟩
  | 7 => ⟨S100000x1, .i32⟩
  | 8 => ⟨S10000x128, .f32⟩
  | 9 => ⟨S_, .f32⟩
  | 10 => ⟨S10000, .f32⟩
  | 11 => ⟨S100000x1, .i32⟩
  | 12 => ⟨S10000, .f32⟩
  | 13 => ⟨S_, .f32⟩
  | 14 => ⟨S_, .f32⟩
  | 15 => ⟨S10000, .f32⟩
  | 16 => ⟨S10000, .f32⟩
  | 17 => ⟨S10000, .f32⟩
  | 18 => ⟨S10000x1, .f32⟩
  | 19 => ⟨S10000x128, .f32⟩
  | 20 => ⟨S10000x128, .f32⟩
  | 21 => ⟨S1x128, .f32⟩
  | 22 => ⟨S10000x128, .f32⟩
  | 23 => ⟨S_, .f32⟩
  | 24 => ⟨S10240, .f32⟩
  | 25 => ⟨S_, .f32⟩
  | 26 => ⟨S10000, .f32⟩
  | 27 => ⟨S10240x1, .i32⟩
  | 28 => ⟨S10000, .f32⟩
  | 29 => ⟨S_, .f32⟩
  | 30 => ⟨S_, .f32⟩
  | 31 => ⟨S10000, .f32⟩
  | 32 => ⟨S10000, .f32⟩
  | 33 => ⟨S10000, .f32⟩
  | 34 => ⟨S_, .i32⟩
  | 35 => ⟨S10240, .i32⟩
  | 36 => ⟨S10240, .i1⟩
  | 37 => ⟨S_, .i32⟩
  | 38 => ⟨S10240, .i32⟩
  | 39 => ⟨S10240, .i32⟩
  | 40 => ⟨S10240, .i32⟩
  | 41 => ⟨S10240x1, .i32⟩
  | 42 => ⟨S1, .i32⟩
  | 43 => ⟨S_, .i32⟩
  | 44 => ⟨S10240x1, .i32⟩
  | 45 => ⟨S10240x1, .i1⟩
  | 46 => ⟨S1x1, .i32⟩
  | 47 => ⟨S10240x1, .i32⟩
  | 48 => ⟨S10240x1, .i1⟩
  | 49 => ⟨S10240x1, .i1⟩
  | 50 => ⟨S_, .i1⟩
  | 51 => ⟨S10240, .i1⟩
  | 52 => ⟨S10240x128, .f32⟩
  | 53 => ⟨S10240x128, .i1⟩
  | 54 => ⟨S_, .f32⟩
  | 55 => ⟨S10240x128, .f32⟩
  | 56 => ⟨S10240x128, .f32⟩
  | 57 => ⟨S_, .i32⟩
  | 58 => ⟨S10240, .i32⟩
  | 59 => ⟨S10240, .i1⟩
  | 60 => ⟨S_, .i32⟩
  | 61 => ⟨S10240, .i32⟩
  | 62 => ⟨S10240, .i32⟩
  | 63 => ⟨S10240, .i32⟩
  | 64 => ⟨S10240x1, .i32⟩
  | 65 => ⟨S1, .i32⟩
  | 66 => ⟨S_, .i32⟩
  | 67 => ⟨S10240x1, .i32⟩
  | 68 => ⟨S10240x1, .i1⟩
  | 69 => ⟨S1x1, .i32⟩
  | 70 => ⟨S10240x1, .i32⟩
  | 71 => ⟨S10240x1, .i1⟩
  | 72 => ⟨S10240x1, .i1⟩
  | 73 => ⟨S_, .i1⟩
  | 74 => ⟨S10240, .i1⟩
  | 75 => ⟨S10240, .f32⟩
  | 76 => ⟨S_, .f32⟩
  | 77 => ⟨S10240, .f32⟩
  | 78 => ⟨S10240, .f32⟩
  | 79 => ⟨S10240x1, .f32⟩
  | 80 => ⟨S10240x128, .f32⟩
  | 81 => ⟨S10240x128, .f32⟩
  | 82 => ⟨S_, .f32⟩
  | 83 => ⟨S1024x128, .f32⟩
  | 84 => ⟨S10240x1, .i32⟩
  | 85 => ⟨S1024x128, .f32⟩
  | 86 => ⟨S_, .f32⟩
  | 87 => ⟨S1024, .f32⟩
  | 88 => ⟨S10240x1, .i32⟩
  | 89 => ⟨S1024, .f32⟩
  | 90 => ⟨S_, .f32⟩
  | 91 => ⟨S_, .f32⟩
  | 92 => ⟨S1024, .f32⟩
  | 93 => ⟨S1024, .f32⟩
  | 94 => ⟨S1024, .f32⟩
  | 95 => ⟨S1024x1, .f32⟩
  | 96 => ⟨S1024x128, .f32⟩
  | 97 => ⟨S1024x128, .f32⟩
  | 98 => ⟨S1x47, .f32⟩
  | 99 => ⟨S1024x47, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1024x128, .f32⟩
  | .local _ .vmem, ⟨13, _⟩ => ⟨S128x47, .f32⟩
  | .local _ .vmem, ⟨14, _⟩ => ⟨S1x47, .f32⟩
  | .local _ .vmem, ⟨15, _⟩ => ⟨S1024x47, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_c_4 : Ref sig .tc := ⟨.hbm, 49, rfl⟩
abbrev main_call0_v14 : Ref sig .tc := ⟨.hbm, 50, rfl⟩
abbrev main_v12 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_c_4 : Ref sig .tc := ⟨.hbm, 71, rfl⟩
abbrev main_call1_v14 : Ref sig .tc := ⟨.hbm, 72, rfl⟩
abbrev main_v13 : Ref sig .tc := ⟨.hbm, 73, rfl⟩
abbrev main_cst_1 : Ref sig .tc := ⟨.hbm, 74, rfl⟩
abbrev main_v14 : Ref sig .tc := ⟨.hbm, 75, rfl⟩
abbrev main_cst_2 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_cst_3 : Ref sig .tc := ⟨.hbm, 80, rfl⟩
abbrev main_call2_v0 : Ref sig .tc := ⟨.hbm, 81, rfl⟩
abbrev main_call2_v1 : Ref sig .tc := ⟨.hbm, 82, rfl⟩
abbrev main_v18 : Ref sig .tc := ⟨.hbm, 83, rfl⟩
abbrev main_v19 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v20 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_cst : Ref sig .tc := ⟨.hbm, 127, rfl⟩
abbrev main_call4_v14 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_cst_4 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_cst_5 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_cst_6 : Ref sig .tc := ⟨.hbm, 141, rfl⟩
abbrev main_call5_v0 : Ref sig .tc := ⟨.hbm, 142, rfl⟩
abbrev main_call5_v1 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_cst_7 : Ref sig .tc := ⟨.hbm, 151, rfl⟩
abbrev main_v38 : Ref sig .tc := ⟨.hbm, 152, rfl⟩
abbrev main_cst_8 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_cst_9 : Ref sig .tc := ⟨.hbm, 157, rfl⟩
abbrev main_call6_v0 : Ref sig .tc := ⟨.hbm, 158, rfl⟩
abbrev main_call6_v1 : Ref sig .tc := ⟨.hbm, 159, rfl⟩
abbrev main_v42 : Ref sig .tc := ⟨.hbm, 160, rfl⟩
abbrev main_v43 : Ref sig .tc := ⟨.hbm, 161, rfl⟩
abbrev main_call7_c : Ref sig .tc := ⟨.hbm, 162, rfl⟩
abbrev main_call7_v0 : Ref sig .tc := ⟨.hbm, 163, rfl⟩
abbrev main_call7_v1 : Ref sig .tc := ⟨.hbm, 164, rfl⟩
abbrev main_call7_c_0 : Ref sig .tc := ⟨.hbm, 165, rfl⟩
abbrev main_call7_v2 : Ref sig .tc := ⟨.hbm, 166, rfl⟩
abbrev main_call7_v3 : Ref sig .tc := ⟨.hbm, 167, rfl⟩
abbrev main_call7_v4 : Ref sig .tc := ⟨.hbm, 168, rfl⟩
abbrev main_call7_v5 : Ref sig .tc := ⟨.hbm, 169, rfl⟩
abbrev main_call7_c_1 : Ref sig .tc := ⟨.hbm, 170, rfl⟩
abbrev main_call7_c_2 : Ref sig .tc := ⟨.hbm, 171, rfl⟩
abbrev main_call7_v6 : Ref sig .tc := ⟨.hbm, 172, rfl⟩
abbrev main_call7_v7 : Ref sig .tc := ⟨.hbm, 173, rfl⟩
abbrev main_call7_v8 : Ref sig .tc := ⟨.hbm, 174, rfl⟩
abbrev main_call7_v9 : Ref sig .tc := ⟨.hbm, 175, rfl⟩
abbrev main_call7_v10 : Ref sig .tc := ⟨.hbm, 176, rfl⟩
abbrev main_call7_v11 : Ref sig .tc := ⟨.hbm, 177, rfl⟩
abbrev main_call7_c_3 : Ref sig .tc := ⟨.hbm, 178, rfl⟩
abbrev main_call7_v12 : Ref sig .tc := ⟨.hbm, 179, rfl⟩
abbrev main_call7_v13 : Ref sig .tc := ⟨.hbm, 180, rfl⟩
abbrev main_call7_v14 : Ref sig .tc := ⟨.hbm, 181, rfl⟩
abbrev main_call7_cst : Ref sig .tc := ⟨.hbm, 182, rfl⟩
abbrev main_call7_v15 : Ref sig .tc := ⟨.hbm, 183, rfl⟩
abbrev main_v44 : Ref sig .tc := ⟨.hbm, 184, rfl⟩
abbrev main_call8_c : Ref sig .tc := ⟨.hbm, 185, rfl⟩
abbrev main_call8_v0 : Ref sig .tc := ⟨.hbm, 186, rfl⟩
abbrev main_call8_v1 : Ref sig .tc := ⟨.hbm, 187, rfl⟩
abbrev main_call8_c_0 : Ref sig .tc := ⟨.hbm, 188, rfl⟩
abbrev main_call8_v2 : Ref sig .tc := ⟨.hbm, 189, rfl⟩
abbrev main_call8_v3 : Ref sig .tc := ⟨.hbm, 190, rfl⟩
abbrev main_call8_v4 : Ref sig .tc := ⟨.hbm, 191, rfl⟩
abbrev main_call8_v5 : Ref sig .tc := ⟨.hbm, 192, rfl⟩
abbrev main_call8_c_1 : Ref sig .tc := ⟨.hbm, 193, rfl⟩
abbrev main_call8_c_2 : Ref sig .tc := ⟨.hbm, 194, rfl⟩
abbrev main_call8_v6 : Ref sig .tc := ⟨.hbm, 195, rfl⟩
abbrev main_call8_v7 : Ref sig .tc := ⟨.hbm, 196, rfl⟩
abbrev main_call8_v8 : Ref sig .tc := ⟨.hbm, 197, rfl⟩
abbrev main_call8_v9 : Ref sig .tc := ⟨.hbm, 198, rfl⟩
abbrev main_call8_v10 : Ref sig .tc := ⟨.hbm, 199, rfl⟩
abbrev main_call8_v11 : Ref sig .tc := ⟨.hbm, 200, rfl⟩
abbrev main_call8_c_3 : Ref sig .tc := ⟨.hbm, 201, rfl⟩
abbrev main_call8_v12 : Ref sig .tc := ⟨.hbm, 202, rfl⟩
abbrev main_call8_v13 : Ref sig .tc := ⟨.hbm, 203, rfl⟩
abbrev main_call8_cst : Ref sig .tc := ⟨.hbm, 204, rfl⟩
abbrev main_call8_v14 : Ref sig .tc := ⟨.hbm, 205, rfl⟩
abbrev main_v45 : Ref sig .tc := ⟨.hbm, 206, rfl⟩
abbrev main_v46 : Ref sig .tc := ⟨.hbm, 207, rfl⟩
abbrev main_v47 : Ref sig .tc := ⟨.hbm, 208, rfl⟩
abbrev main_v48 : Ref sig .tc := ⟨.hbm, 209, rfl⟩
abbrev main_cst_10 : Ref sig .tc := ⟨.hbm, 210, rfl⟩
abbrev main_v49 : Ref sig .tc := ⟨.hbm, 211, rfl⟩
abbrev main_v50 : Ref sig .tc := ⟨.hbm, 212, rfl⟩
abbrev main_v51 : Ref sig .tc := ⟨.hbm, 213, rfl⟩
abbrev main_cst_11 : Ref sig .tc := ⟨.hbm, 214, rfl⟩
abbrev main_v52 : Ref sig .tc := ⟨.hbm, 215, rfl⟩
abbrev main_v53 : Ref sig .tc := ⟨.hbm, 216, rfl⟩
abbrev main_v54 : Ref sig .tc := ⟨.hbm, 217, rfl⟩
abbrev main_cst_12 : Ref sig .tc := ⟨.hbm, 218, rfl⟩
abbrev main_call9_v0 : Ref sig .tc := ⟨.hbm, 219, rfl⟩
abbrev main_call9_v1 : Ref sig .tc := ⟨.hbm, 220, rfl⟩
abbrev main_v55 : Ref sig .tc := ⟨.hbm, 221, rfl⟩
abbrev main_v56 : Ref sig .tc := ⟨.hbm, 222, rfl⟩
abbrev main_v57 : Ref sig .tc := ⟨.hbm, 223, rfl⟩
abbrev main_v58 : Ref sig .tc := ⟨.hbm, 224, rfl⟩
abbrev main_v59 : Ref sig .tc := ⟨.hbm, 225, rfl⟩
abbrev main_v60 : Ref sig .tc := ⟨.hbm, 226, rfl⟩
abbrev main_v61 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S100000x1_S100000x128_0_1 : S100000x1.BroadcastsInDim S100000x128 (![0, 1] : Fin 2 → Fin S100000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  bcast_S_S10240 : S_.BroadcastsInDim S10240 (![] : Fin 0 → Fin S10240.rank)
  bcast_S10240_S10240x1_0 : S10240.BroadcastsInDim S10240x1 (![0] : Fin 1 → Fin S10240x1.rank)
  bcast_S_S10240x1 : S_.BroadcastsInDim S10240x1 (![] : Fin 0 → Fin S10240x1.rank)
  bcast_S1x1_S10240x1_0_1 : S1x1.BroadcastsInDim S10240x1 (![0, 1] : Fin 2 → Fin S10240x1.rank)
  reducesTo_S10240x1_S10240_d1 : S10240x1.ReducesTo [1] S10240
  bcast_S10240_S10240x128_0 : S10240.BroadcastsInDim S10240x128 (![0] : Fin 1 → Fin S10240x128.rank)
  bcast_S_S10240x128 : S_.BroadcastsInDim S10240x128 (![] : Fin 0 → Fin S10240x128.rank)
  bcast_S10240x1_S10240x128_0_1 : S10240x1.BroadcastsInDim S10240x128 (![0, 1] : Fin 2 → Fin S10240x128.rank)
  bcast_S_S1024x128 : S_.BroadcastsInDim S1024x128 (![] : Fin 0 → Fin S1024x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S47_S1x47 : S47.ShapeCasts S1x47
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S1024x47 : S1x47.Broadcasts S1024x47
  inb_S1024x47_S1024x47_0_0 : ∀ a, (![0, 0] : Fin 2 → Nat) a + S1024x47.size a ≤ S1024x47.size a
  h_S1024x47 : 0 < S1024x47.numel
  gather_S500000x128_S1000000x1_S1000000x128_1_0_n_n_0_1_1128_wf : GatherDims.WF S500000x128 S1000000x1 S1000000x128 [1] [0] [] [0] [] 1 ![1, 128]
  scatter_S100000x128_S1000000x1_S1000000x128_1_0_0_1_wf : ScatterDims.WF S100000x128 S1000000x1 S1000000x128 [1] [0] [0] 1
  dot_S10000x128_S128x128_S10000x128_1_0_0_1_n_n_wf : DotDims.WF S10000x128 S128x128 S10000x128 [1] [0] [0] [1] [] []
  gather_S100000_S100000x1_S100000_n_0_n_n_0_1_1_wf : GatherDims.WF S100000 S100000x1 S100000 [] [0] [] [0] [] 1 ![1]
  scatter_S100000_S100000x1_S100000_n_0_0_1_wf : ScatterDims.WF S100000 S100000x1 S100000 [] [0] [0] 1
  gather_S100000x128_S100000x1_S100000x128_1_0_n_n_0_1_1128_wf : GatherDims.WF S100000x128 S100000x1 S100000x128 [1] [0] [] [0] [] 1 ![1, 128]
  scatter_S10000x128_S100000x1_S100000x128_1_0_0_1_wf : ScatterDims.WF S10000x128 S100000x1 S100000x128 [1] [0] [0] 1
  scatter_S10000_S100000x1_S100000_n_0_0_1_wf : ScatterDims.WF S10000 S100000x1 S100000 [] [0] [0] 1
  dot_S5000x128_S128x128_S5000x128_1_0_0_1_n_n_wf : DotDims.WF S5000x128 S128x128 S5000x128 [1] [0] [0] [1] [] []
  scatter_S10000_S10240x1_S10240_n_0_0_1_wf : ScatterDims.WF S10000 S10240x1 S10240 [] [0] [0] 1
  gather_S10000x128_S10240x1_S10240x128_1_0_n_n_0_1_1128_wf : GatherDims.WF S10000x128 S10240x1 S10240x128 [1] [0] [] [0] [] 1 ![1, 128]
  gather_S10000_S10240x1_S10240_n_0_n_n_0_1_1_wf : GatherDims.WF S10000 S10240x1 S10240 [] [0] [] [0] [] 1 ![1]
  scatter_S1024x128_S10240x1_S10240x128_1_0_0_1_wf : ScatterDims.WF S1024x128 S10240x1 S10240x128 [1] [0] [0] 1
  scatter_S1024_S10240x1_S10240_n_0_0_1_wf : ScatterDims.WF S1024 S10240x1 S10240 [] [0] [0] 1
  dot_S1024x128_S128x47_S1024x47_1_0_0_1_n_n_wf : DotDims.WF S1024x128 S128x47 S1024x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S10000x128.size a
  hwx1_0 : ∀ i : grid1.Coords, EltTy.bits .f32 = 32 ∨ (Rect.block (s := S10000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S10000x128.size a
  hwx1_3 : ∀ i : grid1.Coords, EltTy.bits .f32 = 32 ∨ (Rect.block (s := S10000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x47.size a ≤ S128x47.size a
  hwx2_1 : ∀ i : grid2.Coords, EltTy.bits .f32 = 32 ∨ (Rect.block (s := S128x47) S128x47.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x47.size a ≤ S1x47.size a
  hwx2_2 : ∀ i : grid2.Coords, EltTy.bits .f32 = 32 ∨ (Rect.block (s := S1x47) S1x47.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1024x47.size a ≤ S1024x47.size a
  hwx2_3 : ∀ i : grid2.Coords, EltTy.bits .f32 = 32 ∨ (Rect.block (s := S1024x47) S1024x47.size (cc2_transform_3 i) (hinb2_3 i)).WholeWords (EltTy.packing .f32)

variable [Facts₀]

def gather_S500000x128_S1000000x1_S1000000x128_1_0_n_n_0_1_1128 : GatherDims S500000x128 S1000000x1 S1000000x128 where
  offsetDims := [1]
  collapsedSliceDims := [0]
  operandBatchingDims := []
  startIndicesBatchingDims := []
  startIndexMap := [0]
  indexVectorDim := 1
  sliceSizes := ![1, 128]
  wf := gather_S500000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000_S100000x1_S100000_n_0_n_n_0_1_1 : GatherDims S100000 S100000x1 S100000 where
  offsetDims := []
  collapsedSliceDims := [0]
  operandBatchingDims := []
  startIndicesBatchingDims := []
  startIndexMap := [0]
  indexVectorDim := 1
  sliceSizes := ![1]
  wf := gather_S100000_S100000x1_S100000_n_0_n_n_0_1_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S10000_S10240x1_S10240_n_0_0_1 : ScatterDims S10000 S10240x1 S10240 where
  updateWindowDims := []
  insertedWindowDims := [0]
  scatterDimsToOperandDims := [0]
  indexVectorDim := 1
  wf := scatter_S10000_S10240x1_S10240_n_0_0_1_wf
def gather_S10000x128_S10240x1_S10240x128_1_0_n_n_0_1_1128 : GatherDims S10000x128 S10240x1 S10240x128 where
  offsetDims := [1]
  collapsedSliceDims := [0]
  operandBatchingDims := []
  startIndicesBatchingDims := []
  startIndexMap := [0]
  indexVectorDim := 1
  sliceSizes := ![1, 128]
  wf := gather_S10000x128_S10240x1_S10240x128_1_0_n_n_0_1_1128_wf
def gather_S10000_S10240x1_S10240_n_0_n_n_0_1_1 : GatherDims S10000 S10240x1 S10240 where
  offsetDims := []
  collapsedSliceDims := [0]
  operandBatchingDims := []
  startIndicesBatchingDims := []
  startIndexMap := [0]
  indexVectorDim := 1
  sliceSizes := ![1]
  wf := gather_S10000_S10240x1_S10240_n_0_n_n_0_1_1_wf
def scatter_S1024x128_S10240x1_S10240x128_1_0_0_1 : ScatterDims S1024x128 S10240x1 S10240x128 where
  updateWindowDims := [1]
  insertedWindowDims := [0]
  scatterDimsToOperandDims := [0]
  indexVectorDim := 1
  wf := scatter_S1024x128_S10240x1_S10240x128_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf
def dot_S1024x128_S128x47_S1024x47_1_0_0_1_n_n : DotDims S1024x128 S128x47 S1024x47 where
  lhsContracting := [1]
  rhsContracting := [0]
  lhsNonContracting := [0]
  rhsNonContracting := [1]
  lhsBatch := []
  rhsBatch := []
  wf := dot_S1024x128_S128x47_S1024x47_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S1024x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S128x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1024x47.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S500000x128 : Shape := ⟨2, ![500000, 128]⟩
abbrev S1000000 : Shape := ⟨1, ![1000000]⟩
abbrev S100000 : Shape := ⟨1, ![100000]⟩
abbrev S10240 : Shape := ⟨1, ![10240]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S1000000x1 : Shape := ⟨2, ![1000000, 1]⟩
abbrev S1000000x128 : Shape := ⟨2, ![1000000, 128]⟩
abbrev S100000x128 : Shape := ⟨2, ![100000, 128]⟩
abbrev S1x128 : Shape := ⟨2, ![1, 128]⟩
abbrev S100000x1 : Shape := ⟨2, ![100000, 1]⟩
abbrev S10000x128 : Shape := ⟨2, ![10000, 128]⟩
abbrev S10000 : Shape := ⟨1, ![10000]⟩
abbrev S10000x1 : Shape := ⟨2, ![10000, 1]⟩
abbrev S10240x1 : Shape := ⟨2, ![10240, 1]⟩
abbrev S10000x47 : Shape := ⟨2, ![10000, 47]⟩
abbrev S10240x47 : Shape := ⟨2, ![10240, 47]⟩
abbrev S1024x47 : Shape := ⟨2, ![1024, 47]⟩
abbrev S1024 : Shape := ⟨1, ![1024]⟩
abbrev S1024x1 : Shape := ⟨2, ![1024, 1]⟩
abbrev S1x47 : Shape := ⟨2, ![1, 47]⟩

abbrev nBuf : Space → Nat
  | .hbm => 144
  | .vmem => 0
  | .smem => 0
  | _ => 0

abbrev hbmTy0_0 (i : Nat) : BufTy := match i % 128 with
  | 0 => ⟨S500000x128, .f32⟩
  | 1 => ⟨S1000000, .i32⟩
  | 2 => ⟨S1000000, .i32⟩
  | 3 => ⟨S100000, .i32⟩
  | 4 => ⟨S100000, .i32⟩
  | 5 => ⟨S10240, .i32⟩
  | 6 => ⟨S10240, .i32⟩
  | 7 => ⟨S100000, .i32⟩
  | 8 => ⟨S100000, .i32⟩
  | 9 => ⟨S128x128, .f32⟩
  | 10 => ⟨S128, .f32⟩
  | 11 => ⟨S128x128, .f32⟩
  | 12 => ⟨S128, .f32⟩
  | 13 => ⟨S128x47, .f32⟩
  | 14 => ⟨S47, .f32⟩
  | 15 => ⟨S_, .f32⟩
  | 16 => ⟨S1000000, .f32⟩
  | 17 => ⟨S500000x128, .f32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x128, .f32⟩
  | 27 => ⟨S_, .f32⟩
  | 28 => ⟨S100000x128, .f32⟩
  | 29 => ⟨S1000000x1, .i32⟩
  | 30 => ⟨S100000x128, .f32⟩
  | 31 => ⟨S1x128, .f32⟩
  | 32 => ⟨S100000x128, .f32⟩
  | 33 => ⟨S100000x128, .f32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S100000, .f32⟩
  | 57 => ⟨S_, .f32⟩
  | 58 => ⟨S100000, .f32⟩
  | 59 => ⟨S100000x1, .i32⟩
  | 60 => ⟨S100000, .f32⟩
  | 61 => ⟨S_, .f32⟩
  | 62 => ⟨S_, .f32⟩
  | 63 => ⟨S100000, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000x128, .f32⟩
  | 79 => ⟨S_, .f32⟩
  | 80 => ⟨S10000x128, .f32⟩
  | 81 => ⟨S100000x1, .i32⟩
  | 82 => ⟨S10000x128, .f32⟩
  | 83 => ⟨S_, .f32⟩
  | 84 => ⟨S10000, .f32⟩
  | 85 => ⟨S100000x1, .i32⟩
  | 86 => ⟨S10000, .f32⟩
  | 87 => ⟨S_, .f32⟩
  | 88 => ⟨S_, .f32⟩
  | 89 => ⟨S10000, .f32⟩
  | 90 => ⟨S10000, .f32⟩
  | 91 => ⟨S10000, .f32⟩
  | 92 => ⟨S10000x1, .f32⟩
  | 93 => ⟨S10000x128, .f32⟩
  | 94 => ⟨S10000x128, .f32⟩
  | 95 => ⟨S1x128, .f32⟩
  | 96 => ⟨S10000x128, .f32⟩
  | 97 => ⟨S10000x128, .f32⟩
  | 98 => ⟨S_, .f32⟩
  | 99 => ⟨S10000x128, .f32⟩
  | 100 => ⟨S10000x128, .f32⟩
  | 101 => ⟨S_, .f32⟩
  | 102 => ⟨S10240, .f32⟩
  | 103 => ⟨S_, .f32⟩
  | 104 => ⟨S10000, .f32⟩
  | 105 => ⟨S10240x1, .i32⟩
  | 106 => ⟨S10000, .f32⟩
  | 107 => ⟨S_, .f32⟩
  | 108 => ⟨S_, .f32⟩
  | 109 => ⟨S10000, .f32⟩
  | 110 => ⟨S10000, .f32⟩
  | 111 => ⟨S10000, .f32⟩
  | 112 => ⟨S10000x1, .f32⟩
  | 113 => ⟨S10000x128, .f32⟩
  | 114 => ⟨S10000x128, .f32⟩
  | 115 => ⟨S10000x47, .f32⟩
  | 116 => ⟨S_, .i32⟩
  | 117 => ⟨S10240, .i32⟩
  | 118 => ⟨S10240, .i1⟩
  | 119 => ⟨S_, .i32⟩
  | 120 => ⟨S10240, .i32⟩
  | 121 => ⟨S10240, .i32⟩
  | 122 => ⟨S10240, .i32⟩
  | 123 => ⟨S10240x1, .i32⟩
  | 124 => ⟨S10240x47, .f32⟩
  | 125 => ⟨S_, .f32⟩
  | 126 => ⟨S1024x47, .f32⟩
  | 127 => ⟨S10240x1, .i32⟩
  | _ => ⟨S500000x128, .f32⟩

abbrev hbmTy0_1 (i : Nat) : BufTy := match i % 128 with
  | 0 => ⟨S1024x47, .f32⟩
  | 1 => ⟨S_, .f32⟩
  | 2 => ⟨S1024, .f32⟩
  | 3 => ⟨S10240x1, .i32⟩
  | 4 => ⟨S1024, .f32⟩
  | 5 => ⟨S_, .f32⟩
  | 6 => ⟨S_, .f32⟩
  | 7 => ⟨S1024, .f32⟩
  | 8 => ⟨S1024, .f32⟩
  | 9 => ⟨S1024, .f32⟩
  | 10 => ⟨S1024x1, .f32⟩
  | 11 => ⟨S1024x47, .f32⟩
  | 12 => ⟨S1024x47, .f32⟩
  | 13 => ⟨S1x47, .f32⟩
  | 14 => ⟨S1024x47, .f32⟩
  | 15 => ⟨S1024x47, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_call1_v0 : Ref sig .tc := ⟨.hbm, 62, rfl⟩
abbrev main_call1_v1 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_c_10 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call3_cst : Ref sig .tc := ⟨.hbm, 98, rfl⟩
abbrev main_call3_v0 : Ref sig .tc := ⟨.hbm, 99, rfl⟩
abbrev main_v61 : Ref sig .tc := ⟨.hbm, 100, rfl⟩
abbrev main_cst_14 : Ref sig .tc := ⟨.hbm, 101, rfl⟩
abbrev main_v62 : Ref sig .tc := ⟨.hbm, 102, rfl⟩
abbrev main_cst_15 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_16 : Ref sig .tc := ⟨.hbm, 107, rfl⟩
abbrev main_call4_v0 : Ref sig .tc := ⟨.hbm, 108, rfl⟩
abbrev main_call4_v1 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_17 : Ref sig .tc := ⟨.hbm, 116, rfl⟩
abbrev main_v72 : Ref sig .tc := ⟨.hbm, 117, rfl⟩
abbrev main_v73 : Ref sig .tc := ⟨.hbm, 118, rfl⟩
abbrev main_c_18 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_19 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_20 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_21 : Ref sig .tc := ⟨.hbm, 133, rfl⟩
abbrev main_call5_v0 : Ref sig .tc := ⟨.hbm, 134, rfl⟩
abbrev main_call5_v1 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  bcast_S_S10240 : S_.BroadcastsInDim S10240 (![] : Fin 0 → Fin S10240.rank)
  bcast_S10240_S10240x1_0 : S10240.BroadcastsInDim S10240x1 (![0] : Fin 1 → Fin S10240x1.rank)
  bcast_S_S1024x47 : S_.BroadcastsInDim S1024x47 (![] : Fin 0 → Fin S1024x47.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x47_0_1 : S1024x1.BroadcastsInDim S1024x47 (![0, 1] : Fin 2 → Fin S1024x47.rank)
  bcast_S47_S1x47_1 : S47.BroadcastsInDim S1x47 (![1] : Fin 1 → Fin S1x47.rank)
  bcast_S1x47_S1024x47_0_1 : S1x47.BroadcastsInDim S1024x47 (![0, 1] : Fin 2 → Fin S1024x47.rank)
  dot_S500000x128_S128x128_S500000x128_1_0_0_1_n_n_wf : DotDims.WF S500000x128 S128x128 S500000x128 [1] [0] [0] [1] [] []
  gather_S500000x128_S1000000x1_S1000000x128_1_0_n_n_0_1_1128_wf : GatherDims.WF S500000x128 S1000000x1 S1000000x128 [1] [0] [] [0] [] 1 ![1, 128]
  scatter_S100000x128_S1000000x1_S1000000x128_1_0_0_1_wf : ScatterDims.WF S100000x128 S1000000x1 S1000000x128 [1] [0] [0] 1
  gather_S100000x128_S100000x1_S100000x128_1_0_n_n_0_1_1128_wf : GatherDims.WF S100000x128 S100000x1 S100000x128 [1] [0] [] [0] [] 1 ![1, 128]
  scatter_S100000_S100000x1_S100000_n_0_0_1_wf : ScatterDims.WF S100000 S100000x1 S100000 [] [0] [0] 1
  dot_S100000x128_S128x128_S100000x128_1_0_0_1_n_n_wf : DotDims.WF S100000x128 S128x128 S100000x128 [1] [0] [0] [1] [] []
  scatter_S10000x128_S100000x1_S100000x128_1_0_0_1_wf : ScatterDims.WF S10000x128 S100000x1 S100000x128 [1] [0] [0] 1
  scatter_S10000_S100000x1_S100000_n_0_0_1_wf : ScatterDims.WF S10000 S100000x1 S100000 [] [0] [0] 1
  scatter_S10000_S10240x1_S10240_n_0_0_1_wf : ScatterDims.WF S10000 S10240x1 S10240 [] [0] [0] 1
  dot_S10000x128_S128x47_S10000x47_1_0_0_1_n_n_wf : DotDims.WF S10000x128 S128x47 S10000x47 [1] [0] [0] [1] [] []
  gather_S10000x47_S10240x1_S10240x47_1_0_n_n_0_1_147_wf : GatherDims.WF S10000x47 S10240x1 S10240x47 [1] [0] [] [0] [] 1 ![1, 47]
  scatter_S1024x47_S10240x1_S10240x47_1_0_0_1_wf : ScatterDims.WF S1024x47 S10240x1 S10240x47 [1] [0] [0] 1
  scatter_S1024_S10240x1_S10240_n_0_0_1_wf : ScatterDims.WF S1024 S10240x1 S10240 [] [0] [0] 1

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S500000x128_S1000000x1_S1000000x128_1_0_n_n_0_1_1128 : GatherDims S500000x128 S1000000x1 S1000000x128 where
  offsetDims := [1]
  collapsedSliceDims := [0]
  operandBatchingDims := []
  startIndicesBatchingDims := []
  startIndexMap := [0]
  indexVectorDim := 1
  sliceSizes := ![1, 128]
  wf := gather_S500000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S10000x128_S100000x1_S100000x128_1_0_0_1 : ScatterDims S10000x128 S100000x1 S100000x128 where
  updateWindowDims := [1]
  insertedWindowDims := [0]
  scatterDimsToOperandDims := [0]
  indexVectorDim := 1
  wf := scatter_S10000x128_S100000x1_S100000x128_1_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def scatter_S10000_S10240x1_S10240_n_0_0_1 : ScatterDims S10000 S10240x1 S10240 where
  updateWindowDims := []
  insertedWindowDims := [0]
  scatterDimsToOperandDims := [0]
  indexVectorDim := 1
  wf := scatter_S10000_S10240x1_S10240_n_0_0_1_wf
def dot_S10000x128_S128x47_S10000x47_1_0_0_1_n_n : DotDims S10000x128 S128x47 S10000x47 where
  lhsContracting := [1]
  rhsContracting := [0]
  lhsNonContracting := [0]
  rhsNonContracting := [1]
  lhsBatch := []
  rhsBatch := []
  wf := dot_S10000x128_S128x47_S10000x47_1_0_0_1_n_n_wf
def gather_S10000x47_S10240x1_S10240x47_1_0_n_n_0_1_147 : GatherDims S10000x47 S10240x1 S10240x47 where
  offsetDims := [1]
  collapsedSliceDims := [0]
  operandBatchingDims := []
  startIndicesBatchingDims := []
  startIndexMap := [0]
  indexVectorDim := 1
  sliceSizes := ![1, 47]
  wf := gather_S10000x47_S10240x1_S10240x47_1_0_n_n_0_1_147_wf
def scatter_S1024x47_S10240x1_S10240x47_1_0_0_1 : ScatterDims S1024x47 S10240x1 S10240x47 where
  updateWindowDims := [1]
  insertedWindowDims := [0]
  scatterDimsToOperandDims := [0]
  indexVectorDim := 1
  wf := scatter_S1024x47_S10240x1_S10240x47_1_0_0_1_wf
def scatter_S1024_S10240x1_S10240_n_0_0_1 : ScatterDims S1024 S10240x1 S10240 where
  updateWindowDims := []
  insertedWindowDims := [0]
  scatterDimsToOperandDims := [0]
  indexVectorDim := 1
  wf := scatter_S1024_S10240x1_S10240_n_0_0_1_wf

class Facts : Prop extends Facts₀ where

variable [Facts]
-- ==== Proof.Spec.lean ====
/-
  A three-layer sampled graph convolution, written as formulas over the extended reals.

  Each layer gathers source rows along edges, sums the messages that land on each destination row, optionally scales
  source and destination rows by the inverse square root of their (clamped) degrees, and applies a dense map with a bias.
  There are two arrangements of one layer: aggregate first and multiply by the weight matrix afterwards, or multiply first
  and aggregate the products.  The definitions below state both arrangements index by index; that they agree on real
  (finite) data is an exchange of two finite sums and distributivity, proved elsewhere.

  Edge tables hold 32-bit words.  A gather reads a word as a signed integer after jnp's wrap of negatives, clamped into the
  table; a segment sum adds the messages whose segment word, read signed and not wrapped, equals the row number, so a word
  outside the range contributes to no row.
-/
import Idealize.ShloMosaic.PureOps.Ideal
import Idealize.ShloMosaic.Lib.ValueIdx

noncomputable section

namespace Gcn

open Idealize.ShloMosaic Idealize.ShloMosaic.ValueIdx

/-- A flat table of 32-bit words. -/
abbrev Words (E : ℕ) := (⟨1, ![E]⟩ : Shape).Idx → BitVec 32
/-- A matrix and a vector of extended reals, indexed as the programs index them. -/
abbrev Mat (R C : ℕ) := (⟨2, ![R, C]⟩ : Shape).Idx → EReal
abbrev Vect (R : ℕ) := (⟨1, ![R]⟩ : Shape).Idx → EReal

/-- The float word of 1.0 read as an extended real. -/
def lit1 : EReal := Ideal.ofBits .f32 0x3F800000#32

/-- jnp's wrap of a negative index word into an axis whose extent is the word Nw: w + Nw when w is negative, else w. -/
def wrapW (Nw w : BitVec 32) : BitVec 32 := Scalar.select (IntOp.cmpi .slt w 0#32) (IntOp.addi w Nw) w

/-- The row a start-index word selects in a table of N rows: wrapped, read signed, clamped into the table. -/
def rowV (N : ℕ) (hN : 0 < N) (Nw w : BitVec 32) : Fin N := ⟨min (wrapW Nw w).toInt.toNat (N - 1), by omega⟩

/-- The sum of the messages u e over the edges e whose segment word, read signed, is the row number r. -/
def segsum {E : ℕ} (seg : Words E) (u : Fin E → EReal) (r : ℕ) : EReal :=
  ∑ e : Fin E, if (seg (ix1 e)).toInt = (r : ℤ) then u e else 0

/-- The degree scale of row r: one over the square root of the row's edge count, the count clamped below by one. -/
def scl {E : ℕ} (seg : Words E) (r : ℕ) : EReal := Ideal.rsqrt (max lit1 (segsum seg (fun _ => lit1) r))

def relu (x : EReal) : EReal := max x 0

/-- A row of A times the matrix W, plus the bias. -/
def dense {R K C : ℕ} (A : Fin R → Fin K → EReal) (W : Fin K → Fin C → EReal) (b : Fin C → EReal) (r : Fin R) (c : Fin C) : EReal :=
  (∑ k : Fin K, A r k * W k c) + b c

section Layers
variable {J E K R C : ℕ}

/-- Unscaled layer, aggregate first: the gathered source rows summed per destination row. -/
def agg0 (X : Fin J → Fin K → EReal) (g : Fin E → Fin J) (dst : Words E) (r : ℕ) (k : Fin K) : EReal :=
  segsum dst (fun e => X (g e) k) r
/-- Unscaled layer, aggregate first, then the dense map and relu. -/
def h0K (X : Fin J → Fin K → EReal) (g : Fin E → Fin J) (dst : Words E) (W : Fin K → Fin C → EReal) (b : Fin C → EReal)
    (r : Fin R) (c : Fin C) : EReal :=
  relu (dense (fun (r : Fin R) k => agg0 X g dst r.val k) W b r c)
/-- Unscaled layer, multiply first: the products summed per destination row, plus the bias (no relu yet). -/
def pre0R (X : Fin J → Fin K → EReal) (g : Fin E → Fin J) (dst : Words E) (W : Fin K → Fin C → EReal) (b : Fin C → EReal)
    (r : Fin R) (c : Fin C) : EReal :=
  segsum dst (fun e => ∑ k : Fin K, X (g e) k * W k c) r.val + b c

/-- Scaled layer, aggregate first: messages H (p e) k · sc e summed per destination row, times the row's scale. -/
def aggS (H : Fin J → Fin K → EReal) (p : Fin E → Fin J) (sc : Fin E → EReal) (dst : Words E) (ds : Fin R → EReal)
    (r : Fin R) (k : Fin K) : EReal :=
  segsum dst (fun e => H (p e) k * sc e) r.val * ds r
/-- Scaled layer, aggregate first, then the dense map (no relu). -/
def layerK (H : Fin J → Fin K → EReal) (p : Fin E → Fin J) (sc : Fin E → EReal) (dst : Words E) (ds : Fin R → EReal)
    (W : Fin K → Fin C → EReal) (b : Fin C → EReal) (r : Fin R) (c : Fin C) : EReal :=
  dense (aggS H p sc dst ds) W b r c
/-- Scaled layer, multiply first: the scaled rows times W, gathered, summed per destination row, scaled, plus the bias. -/
def layerR (H : Fin J → Fin K → EReal) (p : Fin E → Fin J) (sc : Fin E → EReal) (dst : Words E) (ds : Fin R → EReal)
    (W : Fin K → Fin C → EReal) (b : Fin C → EReal) (r : Fin R) (c : Fin C) : EReal :=
  segsum dst (fun e => ∑ k : Fin K, (H (p e) k * sc e) * W k c) r.val * ds r + b c

end Layers

/-- The fifteen inputs, as the programs hold them. -/
structure In where
  X : Mat 500000 128
  src0 : Words 1000000
  dst0 : Words 1000000
  src1 : Words 100000
  dst1 : Words 100000
  src2 : Words 10240
  dst2 : Words 10240
  inv : Words 100000
  shuf : Words 100000
  W0 : Mat 128 128
  b0 : Vect 128
  W1 : Mat 128 128
  b1 : Vect 128
  W2 : Mat 128 47
  b2 : Vect 47

variable (a : In)

def cX : Fin 500000 → Fin 128 → EReal := fun i k => a.X (ix2 i k)
def cW0 : Fin 128 → Fin 128 → EReal := fun k c => a.W0 (ix2 k c)
def cb0 : Fin 128 → EReal := fun c => a.b0 (ix1 c)
def cW1 : Fin 128 → Fin 128 → EReal := fun k c => a.W1 (ix2 k c)
def cb1 : Fin 128 → EReal := fun c => a.b1 (ix1 c)
def cW2 : Fin 128 → Fin 47 → EReal := fun k c => a.W2 (ix2 k c)
def cb2 : Fin 47 → EReal := fun c => a.b2 (ix1 c)

/-- The source row of an edge, per layer. -/
def g0 (e : Fin 1000000) : Fin 500000 := rowV 500000 (by decide) 500000#32 (a.src0 (ix1 e))
def g1 (e : Fin 100000) : Fin 100000 := rowV 100000 (by decide) 100000#32 (a.src1 (ix1 e))
def g2 (e : Fin 10240) : Fin 10000 := rowV 10000 (by decide) 10000#32 (a.src2 (ix1 e))
/-- The two re-indexings between layers 0 and 1, composed: row j of the permuted features is row perm j. -/
def perm (j : Fin 100000) : Fin 100000 :=
  rowV 100000 (by decide) 100000#32 (a.inv (ix1 (rowV 100000 (by decide) 100000#32 (a.shuf (ix1 j)))))
/-- The layer-0 row that edge e of layer 1 reads. -/
def p1 (e : Fin 100000) : Fin 100000 := perm a (g1 a e)
/-- Degree scales: at an edge's source row, and at a destination row. -/
def sc1 (e : Fin 100000) : EReal := scl a.src1 (g1 a e).val
def ds1 (r : Fin 10000) : EReal := scl a.dst1 r.val
def sc2 (e : Fin 10240) : EReal := scl a.src2 (g2 a e).val
def ds2 (r : Fin 1024) : EReal := scl a.dst2 r.val

/-- The three layers, aggregate first. -/
def H0K : Fin 100000 → Fin 128 → EReal := h0K (cX a) (g0 a) a.dst0 (cW0 a) (cb0 a)
def H1K : Fin 10000 → Fin 128 → EReal := fun j k => relu (layerK (H0K a) (p1 a) (sc1 a) a.dst1 (ds1 a) (cW1 a) (cb1 a) j k)
def outK : Fin 1024 → Fin 47 → EReal := layerK (H1K a) (g2 a) (sc2 a) a.dst2 (ds2 a) (cW2 a) (cb2 a)

/-- The three layers, multiply first. -/
def H0R : Fin 100000 → Fin 128 → EReal := fun j k => relu (pre0R (cX a) (g0 a) a.dst0 (cW0 a) (cb0 a) j k)
def H1R : Fin 10000 → Fin 128 → EReal := fun j k => relu (layerR (H0R a) (p1 a) (sc1 a) a.dst1 (ds1 a) (cW1 a) (cb1 a) j k)
def outR : Fin 1024 → Fin 47 → EReal := layerR (H1R a) (g2 a) (sc2 a) a.dst2 (ds2 a) (cW2 a) (cb2 a)

/-- Every entry is a real number. -/
def IsReal2 {A B : ℕ} (X : Fin A → Fin B → EReal) : Prop := ∃ f : Fin A → Fin B → ℝ, ∀ i j, X i j = (f i j : EReal)
def IsReal1 {A : ℕ} (v : Fin A → EReal) : Prop := ∃ f : Fin A → ℝ, ∀ i, v i = (f i : EReal)

/-- The float inputs are real. -/
structure In.Real (a : In) : Prop where
  X : IsReal2 (cX a)
  W0 : IsReal2 (cW0 a)
  b0 : IsReal1 (cb0 a)
  W1 : IsReal2 (cW1 a)
  b1 : IsReal1 (cb1 a)
  W2 : IsReal2 (cW2 a)
  b2 : IsReal1 (cb2 a)

/-- What the precondition gives: real float inputs, and the four index tables that are gathered through inside their tables. -/
structure In.Good (a : In) : Prop where
  real : a.Real
  src1 : ∀ e : Fin 100000, 0 ≤ (a.src1 (ix1 e)).toInt ∧ (a.src1 (ix1 e)).toInt < 100000
  src2 : ∀ e : Fin 10240, 0 ≤ (a.src2 (ix1 e)).toInt ∧ (a.src2 (ix1 e)).toInt < 10000
  inv : ∀ j : Fin 100000, 0 ≤ (a.inv (ix1 j)).toInt ∧ (a.inv (ix1 j)).toInt < 100000
  shuf : ∀ j : Fin 100000, 0 ≤ (a.shuf (ix1 j)).toInt ∧ (a.shuf (ix1 j)).toInt < 100000

end Gcn

end
-- ==== Proof.KIn.lean ====
/-
  The fifteen inputs, read off a memory of the idealized kernel's program on one device.
-/
import proofs.«415471_j1468878815350_3_alg».proof.KernelIdeal
import proofs.«415471_j1468878815350_3_alg».proof.Proof.Spec

noncomputable section

namespace Cert.KernelIdeal

open Idealize.ShloMosaic Idealize.SL.Sem

def inOf (m : (ℓ : Loc nD τ sig) → Buf (Elt Ideal) ℓ) (c : Dev nD) : Gcn.In where
  X := m ((c.tc : Thread nD τ).loc main_arg0)
  src0 := m ((c.tc : Thread nD τ).loc main_arg1)
  dst0 := m ((c.tc : Thread nD τ).loc main_arg2)
  src1 := m ((c.tc : Thread nD τ).loc main_arg3)
  dst1 := m ((c.tc : Thread nD τ).loc main_arg4)
  src2 := m ((c.tc : Thread nD τ).loc main_arg5)
  dst2 := m ((c.tc : Thread nD τ).loc main_arg6)
  inv := m ((c.tc : Thread nD τ).loc main_arg7)
  shuf := m ((c.tc : Thread nD τ).loc main_arg8)
  W0 := m ((c.tc : Thread nD τ).loc main_arg9)
  b0 := m ((c.tc : Thread nD τ).loc main_arg10)
  W1 := m ((c.tc : Thread nD τ).loc main_arg11)
  b1 := m ((c.tc : Thread nD τ).loc main_arg12)
  W2 := m ((c.tc : Thread nD τ).loc main_arg13)
  b2 := m ((c.tc : Thread nD τ).loc main_arg14)

end Cert.KernelIdeal

end
-- ==== Proof.KRegion0.lean ====
/-
  The first dense layer's region: ten blocks of 10000 rows.  Every block of the output is the same function of the three input arrays: row j, column q of the result is
  the row j of the first array times column q of the second, plus entry q of the bias row, clipped below at zero; the blocks tile the rows, so the
  whole output array is that function.
-/
import proofs.«415471_j1468878815350_3_alg».proof.Proof.Gen.KernelIdeal.Frame
import proofs.«415471_j1468878815350_3_alg».proof.Proof.Spec
import proofs.«415471_j1468878815350_3_alg».proof.Proof.KIn
import Idealize.ShloMosaic.Lib.Pipeline.Value
import Idealize.ShloMosaic.Lib.ValueLayout
import Idealize.ShloMosaic.PureOps.Ideal.Laws
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

/-! ## The body's arithmetic at one entry of a block -/

/-- The contraction's coordinate facts: at output entry i and contraction index q the left operand is read at
    (row of i, q) and the right operand at (q, column of i). -/
theorem reg0_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem reg0_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem reg0_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem reg0_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's matrix product into a zero accumulator, read at row p and column q: the sum over the 128 contraction
    indices of the left operand's row p times the right operand's column q. -/
theorem reg0_mm_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q)
      = ∑ k : Fin 128, l (ix2 p k) * r (ix2 k q) := by
  show FloatOps.matmul dot_S10000x128_S128x128_S10000x128_1_0_0_1_n_n none l r (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact reg0_lhs_0 _ _
    | ⟨1, _⟩ => exact (reg0_lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (reg0_rhs_0 _ _).trans hk
    | ⟨1, _⟩ => exact reg0_rhs_1 _ _)
  rw [el, er]

/-- The body's arithmetic at row p, column q of a block: the change of float format is the identity on extended reals,
    so the entry is row p of the first block times column q of the second, plus the bias row's entry q, clipped below
    at zero (the float word of zero reads as the extended real zero). -/
theorem reg0_pay_apply (x0 : Vec Ideal S10000x128 .f32) (x1 : Vec Ideal S128x128 .f32) (x2 : Vec Ideal S1x128 .f32)
    (p : Fin 10000) (q : Fin 128) :
    (k0_pay1 (F := Ideal) x0 x1 x2) (ix2 p q)
      = Gcn.relu ((∑ k : Fin 128, x0 (ix2 p k) * x1 (ix2 k q)) + x2 (ix2 (0 : Fin 1) q)) := by
  unfold k0_pay1
  simp only [shapeCast_self]
  rw [maximumf_apply, addf_apply, reg0_mm_apply, broadcastTo_1b_ab_apply, broadcast_apply]
  show max (_ + _) (Ideal.ofBits .f32 0x00000000#32) = _
  rw [Ideal.ofBits_zero_f32]
  rfl

/-! ## One block as a block of rows of one whole-array function -/

theorem reg0_hz : (![0, 0] : Fin 2 → Nat) = fun _ => 0 := funext fun a => by fin_cases a <;> rfl

/-- The whole output array as one function of the three input arrays: at index i, row i 0 and column i 1 of the dense
    map, clipped below at zero. -/
def reg0_G (a0 : S100000x128.Idx → EReal) (a1 : S128x128.Idx → EReal) (a2 : S1x128.Idx → EReal) : S100000x128.Idx → EReal :=
  fun i => Gcn.relu (Gcn.dense (fun (r : Fin 100000) (k : Fin 128) => a0 (ix2 r k)) (fun (k : Fin 128) (c' : Fin 128) => a1 (ix2 k c'))
    (fun (c' : Fin 128) => a2 (ix2 (0 : Fin 1) c')) (i 0) (i 1))

/-- When the first input block holds rows b·10000 … b·10000 + 9999 of the first array and the other two blocks are the
    whole second and third arrays, entry j of the body's result is the whole-array function at row b·10000 + j 0,
    column j 1: the sum over the contraction index reads the same entries on both sides. -/
theorem reg0_blk_eq (a0 : S100000x128.Idx → EReal) (a1 : S128x128.Idx → EReal) (a2 : S1x128.Idx → EReal)
    (x0 : Vec Ideal S10000x128 .f32) (x1 : Vec Ideal S128x128 .f32) (x2 : Vec Ideal S1x128 .f32) (b : ℕ)
    (h0 : ∀ (y : S10000x128.Idx) (i' : S100000x128.Idx), (i' 0).val = b * 10000 + (y 0).val → (i' 1).val = (y 1).val → x0 y = a0 i')
    (h1 : x1 = a1) (h2 : x2 = a2)
    (j : S10000x128.Idx) (i : S100000x128.Idx) (hi0 : (i 0).val = b * 10000 + (j 0).val) (hi1 : (i 1).val = (j 1).val) :
    (k0_pay1 (F := Ideal) x0 x1 x2) j = reg0_G a0 a1 a2 i := by
  subst h1 h2
  obtain ⟨p, q, rfl⟩ : ∃ (p : Fin 10000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [reg0_pay_apply]
  show Gcn.relu (_ + _) = Gcn.relu ((∑ k : Fin 128, a0 (ix2 r k) * x1 (ix2 k s)) + x2 (ix2 (0 : Fin 1) s))
  refine congrArg (fun z => Gcn.relu (z + x2 (ix2 (0 : Fin 1) s))) (Finset.sum_congr rfl fun k _ => ?_)
  rw [h0 (ix2 p k) (ix2 r k) hi0 rfl]

/-! ## The windows' blocks at a point, and what a point writes back -/

/-- The index maps over the grid: the first window and the output window are at block (t, 0) at point t, the second and
    third windows at block (0, 0) at every point. -/
theorem reg0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b))

/-- The first window's block at point t is rows t·10000 … t·10000 + 9999 of its array: an element of a block sits, on
    each axis, at block index × block size + its coordinate inside the block. -/
theorem reg0_iblk_0_apply (c : Dev nD) (t : Fin cfg0.N) (y : S10000x128.Idx) (i' : S100000x128.Idx)
    (h0 : (i' 0).val = t.val * 10000 + (y 0).val) (h1 : (i' 1).val = (y 1).val) :
    (iblk0 V c 0 t : Vec Ideal S10000x128 .f32) y = (V c (Pipeline.arrRef spec0 0) : S100000x128.Idx → EReal) i' := by
  obtain ⟨e0, e1, -⟩ := reg0_idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 10000 + 1 * (y 0).val = (i' 0).val; rw [e0, h0]; omega
  | ⟨1, _⟩ => show win0_0.index t (1 : Fin 2) * 128 + 1 * (y 1).val = (i' 1).val; rw [e1, h1]; omega

/-- The second window's block at every point is its whole array. -/
theorem reg0_iblk_1_eq (c : Dev nD) (t : Fin cfg0.N) :
    (iblk0 V c 1 t : Vec Ideal S128x128 .f32) = (V c (Pipeline.arrRef spec0 1) : S128x128.Idx → EReal) := by
  obtain ⟨-, -, e0, e1, -⟩ := reg0_idx_facts t
  funext y
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The third window's block at every point is its whole array, the one bias row. -/
theorem reg0_iblk_2_eq (c : Dev nD) (t : Fin cfg0.N) :
    (iblk0 V c 2 t : Vec Ideal S1x128 .f32) = (V c (Pipeline.arrRef spec0 2) : S1x128.Idx → EReal) := by
  obtain ⟨-, -, -, -, e0, e1, -⟩ := reg0_idx_facts t
  funext y
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point t writes back is block t of the whole-array function of the three arrays as the region finds them: the
    body's one store covers the staging buffer, its loads read the whole input blocks, and the output block sits at
    rows t·10000 … of the output array. -/
theorem reg0_flushed_eq (c : Dev nD) (t : Fin cfg0.N) :
    (dat0 (F := Ideal) V c).flushed 3 t = ((cfg0.win 3).blk t).view.read (Elt Ideal)
      (reg0_G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero reg0_hz]
  simp only [View.ld_unit_zero (S := S10000x128) reg0_hz, View.ld_unit_zero (S := S128x128) reg0_hz, View.ld_unit_zero (S := S1x128) reg0_hz]
  obtain ⟨-, -, -, -, -, -, e0, e1⟩ := reg0_idx_facts t
  funext j
  rw [View.read_apply]
  refine reg0_blk_eq (V c (Pipeline.arrRef spec0 0)) (V c (Pipeline.arrRef spec0 1)) (V c (Pipeline.arrRef spec0 2))
    (iblk0 V c 0 t) (iblk0 V c 1 t) (iblk0 V c 2 t) t.val (fun y i' h0 h1 => reg0_iblk_0_apply V c t y i' h0 h1)
    (reg0_iblk_1_eq V c t) (reg0_iblk_2_eq V c t) j (((cfg0.win 3).blk t).view.emb j) ?_ ?_
  · show win0_3.index t (0 : Fin 2) * 10000 + 1 * (j 0).val = t.val * 10000 + (j 0).val; rw [e0]; omega
  · show win0_3.index t (1 : Fin 2) * 128 + 1 * (j 1).val = (j 1).val; rw [e1]; omega

/-! ## From the blocks to the array -/

/-- An index of the output array is in point t's block iff each coordinate is in the block's range on its axis. -/
theorem reg0_mem_blk (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v11).slice (win0_3.rect t)).set ↔ _
  rw [View.set_slice_whole, Rect.mem_set_unit]
  exact Iff.rfl

/-- The blocks tile the rows: row r lies in the block of point r / 10000, and every point writes its block back. -/
theorem reg0_cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, -, -, e0, e1⟩ := reg0_idx_facts t
  refine ⟨t, flush0_3 t, ?_⟩
  rw [reg0_mem_blk]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 128 ≤ (i 1).val ∧ (i 1).val < win0_3.index t (1 : Fin 2) * 128 + 128; rw [e1]; omega

/-- The output array after all the region's points is the whole-array function of the three input arrays. -/
theorem reg0_final (c : Dev nD) : (dat0 (F := Ideal) V c).arrAt 3 cfg0.N
    = reg0_G (V c (Pipeline.arrRef spec0 0)) (V c (Pipeline.arrRef spec0 1)) (V c (Pipeline.arrRef spec0 2)) :=
  (dat0 V c).arrAt_eq_of_cover 3 _ (fun t _ => reg0_flushed_eq V c t) reg0_cover

end Blocks

theorem region0_val (V : (c : Dev nD) → (b : Ref sig .tc) → Buf (Elt Ideal) ((c : Thread nD τ).loc b)) (c : Dev nD)
    (j : Fin 100000) (q : Fin 128) :
    (dat0 (F := Ideal) V c).arrAt 3 cfg0.N (ix2 j q)
      = Gcn.relu (Gcn.dense (fun (i : Fin 100000) (k : Fin 128) => V c (Pipeline.arrRef spec0 0) (ix2 i k))
        (fun (k : Fin 128) (c' : Fin 128) => V c (Pipeline.arrRef spec0 1) (ix2 k c'))
        (fun (c' : Fin 128) => V c (Pipeline.arrRef spec0 2) (ix2 (0 : Fin 1) c')) j q) :=
  congrFun (reg0_final V c) (ix2 j q)

end Cert.KernelIdeal.KVal

end
-- ==== Proof.KRegion1.lean ====
/-
  The second dense layer's region: two blocks of 5000 rows.  Every block of the output is the same function of the three input arrays: row j, column q of the result is
  the row j of the first array times column q of the second, plus entry q of the bias row, clipped below at zero; the blocks tile the rows, so the
  whole output array is that function.
-/
import proofs.«415471_j1468878815350_3_alg».proof.Proof.Gen.KernelIdeal.Frame
import proofs.«415471_j1468878815350_3_alg».proof.Proof.Spec
import proofs.«415471_j1468878815350_3_alg».proof.Proof.KIn
import Idealize.ShloMosaic.Lib.Pipeline.Value
import Idealize.ShloMosaic.Lib.ValueLayout
import Idealize.ShloMosaic.PureOps.Ideal.Laws
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

/-! ## The body's arithmetic at one entry of a block -/

/-- The contraction's coordinate facts: at output entry i and contraction index q the left operand is read at
    (row of i, q) and the right operand at (q, column of i). -/
theorem reg1_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem reg1_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem reg1_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem reg1_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, read at row p and column q: the sum over the 128 contraction
    indices of the left operand's row p times the right operand's column q. -/
theorem reg1_mm_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact reg1_lhs_0 _ _
    | ⟨1, _⟩ => exact (reg1_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (reg1_rhs_0 _ _).trans hk
    | ⟨1, _⟩ => exact reg1_rhs_1 _ _)
  rw [el, er]

/-- The body's arithmetic at row p, column q of a block: the change of float format is the identity on extended reals,
    so the entry is row p of the first block times column q of the second, plus the bias row's entry q, clipped below
    at zero (the float word of zero reads as the extended real zero). -/
theorem reg1_pay_apply (x0 : Vec Ideal S5000x128 .f32) (x1 : Vec Ideal S128x128 .f32) (x2 : Vec Ideal S1x128 .f32)
    (p : Fin 5000) (q : Fin 128) :
    (k1_pay1 (F := Ideal) x0 x1 x2) (ix2 p q)
      = Gcn.relu ((∑ k : Fin 128, x0 (ix2 p k) * x1 (ix2 k q)) + x2 (ix2 (0 : Fin 1) q)) := by
  unfold k1_pay1
  simp only [shapeCast_self]
  rw [maximumf_apply, addf_apply, reg1_mm_apply, broadcastTo_1b_ab_apply, broadcast_apply]
  show max (_ + _) (Ideal.ofBits .f32 0x00000000#32) = _
  rw [Ideal.ofBits_zero_f32]
  rfl

/-! ## One block as a block of rows of one whole-array function -/

theorem reg1_hz : (![0, 0] : Fin 2 → Nat) = fun _ => 0 := funext fun a => by fin_cases a <;> rfl

/-- The whole output array as one function of the three input arrays: at index i, row i 0 and column i 1 of the dense
    map, clipped below at zero. -/
def reg1_G (a0 : S10000x128.Idx → EReal) (a1 : S128x128.Idx → EReal) (a2 : S1x128.Idx → EReal) : S10000x128.Idx → EReal :=
  fun i => Gcn.relu (Gcn.dense (fun (r : Fin 10000) (k : Fin 128) => a0 (ix2 r k)) (fun (k : Fin 128) (c' : Fin 128) => a1 (ix2 k c'))
    (fun (c' : Fin 128) => a2 (ix2 (0 : Fin 1) c')) (i 0) (i 1))

/-- When the first input block holds rows b·5000 … b·5000 + 4999 of the first array and the other two blocks are the
    whole second and third arrays, entry j of the body's result is the whole-array function at row b·5000 + j 0,
    column j 1: the sum over the contraction index reads the same entries on both sides. -/
theorem reg1_blk_eq (a0 : S10000x128.Idx → EReal) (a1 : S128x128.Idx → EReal) (a2 : S1x128.Idx → EReal)
    (x0 : Vec Ideal S5000x128 .f32) (x1 : Vec Ideal S128x128 .f32) (x2 : Vec Ideal S1x128 .f32) (b : ℕ)
    (h0 : ∀ (y : S5000x128.Idx) (i' : S10000x128.Idx), (i' 0).val = b * 5000 + (y 0).val → (i' 1).val = (y 1).val → x0 y = a0 i')
    (h1 : x1 = a1) (h2 : x2 = a2)
    (j : S5000x128.Idx) (i : S10000x128.Idx) (hi0 : (i 0).val = b * 5000 + (j 0).val) (hi1 : (i 1).val = (j 1).val) :
    (k1_pay1 (F := Ideal) x0 x1 x2) j = reg1_G a0 a1 a2 i := by
  subst h1 h2
  obtain ⟨p, q, rfl⟩ : ∃ (p : Fin 5000) (q : Fin 128), j = ix2 p q := ⟨j 0, j 1, eq_ix2 j⟩
  obtain ⟨r, s, rfl⟩ : ∃ (r : Fin 10000) (s : Fin 128), i = ix2 r s := ⟨i 0, i 1, eq_ix2 i⟩
  have hs : s = q := Fin.ext hi1
  subst hs
  rw [reg1_pay_apply]
  show Gcn.relu (_ + _) = Gcn.relu ((∑ k : Fin 128, a0 (ix2 r k) * x1 (ix2 k s)) + x2 (ix2 (0 : Fin 1) s))
  refine congrArg (fun z => Gcn.relu (z + x2 (ix2 (0 : Fin 1) s))) (Finset.sum_congr rfl fun k _ => ?_)
  rw [h0 (ix2 p k) (ix2 r k) hi0 rfl]

/-! ## The windows' blocks at a point, and what a point writes back -/

/-- The index maps over the grid: the first window and the output window are at block (t, 0) at point t, the second and
    third windows at block (0, 0) at every point. -/
theorem reg1_idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b))

/-- The first window's block at point t is rows t·5000 … t·5000 + 4999 of its array: an element of a block sits, on
    each axis, at block index × block size + its coordinate inside the block. -/
theorem reg1_iblk_0_apply (c : Dev nD) (t : Fin cfg1.N) (y : S5000x128.Idx) (i' : S10000x128.Idx)
    (h0 : (i' 0).val = t.val * 5000 + (y 0).val) (h1 : (i' 1).val = (y 1).val) :
    (iblk1 V c 0 t : Vec Ideal S5000x128 .f32) y = (V c (Pipeline.arrRef spec1 0) : S10000x128.Idx → EReal) i' := by
  obtain ⟨e0, e1, -⟩ := reg1_idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (y 0).val = (i' 0).val; rw [e0, h0]; omega
  | ⟨1, _⟩ => show win1_0.index t (1 : Fin 2) * 128 + 1 * (y 1).val = (i' 1).val; rw [e1, h1]; omega

/-- The second window's block at every point is its whole array. -/
theorem reg1_iblk_1_eq (c : Dev nD) (t : Fin cfg1.N) :
    (iblk1 V c 1 t : Vec Ideal S128x128 .f32) = (V c (Pipeline.arrRef spec1 1) : S128x128.Idx → EReal) := by
  obtain ⟨-, -, e0, e1, -⟩ := reg1_idx_facts t
  funext y
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The third window's block at every point is its whole array, the one bias row. -/
theorem reg1_iblk_2_eq (c : Dev nD) (t : Fin cfg1.N) :
    (iblk1 V c 2 t : Vec Ideal S1x128 .f32) = (V c (Pipeline.arrRef spec1 2) : S1x128.Idx → EReal) := by
  obtain ⟨-, -, -, -, e0, e1, -⟩ := reg1_idx_facts t
  funext y
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- What point t writes back is block t of the whole-array function of the three arrays as the region finds them: the
    body's one store covers the staging buffer, its loads read the whole input blocks, and the output block sits at
    rows t·5000 … of the output array. -/
theorem reg1_flushed_eq (c : Dev nD) (t : Fin cfg1.N) :
    (dat1 (F := Ideal) V c).flushed 3 t = ((cfg1.win 3).blk t).view.read (Elt Ideal)
      (reg1_G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero reg1_hz]
  simp only [View.ld_unit_zero (S := S5000x128) reg1_hz, View.ld_unit_zero (S := S128x128) reg1_hz, View.ld_unit_zero (S := S1x128) reg1_hz]
  obtain ⟨-, -, -, -, -, -, e0, e1⟩ := reg1_idx_facts t
  funext j
  rw [View.read_apply]
  refine reg1_blk_eq (V c (Pipeline.arrRef spec1 0)) (V c (Pipeline.arrRef spec1 1)) (V c (Pipeline.arrRef spec1 2))
    (iblk1 V c 0 t) (iblk1 V c 1 t) (iblk1 V c 2 t) t.val (fun y i' h0 h1 => reg1_iblk_0_apply V c t y i' h0 h1)
    (reg1_iblk_1_eq V c t) (reg1_iblk_2_eq V c t) j (((cfg1.win 3).blk t).view.emb j) ?_ ?_
  · show win1_3.index t (0 : Fin 2) * 5000 + 1 * (j 0).val = t.val * 5000 + (j 0).val; rw [e0]; omega
  · show win1_3.index t (1 : Fin 2) * 128 + 1 * (j 1).val = (j 1).val; rw [e1]; omega

/-! ## From the blocks to the array -/

/-- An index of the output array is in point t's block iff each coordinate is in the block's range on its axis. -/
theorem reg1_mem_blk (t : Fin cfg1.N) (i : S10000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v37).slice (win1_3.rect t)).set ↔ _
  rw [View.set_slice_whole, Rect.mem_set_unit]
  exact Iff.rfl

/-- The blocks tile the rows: row r lies in the block of point r / 5000, and every point writes its block back. -/
theorem reg1_cover (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ : ∃ t : Fin cfg1.N, t.val = (i 0).val / 5000 :=
    ⟨⟨(i 0).val / 5000, by rw [show cfg1.N = 2 from N_1]; omega⟩, rfl⟩
  obtain ⟨-, -, -, -, -, -, e0, e1⟩ := reg1_idx_facts t
  refine ⟨t, flush1_3 t, ?_⟩
  rw [reg1_mem_blk]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 128 ≤ (i 1).val ∧ (i 1).val < win1_3.index t (1 : Fin 2) * 128 + 128; rw [e1]; omega

/-- The output array after all the region's points is the whole-array function of the three input arrays. -/
theorem reg1_final (c : Dev nD) : (dat1 (F := Ideal) V c).arrAt 3 cfg1.N
    = reg1_G (V c (Pipeline.arrRef spec1 0)) (V c (Pipeline.arrRef spec1 1)) (V c (Pipeline.arrRef spec1 2)) :=
  (dat1 V c).arrAt_eq_of_cover 3 _ (fun t _ => reg1_flushed_eq V c t) reg1_cover

end Blocks

theorem region1_val (V : (c : Dev nD) → (b : Ref sig .tc) → Buf (Elt Ideal) ((c : Thread nD τ).loc b)) (c : Dev nD)
    (j : Fin 10000) (q : Fin 128) :
    (dat1 (F := Ideal) V c).arrAt 3 cfg1.N (ix2 j q)
      = Gcn.relu (Gcn.dense (fun (i : Fin 10000) (k : Fin 128) => V c (Pipeline.arrRef spec1 0) (ix2 i k))
        (fun (k : Fin 128) (c' : Fin 128) => V c (Pipeline.arrRef spec1 1) (ix2 k c'))
        (fun (c' : Fin 128) => V c (Pipeline.arrRef spec1 2) (ix2 (0 : Fin 1) c')) j q) :=
  congrFun (reg1_final V c) (ix2 j q)

end Cert.KernelIdeal.KVal

end
-- ==== Proof.KRegion2.lean ====
/-
  The last dense layer's region: one block of 1024 rows, no relu.  Every block of the output is the same function of the three input arrays: row j, column q of the result is
  the row j of the first array times column q of the second, plus entry q of the bias row; the blocks tile the rows, so the
  whole output array is that function.
-/
import proofs.«415471_j1468878815350_3_alg».proof.Proof.Gen.KernelIdeal.Frame
import proofs.«415471_j1468878815350_3_alg».proof.Proof.Spec
import proofs.«415471_j1468878815350_3_alg».proof.Proof.KIn
import Idealize.ShloMosaic.Lib.Pipeline.Value
import Idealize.ShloMosaic.Lib.ValueLayout
import Idealize.ShloMosaic.PureOps.Ideal.Laws
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

/-! ## The body's arithmetic at one entry of the block: a 1024 × 128 block times a 128 × 47 matrix, plus a bias row of 47 entries -/

/-- The contraction's coordinate facts: at output entry i and contraction index q the left operand is read at
    (row of i, q) and the right operand at (q, column of i). -/
theorem reg2_lhs_0 (i : S1024x47.Idx) (q : dot_S1024x128_S128x47_S1024x47_1_0_0_1_n_n.contr.Idx) :
    (dot_S1024x128_S128x47_S1024x47_1_0_0_1_n_n.lhsIdx i q 0).val = (i 0).val := by
  unfold DotDims.lhsIdx
  rw [dif_neg (show ¬(0 : Fin S1024x128.rank) ∈ dot_S1024x128_S128x47_S1024x47_1_0_0_1_n_n.lhsBatch by decide), dif_pos (show (0 : Fin S1024x128.rank) ∈ dot_S1024x128_S128x47_S1024x47_1_0_0_1_n_n.lhsNonContracting by decide)]
  rfl
theorem reg2_lhs_1 (i : S1024x47.Idx) (q : dot_S1024x128_S128x47_S1024x47_1_0_0_1_n_n.contr.Idx) :
    (dot_S1024x128_S128x47_S1024x47_1_0_0_1_n_n.lhsIdx i q 1).val = (q ⟨0, by decide⟩).val :=
  dot_S1024x128_S128x47_S1024x47_1_0_0_1_n_n.lhsIdx_val_of_single rfl i q
theorem reg2_rhs_0 (i : S1024x47.Idx) (q : dot_S1024x128_S128x47_S1024x47_1_0_0_1_n_n.contr.Idx) :
    (dot_S1024x128_S128x47_S1024x47_1_0_0_1_n_n.rhsIdx i q 0).val = (q ⟨0, by decide⟩).val :=
  dot_S1024x128_S128x47_S1024x47_1_0_0_1_n_n.rhsIdx_val_of_single rfl i q
theorem reg2_rhs_1 (i : S1024x47.Idx) (q : dot_S1024x128_S128x47_S1024x47_1_0_0_1_n_n.contr.Idx) :
    (dot_S1024x128_S128x47_S1024x47_1_0_0_1_n_n.rhsIdx i q 1).val = (i 1).val := by
  unfold DotDims.rhsIdx
  rw [dif_neg (show ¬(1 : Fin S128x47.rank) ∈ dot_S1024x128_S128x47_S1024x47_1_0_0_1_n_n.rhsBatch by decide), dif_pos (show (1 : Fin S128x47.rank) ∈ dot_S1024x128_S128x47_S1024x47_1_0_0_1_n_n.rhsNonContracting by decide)]
  rfl

/-- The block's matrix product into a zero accumulator, read at row p and column q: the sum over the 128 contraction
    indices of the left operand's row p times the right operand's column q. -/
theorem reg2_mm_apply (l : FVec Ideal S1024x128 .bf16) (r : FVec Ideal S128x47 .bf16) (p : Fin 1024) (q : Fin 47) :
    matmul dot_S1024x128_S128x47_S1024x47_1_0_0_1_n_n none l r (constant S1024x47 .f32 0x00000000#32) (ix2 p q)
      = ∑ k : Fin 128, l (ix2 p k) * r (ix2 k q) := by
  show FloatOps.matmul dot_S1024x128_S128x47_S1024x47_1_0_0_1_n_n none l r (constant S1024x47 .f32 0x00000000#32) (ix2 p q) = _
  rw [Ideal.matmul_constant_zero_apply, ← Equiv.sum_comp (ValueIdx.contrEquiv1 dot_S1024x128_S128x47_S1024x47_1_0_0_1_n_n 128 rfl rfl).symm]
  refine Finset.sum_congr rfl fun k _ => ?_
  have hk := ValueIdx.contrEquiv1_symm_val dot_S1024x128_S128x47_S1024x47_1_0_0_1_n_n 128 rfl rfl k
  have el : dot_S1024x128_S128x47_S1024x47_1_0_0_1_n_n.lhsIdx (ix2 p q) ((ValueIdx.contrEquiv1 dot_S1024x128_S128x47_S1024x47_1_0_0_1_n_n 128 rfl rfl).symm k) = ix2 p k := funext fun a => Fin.ext (by
    match a with
    | ⟨0, _⟩ => exact reg2_lhs_0 _ _
    | ⟨1, _⟩ => exact (reg2_lhs_1 _ _).trans hk)
  have er : dot_S1024x128_S128x47_S1024x47_1_0_0_1_n_n.rhsIdx (ix2 p q) ((ValueIdx.contrEquiv1 dot_S1024x128_S128x47_S1024x47_1_0_0_1_n_n 128 rfl rfl).symm k) = ix2 k q := funext fun a => Fin.ext (by
    match a with
    | ⟨0, _⟩ => exact (reg2_rhs_0 _ _).trans hk
    | ⟨1, _⟩ => exact reg2_rhs_1 _ _)
  rw [el, er]

/-- The body's arithmetic at row p, column q of the block: the change of float format is the identity on extended reals,
    so the entry is row p of the first block times column q of the second, plus the bias row's entry q. There is no
    clipping in this region. -/
theorem reg2_pay_apply (x0 : Vec Ideal S1024x128 .f32) (x1 : Vec Ideal S128x47 .f32) (x2 : Vec Ideal S1x47 .f32)
    (p : Fin 1024) (q : Fin 47) :
    (k2_pay1 (F := Ideal) x0 x1 x2) (ix2 p q)
      = (∑ k : Fin 128, x0 (ix2 p k) * x1 (ix2 k q)) + x2 (ix2 (0 : Fin 1) q) := by
  unfold k2_pay1
  simp only [shapeCast_self]
  rw [addf_apply, reg2_mm_apply, broadcastTo_1b_ab_apply]
  rfl

/-! ## The block as the rows of one whole-array function -/

theorem reg2_hz : (![0, 0] : Fin 2 → Nat) = fun _ => 0 := funext fun a => by fin_cases a <;> rfl

/-- The whole output array as one function of the three input arrays: at index i, row i 0 and column i 1 of the dense map. -/
def reg2_G (a0 : S1024x128.Idx → EReal) (a1 : S128x47.Idx → EReal) (a2 : S1x47.Idx → EReal) : S1024x47.Idx → EReal :=
  fun i => Gcn.dense (fun (r : Fin 1024) (k : Fin 128) => a0 (ix2 r k)) (fun (k : Fin 128) (c' : Fin 47) => a1 (ix2 k c'))
    (fun (c' : Fin 47) => a2 (ix2 (0 : Fin 1) c')) (i 0) (i 1)

/-- When the first input block holds rows b·1024 … b·1024 + 1023 of the first array and the other two blocks are the
    whole second and third arrays, entry j of the body's result is the whole-array function at row b·1024 + j 0,
    column j 1: the sum over the contraction index reads the same entries on both sides. -/
theorem reg2_blk_eq (a0 : S1024x128.Idx → EReal) (a1 : S128x47.Idx → EReal) (a2 : S1x47.Idx → EReal)
    (x0 : Vec Ideal S1024x128 .f32) (x1 : Vec Ideal S128x47 .f32) (x2 : Vec Ideal S1x47 .f32) (b : ℕ)
    (h0 : ∀ (y : S1024x128.Idx) (i' : S1024x128.Idx), (i' 0).val = b * 1024 + (y 0).val → (i' 1).val = (y 1).val → x0 y = a0 i')
    (h1 : x1 = a1) (h2 : x2 = a2)
    (j : S1024x47.Idx) (i : S1024x47.Idx) (hi0 : (i 0).val = b * 1024 + (j 0).val) (hi1 : (i 1).val = (j 1).val) :
    (k2_pay1 (F := Ideal) x0 x1 x2) j = reg2_G a0 a1 a2 i := by
  subst h1 h2
  obtain ⟨p, q, rfl⟩ : ∃ (p : Fin 1024) (q : Fin 47), j = ix2 p q := ⟨j 0, j 1, eq_ix2 j⟩
  obtain ⟨r, s, rfl⟩ : ∃ (r : Fin 1024) (s : Fin 47), i = ix2 r s := ⟨i 0, i 1, eq_ix2 i⟩
  have hs : s = q := Fin.ext hi1
  subst hs
  rw [reg2_pay_apply]
  show _ + _ = (∑ k : Fin 128, a0 (ix2 r k) * x1 (ix2 k s)) + x2 (ix2 (0 : Fin 1) s)
  refine congrArg (fun z => z + x2 (ix2 (0 : Fin 1) s)) (Finset.sum_congr rfl fun k _ => ?_)
  rw [h0 (ix2 p k) (ix2 r k) hi0 rfl]

/-! ## The windows' blocks at the region's one point, and what it writes back -/

/-- The index maps over the grid: every window is at block (0, 0) at the one point (the first and the output window at
    block (t, 0), and t is 0). -/
theorem reg2_idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks

variable (V : (c : Dev nD) → (b : Ref sig .tc) → Buf (Elt Ideal) ((c : Thread nD τ).loc b))

/-- The first window's block at point t is rows t·1024 … t·1024 + 1023 of its array: an element of a block sits, on
    each axis, at block index × block size + its coordinate inside the block. -/
theorem reg2_iblk_0_apply (c : Dev nD) (t : Fin cfg2.N) (y : S1024x128.Idx) (i' : S1024x128.Idx)
    (h0 : (i' 0).val = t.val * 1024 + (y 0).val) (h1 : (i' 1).val = (y 1).val) :
    (iblk2 V c 0 t : Vec Ideal S1024x128 .f32) y = (V c (Pipeline.arrRef spec2 0) : S1024x128.Idx → EReal) i' := by
  obtain ⟨e0, e1, -⟩ := reg2_idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 1024 + 1 * (y 0).val = (i' 0).val; rw [e0, h0]; omega
  | ⟨1, _⟩ => show win2_0.index t (1 : Fin 2) * 128 + 1 * (y 1).val = (i' 1).val; rw [e1, h1]; omega

/-- The second window's block is its whole array. -/
theorem reg2_iblk_1_eq (c : Dev nD) (t : Fin cfg2.N) :
    (iblk2 V c 1 t : Vec Ideal S128x47 .f32) = (V c (Pipeline.arrRef spec2 1) : S128x47.Idx → EReal) := by
  obtain ⟨-, -, e0, e1, -⟩ := reg2_idx_facts t
  funext y
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 47 + 1 * (y 1).val = (y 1).val; rw [e1]; omega

/-- The third window's block is its whole array, the one bias row. -/
theorem reg2_iblk_2_eq (c : Dev nD) (t : Fin cfg2.N) :
    (iblk2 V c 2 t : Vec Ideal S1x47 .f32) = (V c (Pipeline.arrRef spec2 2) : S1x47.Idx → EReal) := by
  obtain ⟨-, -, -, -, e0, e1, -⟩ := reg2_idx_facts t
  funext y
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 47 + 1 * (y 1).val = (y 1).val; rw [e1]; omega

/-- What the point writes back is its block of the whole-array function of the three arrays as the region finds them:
    the body's one store covers the staging buffer, its loads read the whole input blocks, and the output block sits at
    rows t·1024 … of the output array. -/
theorem reg2_flushed_eq (c : Dev nD) (t : Fin cfg2.N) :
    (dat2 (F := Ideal) V c).flushed 3 t = ((cfg2.win 3).blk t).view.read (Elt Ideal)
      (reg2_G (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero reg2_hz]
  simp only [View.ld_unit_zero (S := S1024x128) reg2_hz, View.ld_unit_zero (S := S128x47) reg2_hz, View.ld_unit_zero (S := S1x47) reg2_hz]
  obtain ⟨-, -, -, -, -, -, e0, e1⟩ := reg2_idx_facts t
  funext j
  rw [View.read_apply]
  refine reg2_blk_eq (V c (Pipeline.arrRef spec2 0)) (V c (Pipeline.arrRef spec2 1)) (V c (Pipeline.arrRef spec2 2))
    (iblk2 V c 0 t) (iblk2 V c 1 t) (iblk2 V c 2 t) t.val (fun y i' h0 h1 => reg2_iblk_0_apply V c t y i' h0 h1)
    (reg2_iblk_1_eq V c t) (reg2_iblk_2_eq V c t) j (((cfg2.win 3).blk t).view.emb j) ?_ ?_
  · show win2_3.index t (0 : Fin 2) * 1024 + 1 * (j 0).val = t.val * 1024 + (j 0).val; rw [e0]; omega
  · show win2_3.index t (1 : Fin 2) * 47 + 1 * (j 1).val = (j 1).val; rw [e1]; omega

/-! ## From the block to the array -/

/-- An index of the output array is in point t's block iff each coordinate is in the block's range on its axis. -/
theorem reg2_mem_blk (t : Fin cfg2.N) (i : S1024x47.Idx) :
    i ∈ ((cfg2.win 3).blk t).view.set ↔ ∀ a : Fin 2, win2_3.index t a * S1024x47.size a ≤ (i a).val ∧ (i a).val < win2_3.index t a * S1024x47.size a + S1024x47.size a := by
  show i ∈ ((View.whole main_v61).slice (win2_3.rect t)).set ↔ _
  rw [View.set_slice_whole, Rect.mem_set_unit]
  exact Iff.rfl

/-- The one block is the whole array: row r lies in the block of point r / 1024, which is the one point, and it writes
    its block back. -/
theorem reg2_cover (i : S1024x47.Idx) : ∃ t : Fin cfg2.N, (cfg2.win 3).flush t = true ∧ i ∈ ((cfg2.win 3).blk t).view.set := by
  have hi0 : (i 0).val < 1024 := (i 0).isLt
  have hi1 : (i 1).val < 47 := (i 1).isLt
  obtain ⟨t, ht⟩ : ∃ t : Fin cfg2.N, t.val = (i 0).val / 1024 :=
    ⟨⟨(i 0).val / 1024, by rw [show cfg2.N = 1 from N_2]; omega⟩, rfl⟩
  obtain ⟨-, -, -, -, -, -, e0, e1⟩ := reg2_idx_facts t
  refine ⟨t, flush2_3 t, ?_⟩
  rw [reg2_mem_blk]
  intro a
  match a with
  | ⟨0, _⟩ => show win2_3.index t (0 : Fin 2) * 1024 ≤ (i 0).val ∧ (i 0).val < win2_3.index t (0 : Fin 2) * 1024 + 1024; rw [e0, ht]; omega
  | ⟨1, _⟩ => show win2_3.index t (1 : Fin 2) * 47 ≤ (i 1).val ∧ (i 1).val < win2_3.index t (1 : Fin 2) * 47 + 47; rw [e1]; omega

/-- The output array after the region's point is the whole-array function of the three input arrays. -/
theorem reg2_final (c : Dev nD) : (dat2 (F := Ideal) V c).arrAt 3 cfg2.N
    = reg2_G (V c (Pipeline.arrRef spec2 0)) (V c (Pipeline.arrRef spec2 1)) (V c (Pipeline.arrRef spec2 2)) :=
  (dat2 V c).arrAt_eq_of_cover 3 _ (fun t _ => reg2_flushed_eq V c t) reg2_cover

end Blocks

theorem region2_val (V : (c : Dev nD) → (b : Ref sig .tc) → Buf (Elt Ideal) ((c : Thread nD τ).loc b)) (c : Dev nD)
    (j : Fin 1024) (q : Fin 47) :
    (dat2 (F := Ideal) V c).arrAt 3 cfg2.N (ix2 j q)
      = Gcn.dense (fun (i : Fin 1024) (k : Fin 128) => V c (Pipeline.arrRef spec2 0) (ix2 i k))
        (fun (k : Fin 128) (c' : Fin 47) => V c (Pipeline.arrRef spec2 1) (ix2 k c'))
        (fun (c' : Fin 47) => V c (Pipeline.arrRef spec2 2) (ix2 (0 : Fin 1) c')) j q :=
  congrFun (reg2_final V c) (ix2 j q)

end Cert.KernelIdeal.KVal

end
-- ==== Proof.LibRows.lean ====
/-
  A row gather and a segment sum, read at an index.

  gather_rows: the gather that x[idx] of a matrix lowers to (start indices an [E,1] column, the row axis collapsed and
  start-indexed, the column axis an offset axis) reads, at (e, q), the matrix at the row that idx (e,0) names — read signed
  and clamped into the table — and column q.
  scatterAdd_rows / scatterAdd_vec: the accumulating scatter that a segment sum lowers to adds, to the operand's entry at
  row r, every update row e whose index word, read signed and not clamped, is r; a word outside the table adds nowhere.
-/
import Idealize.ShloMosaic.PureOps.Ideal
import Idealize.ShloMosaic.PureOps.Contract
import Idealize.ShloMosaic.Lib.ValueIdx
import Idealize.ShloMosaic.Lib.StableHlo.Predicate

noncomputable section

namespace Gcn.Rows

open Idealize.ShloMosaic Idealize.ShloMosaic.ValueIdx

theorem gather_rows {α : Type} {N E C w : ℕ} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  have hb : ∀ a, a ∉ d.operandBatchingDims := by intro a; rw [hob]; exact List.not_mem_nil
  have hq : ∀ x : Fin 2, x = 1 → ((ix2 e q : (⟨2, ![E, C]⟩ : Shape).Idx) x).val = q.val := by
    intro x hx; subst hx; rfl
  have he : ∀ x : Fin 2, x = 0 → ((ix2 e q : (⟨2, ![E, C]⟩ : Shape).Idx) x).val = e.val := by
    intro x hx; subst hx; rfl
  -- the result's one offset axis is axis 1, its one batch axis is axis 0
  have hoffall : ∀ y ∈ d.offsetDims, y = 1 := by
    intro y hy; rw [hoff] at hy; exact List.mem_singleton.mp hy
  have hbatall : ∀ y ∈ d.batchDims, y = 0 := by
    intro y hy
    have hy1 : y ∉ d.offsetDims := by
      have := (List.mem_filter.mp hy).2
      simpa using this
    rw [hoff] at hy1
    match y with
    | ⟨0, _⟩ => rfl
    | ⟨1, _⟩ => exact absurd (List.mem_singleton.mpr rfl) hy1
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- every component of the start index of (e, q) is read at (e, 0)
    have hsi : ∀ c, d.siIdx (ix2 e q) c = ix2 e (0 : Fin 1) := by
      intro c
      funext b
      match b with
      | ⟨0, _⟩ =>
        unfold GatherDims.siIdx
        rw [dif_neg (by rw [hivd]; simp)]
        unfold GatherDims.siCoord
        apply Fin.ext
        simp only [Fin.val_cast]
        exact he _ (hbatall _ (List.getElem_mem _))
      | ⟨1, _⟩ =>
        unfold GatherDims.siIdx
        rw [dif_pos (by rw [hivd])]
        apply Fin.ext
        show c.val = 0
        have := c.isLt
        omega
    show d.start (ix2 e q) idx 0 + d.batchCoord (ix2 e q) 0 + d.offCoord (ix2 e q) 0 = min _ (N - 1)
    rw [GatherDims.batchCoord_eq_zero _ _ _ (hb _), GatherDims.offCoord_eq_zero _ _ _ hk]
    simp only [Nat.add_zero]
    unfold GatherDims.start
    rw [dif_pos hm, hsi]
    show min (idx _).toInt.toNat (N - d.sliceSizes 0) = _
    rw [hsl]
  | ⟨1, _⟩ =>
    have hk : (1 : Fin 2) ∈ d.sKept := by rw [GatherDims.mem_sKept, hcoll]; exact ⟨by simp, hb _⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (hoffall _ (List.getElem_mem _))

/-! The accumulating scatter of rows: on axis 0 the window starts at the index word read signed and has no extent, on
    axis 1 it starts at 0 and its coordinate is the update's column. -/

private theorem rows_siIdx {R E C : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  have he : ∀ x : Fin 2, x = 0 → ((ix2 e q' : (⟨2, ![E, C]⟩ : Shape).Idx) x).val = e.val := by
    intro x hx; subst hx; rfl
  have hscall : ∀ y ∈ d.uScatter, y = 0 := by
    intro y hy
    have hy1 : y ∉ d.updateWindowDims := by
      have := (List.mem_filter.mp hy).2
      simpa using this
    rw [huw] at hy1
    match y with
    | ⟨0, _⟩ => rfl
    | ⟨1, _⟩ => exact absurd (List.mem_singleton.mpr rfl) hy1
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _ (hscall _ (List.getElem_mem _))
  | ⟨1, _⟩ =>
    unfold ScatterDims.siIdx
    rw [dif_pos (by rw [hivd])]
    apply Fin.ext
    show c.val = 0
    have := c.isLt
    omega

private theorem rows_start0 {R E C w : ℕ} (d : ScatterDims ⟨2, ![R, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e (0 : Fin 1))).toInt := by
  have hm : (0 : Fin 2) ∈ d.scatterDimsToOperandDims := by rw [hsd]; exact List.mem_singleton.mpr rfl
  unfold ScatterDims.start
  rw [dif_pos hm, rows_siIdx d huw hsd hivd]

private theorem rows_start1 {R E C w : ℕ} (d : ScatterDims ⟨2, ![R, C]⟩ ⟨2, ![E, 1]⟩ ⟨2, ![E, C]⟩)
    (hsd : d.scatterDimsToOperandDims = [0])
    (idx : IVec ⟨2, ![E, 1]⟩ w) (e : Fin E) (q' : Fin C) :
    d.start (ix2 e q') idx 1 = 0 := by
  have hm : (1 : Fin 2) ∉ d.scatterDimsToOperandDims := by rw [hsd]; simp
  unfold ScatterDims.start
  rw [dif_neg hm]

private theorem rows_window0 {R E C : ℕ} (d : ScatterDims ⟨2, ![R, C]⟩ ⟨2, ![E, 1]⟩ ⟨2, ![E, C]⟩)
    (hins : d.insertedWindowDims = [0]) (e : Fin E) (q' : Fin C) :
    d.window (ix2 e q') 0 = 0 := by
  have hk : (0 : Fin 2) ∉ d.sKept := by
    intro h
    have := (List.mem_filter.mp h).2
    rw [hins] at this
    simp at this
  unfold ScatterDims.window
  rw [dif_neg hk]

private theorem rows_window1 {R E C : ℕ} (d : ScatterDims ⟨2, ![R, C]⟩ ⟨2, ![E, 1]⟩ ⟨2, ![E, C]⟩)
    (huw : d.updateWindowDims = [1]) (hins : d.insertedWindowDims = [0]) (e : Fin E) (q' : Fin C) :
    d.window (ix2 e q') 1 = q'.val := by
  have hk : (1 : Fin 2) ∈ d.sKept := by
    refine List.mem_filter.mpr ⟨List.mem_finRange _, ?_⟩
    rw [hins]; simp
  have hq : ∀ x : Fin 2, x = 1 → ((ix2 e q' : (⟨2, ![E, C]⟩ : Shape).Idx) x).val = q'.val := by
    intro x hx; subst hx; rfl
  have hwall : ∀ y ∈ d.updateWindowDims, y = 1 := by
    intro y hy; rw [huw] at hy; exact List.mem_singleton.mp hy
  unfold ScatterDims.window
  rw [dif_pos hk]
  exact hq _ (hwall _ (List.getElem_mem _))

/-- An update entry (e, q') lands on the operand entry (r, q) exactly when its index word, read signed, is r and its
    column is q. -/
private theorem rows_resultIdx_iff {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' q : Fin C) (r : Fin R) :
    d.resultIdx? (ix2 e q') idx = some (ix2 r q)
      ↔ (idx (ix2 e (0 : Fin 1))).toInt = (r.val : ℤ) ∧ q' = q := by
  have hs0 := rows_start0 d huw hsd hivd idx e q'
  have hs1 := rows_start1 d hsd idx e q'
  have hw0 := rows_window0 d hins e q'
  have hw1 := rows_window1 d huw hins e q'
  have hr := r.isLt
  have hq := q.isLt
  have hq' := q'.isLt
  unfold ScatterDims.resultIdx?
  constructor
  · intro h
    split at h
    · rename_i hh
      have hf := Option.some.inj h
      have h0 : (d.start (ix2 e q') idx 0 + (d.window (ix2 e q') 0 : ℤ)).toNat = r.val :=
        congrArg (fun f : (⟨2, ![R, C]⟩ : Shape).Idx => (f 0).val) hf
      have h1 : (d.start (ix2 e q') idx 1 + (d.window (ix2 e q') 1 : ℤ)).toNat = q.val :=
        congrArg (fun f : (⟨2, ![R, C]⟩ : Shape).Idx => (f 1).val) hf
      have hh0 : 0 ≤ d.start (ix2 e q') idx 0 + (d.window (ix2 e q') 0 : ℤ) := (hh 0).1
      rw [hs0, hw0] at h0 hh0
      rw [hs1, hw1] at h1
      refine ⟨by omega, Fin.ext (by omega)⟩
    · exact absurd h (by simp)
  · rintro ⟨h0, rfl⟩
    have hh : ∀ a, 0 ≤ d.start (ix2 e q') idx a + (d.window (ix2 e q') a : ℤ)
        ∧ d.start (ix2 e q') idx a + (d.window (ix2 e q') a : ℤ) < ((⟨2, ![R, C]⟩ : Shape).size a : ℤ) := by
      intro a
      match a with
      | ⟨0, _⟩ =>
        show 0 ≤ d.start (ix2 e q') idx 0 + (d.window (ix2 e q') 0 : ℤ)
          ∧ d.start (ix2 e q') idx 0 + (d.window (ix2 e q') 0 : ℤ) < (R : ℤ)
        rw [hs0, hw0]; omega
      | ⟨1, _⟩ =>
        show 0 ≤ d.start (ix2 e q') idx 1 + (d.window (ix2 e q') 1 : ℤ)
          ∧ d.start (ix2 e q') idx 1 + (d.window (ix2 e q') 1 : ℤ) < (C : ℤ)
        rw [hs1, hw1]; omega
    rw [dif_pos hh]
    congr 1
    funext a
    apply Fin.ext
    match a with
    | ⟨0, _⟩ =>
      show (d.start (ix2 e q') idx 0 + (d.window (ix2 e q') 0 : ℤ)).toNat = r.val
      rw [hs0, hw0]; omega
    | ⟨1, _⟩ =>
      show (d.start (ix2 e q') idx 1 + (d.window (ix2 e q') 1 : ℤ)).toNat = q'.val
      rw [hs1, hw1]; omega

theorem scatterAdd_rows {R E C w : ℕ} (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![R, C]⟩ : Shape).Idx → EReal) (idx : IVec ⟨2, ![E, 1]⟩ w) (upd : (⟨2, ![E, C]⟩ : Shape).Idx → EReal)
    (r : Fin R) (q : Fin C) :
    Ideal.hostScatterAdd d x idx upd (ix2 r q)
      = x (ix2 r q) + ∑ e : Fin E, if (idx (ix2 e (0 : Fin 1))).toInt = (r.val : ℤ) then upd (ix2 e q) else 0 := by
  unfold Ideal.hostScatterAdd
  congr 1
  rw [Finset.sum_filter, sum_idx2]
  refine Finset.sum_congr rfl fun e _ => ?_
  simp only [rows_resultIdx_iff d huw hins hsd hivd]
  by_cases h : (idx (ix2 e (0 : Fin 1))).toInt = (r.val : ℤ)
  · simp only [h, true_and, if_true]
    rw [Finset.sum_ite_eq' Finset.univ q (fun q' => upd (ix2 e q'))]
    simp
  · simp only [h, false_and, if_false, Finset.sum_const_zero]

/-! The accumulating scatter of a vector: the same with no column. -/

private theorem vec_siIdx {R E : ℕ} (d : ScatterDims ⟨1, ![R]⟩ ⟨2, ![E, 1]⟩ ⟨1, ![E]⟩)
    (hsd : d.scatterDimsToOperandDims = [0]) (hivd : d.indexVectorDim = 1)
    (e : Fin E) (c : Fin d.scatterDimsToOperandDims.length) :
    d.siIdx (ix1 e) c = ix2 e (0 : Fin 1) := by
  have he : ∀ x : Fin 1, ((ix1 e : (⟨1, ![E]⟩ : Shape).Idx) x).val = e.val := by
    intro x
    obtain rfl : x = 0 := Subsingleton.elim _ _
    rfl
  have hlen : d.scatterDimsToOperandDims.length = 1 := by rw [hsd]; rfl
  funext b
  match b with
  | ⟨0, _⟩ =>
    unfold ScatterDims.siIdx
    rw [dif_neg (by rw [hivd]; simp)]
    unfold ScatterDims.siCoord
    apply Fin.ext
    simp only [Fin.val_cast]
    exact he _
  | ⟨1, _⟩ =>
    unfold ScatterDims.siIdx
    rw [dif_pos (by rw [hivd])]
    apply Fin.ext
    show c.val = 0
    have := c.isLt
    omega

private theorem vec_start0 {R E w : ℕ} (d : ScatterDims ⟨1, ![R]⟩ ⟨2, ![E, 1]⟩ ⟨1, ![E]⟩)
    (hsd : d.scatterDimsToOperandDims = [0]) (hivd : d.indexVectorDim = 1)
    (idx : IVec ⟨2, ![E, 1]⟩ w) (e : Fin E) :
    d.start (ix1 e) idx 0 = (idx (ix2 e (0 : Fin 1))).toInt := by
  have hm : (0 : Fin 1) ∈ d.scatterDimsToOperandDims := by rw [hsd]; exact List.mem_singleton.mpr rfl
  unfold ScatterDims.start
  rw [dif_pos hm, vec_siIdx d hsd hivd]

private theorem vec_window0 {R E : ℕ} (d : ScatterDims ⟨1, ![R]⟩ ⟨2, ![E, 1]⟩ ⟨1, ![E]⟩)
    (hins : d.insertedWindowDims = [0]) (e : Fin E) :
    d.window (ix1 e) 0 = 0 := by
  have hk : (0 : Fin 1) ∉ d.sKept := by
    intro h
    have := (List.mem_filter.mp h).2
    rw [hins] at this
    simp at this
  unfold ScatterDims.window
  rw [dif_neg hk]

/-- An update entry e lands on the operand entry r exactly when its index word, read signed, is r. -/
private theorem vec_resultIdx_iff {R E w : ℕ} (d : ScatterDims ⟨1, ![R]⟩ ⟨2, ![E, 1]⟩ ⟨1, ![E]⟩)
    (hins : d.insertedWindowDims = [0]) (hsd : d.scatterDimsToOperandDims = [0])
    (hivd : d.indexVectorDim = 1) (idx : IVec ⟨2, ![E, 1]⟩ w) (e : Fin E) (r : Fin R) :
    d.resultIdx? (ix1 e) idx = some (ix1 r) ↔ (idx (ix2 e (0 : Fin 1))).toInt = (r.val : ℤ) := by
  have hs0 := vec_start0 d hsd hivd idx e
  have hw0 := vec_window0 d hins e
  have hr := r.isLt
  unfold ScatterDims.resultIdx?
  constructor
  · intro h
    split at h
    · rename_i hh
      have hf := Option.some.inj h
      have h0 : (d.start (ix1 e) idx 0 + (d.window (ix1 e) 0 : ℤ)).toNat = r.val :=
        congrArg (fun f : (⟨1, ![R]⟩ : Shape).Idx => (f 0).val) hf
      have hh0 : 0 ≤ d.start (ix1 e) idx 0 + (d.window (ix1 e) 0 : ℤ) := (hh 0).1
      rw [hs0, hw0] at h0 hh0
      omega
    · exact absurd h (by simp)
  · intro h0
    have hh : ∀ a, 0 ≤ d.start (ix1 e) idx a + (d.window (ix1 e) a : ℤ)
        ∧ d.start (ix1 e) idx a + (d.window (ix1 e) a : ℤ) < ((⟨1, ![R]⟩ : Shape).size a : ℤ) := by
      intro a
      match a with
      | ⟨0, _⟩ =>
        show 0 ≤ d.start (ix1 e) idx 0 + (d.window (ix1 e) 0 : ℤ)
          ∧ d.start (ix1 e) idx 0 + (d.window (ix1 e) 0 : ℤ) < (R : ℤ)
        rw [hs0, hw0]; omega
    rw [dif_pos hh]
    congr 1
    funext a
    apply Fin.ext
    match a with
    | ⟨0, _⟩ =>
      show (d.start (ix1 e) idx 0 + (d.window (ix1 e) 0 : ℤ)).toNat = r.val
      rw [hs0, hw0]; omega

theorem scatterAdd_vec {R E w : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![R]⟩ : Shape).Idx → EReal) (idx : IVec ⟨2, ![E, 1]⟩ w) (upd : (⟨1, ![E]⟩ : Shape).Idx → EReal)
    (r : Fin R) :
    Ideal.hostScatterAdd d x idx upd (ix1 r)
      = x (ix1 r) + ∑ e : Fin E, if (idx (ix2 e (0 : Fin 1))).toInt = (r.val : ℤ) then upd (ix1 e) else 0 := by
  unfold Ideal.hostScatterAdd
  congr 1
  -- a rank-1 index set is its coordinate range
  rw [Finset.sum_filter,
    ← Equiv.sum_comp (⟨ix1, fun i => i 0, fun _ => rfl, fun i => (eq_ix1 i).symm⟩ : Fin E ≃ (⟨1, ![E]⟩ : Shape).Idx)]
  refine Finset.sum_congr rfl fun e _ => ?_
  exact if_congr (vec_resultIdx_iff d hins hsd hivd idx e r) rfl rfl

end Gcn.Rows

end
-- ==== Proof.KHost0.lean ====
/-
  What the first region finds in its three input arrays: the aggregate of the gathered feature rows, the first weight
  matrix as launched, and the first bias laid out as one row.
-/
import proofs.«415471_j1468878815350_3_alg».proof.Proof.Gen.KernelIdeal.Frame
import proofs.«415471_j1468878815350_3_alg».proof.Proof.Spec
import proofs.«415471_j1468878815350_3_alg».proof.Proof.KIn
import proofs.«415471_j1468878815350_3_alg».proof.Proof.LibRows
import Idealize.ShloMosaic.Lib.StableHlo.Run
import Idealize.ShloMosaic.Lib.Pipeline.Value
import Idealize.ShloMosaic.PureOps.Ideal.Laws
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Host0

/-! ## Layout operations read at an index -/

/-- A scalar laid out over any shape reads the scalar everywhere. -/
theorem splat_apply {α : Type} {t : Shape} (h : (⟨0, ![]⟩ : Shape).BroadcastsInDim t ![])
    (v : (⟨0, ![]⟩ : Shape).Idx → α) (j : t.Idx) : broadcastInDim t ![] h v j = v ix0 :=
  broadcastInDim_apply _ h v j ix0 (fun a => a.elim0)

/-- A vector laid out as a column reads, at (p, 0), the vector at p. -/
theorem col_apply {α : Type} {n : ℕ} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  refine broadcastInDim_apply _ h v _ (ix1 p) (fun a => ?_)
  match a with
  | ⟨0, _⟩ =>
    show p.val = if n = 1 then 0 else p.val
    have := p.isLt
    split <;> omega

/-- A vector reshaped to one row reads, at (0, q), the vector at q. -/
theorem row_apply {α : Type} {n : ℕ} (h : (⟨1, ![n]⟩ : Shape).ShapeCasts ⟨2, ![1, n]⟩)
    (v : (⟨1, ![n]⟩ : Shape).Idx → α) (q : Fin n) :
    shapeCast ⟨2, ![1, n]⟩ v h (ix2 (0 : Fin 1) q) = v (ix1 q) := by
  refine shapeCast_apply v h _ (ix1 q) ?_
  rw [Shape.rowMajor_val_one, Shape.rowMajor_val_two]
  show q.val = 0 * n + q.val
  omega

/-! ## The two index-driven operations of the first layer's aggregate -/

/-- The accumulating scatter from a zero base, its segment words laid out as a column: entry (r, q) is the sum of the
    update rows whose segment word, read signed, is r. -/
theorem scatter_zero_rows {R E C : ℕ}
    (d : ScatterDims ⟨2, ![R, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (hz : (⟨0, ![]⟩ : Shape).BroadcastsInDim ⟨2, ![R, C]⟩ ![])
    (hc : (⟨1, ![E]⟩ : Shape).BroadcastsInDim ⟨2, ![E, 1]⟩ ![0])
    (seg : Gcn.Words E) (upd : (⟨2, ![E, C]⟩ : Shape).Idx → EReal) (r : Fin R) (q : Fin C) :
    Host.scatterAdd (F := Ideal) (φ := .f32) d
        (broadcastInDim ⟨2, ![R, C]⟩ ![] hz (constant (F := Ideal) ⟨0, ![]⟩ .f32 0x00000000#32))
        (broadcastInDim ⟨2, ![E, 1]⟩ ![0] hc seg) upd (ix2 r q)
      = Gcn.segsum seg (fun e => upd (ix2 e q)) r.val := by
  refine (Gcn.Rows.scatterAdd_rows d huw hins hsd hivd _ _ upd r q).trans ?_
  rw [splat_apply, constant_apply, Ideal.ofBits_zero_f32, zero_add]
  unfold Gcn.segsum
  refine Finset.sum_congr rfl (fun e _ => ?_)
  rw [col_apply]

/-- The row gather through wrapped start words laid out as a column: entry (e, q) is the table at the row the word of
    edge e selects, column q. -/
theorem gather_wrapped_rows {N E C : ℕ} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hs : (⟨0, ![]⟩ : Shape).BroadcastsInDim ⟨1, ![E]⟩ ![])
    (hc : (⟨1, ![E]⟩ : Shape).BroadcastsInDim ⟨2, ![E, 1]⟩ ![0])
    (X : (⟨2, ![N, C]⟩ : Shape).Idx → EReal) (src : Gcn.Words E) (Nw : BitVec 32) (e : Fin E) (q : Fin C) :
    Host.gather d X
        (broadcastInDim ⟨2, ![E, 1]⟩ ![0] hc
          (select (cmpi .slt src (broadcastInDim ⟨1, ![E]⟩ ![] hs (constantI ⟨0, ![]⟩ 32 0#32)))
            (addi src (broadcastInDim ⟨1, ![E]⟩ ![] hs (constantI ⟨0, ![]⟩ 32 Nw))) src)) (ix2 e q)
      = X (ix2 (Gcn.rowV N hN Nw (src (ix1 e))) q) := by
  refine (Gcn.Rows.gather_rows d hoff hcoll hob hsb hsim hivd X _ e q hN).trans ?_
  refine congrArg X (congrArg (fun p => ix2 p q) (Fin.ext ?_))
  dsimp only [Gcn.rowV]
  rw [col_apply]
  rfl

end Host0

/-! ## The first region's three inputs -/

theorem host0_x (c : Dev nD) (r : Fin 100000) (k : Fin 128) :
    V1 m ρ c (Pipeline.arrRef spec0 0) (ix2 r k)
      = Gcn.agg0 (Gcn.cX (inOf m c)) (Gcn.g0 (inOf m c)) (inOf m c).dst0 r.val k := by
  show StableHlo.after hostOps0 (W0 m ρ c) (Proc.devRef .tc main_v9) (ix2 r k) = _
  dsimp only [hostOps0]
  after_results
  refine (Host0.scatter_zero_rows scatter_S100000x128_S1000000x1_S1000000x128_1_0_0_1 rfl rfl rfl rfl
    bcast_S_S100000x128 bcast_S1000000_S1000000x1_0 _ _ r k).trans ?_
  unfold Gcn.agg0
  refine congrArg (fun u => Gcn.segsum _ u r.val) (funext fun e => ?_)
  exact Host0.gather_wrapped_rows (by decide) gather_S500000x128_S1000000x1_S1000000x128_1_0_n_n_0_1_1128 rfl rfl rfl rfl rfl rfl
    bcast_S_S1000000 bcast_S1000000_S1000000x1_0 _ _ 500000#32 e k

theorem host0_w (c : Dev nD) (k : Fin 128) (c' : Fin 128) :
    V1 m ρ c (Pipeline.arrRef spec0 1) (ix2 k c') = (inOf m c).W0 (ix2 k c') := by
  show StableHlo.after hostOps0 (W0 m ρ c) (Proc.devRef .tc main_arg9) (ix2 k c') = _
  dsimp only [hostOps0]
  after_results
  rfl

theorem host0_b (c : Dev nD) (c' : Fin 128) :
    V1 m ρ c (Pipeline.arrRef spec0 2) (ix2 (0 : Fin 1) c') = (inOf m c).b0 (ix1 c') := by
  show StableHlo.after hostOps0 (W0 m ρ c) (Proc.devRef .tc main_v10) (ix2 (0 : Fin 1) c') = _
  dsimp only [hostOps0]
  after_results
  exact Host0.row_apply shapeCasts_S128_S1x128 _ c'

end Cert.KernelIdeal.KVal

end
-- ==== Proof.KHost1Idx.lean ====
/-
  The composed edge index of the second layer.  The host first composes the two re-indexing tables (entry j of the
  composition is the first table read at the second table's entry j) and then reads the composition along the second
  layer's source table; with the three tables inside their ranges neither read fills, so the word of edge e is the first
  table's word at the row that the second table's word at the edge's source row names.
-/
import proofs.«415471_j1468878815350_3_alg».proof.Proof.Gen.KernelIdeal.Frame
import proofs.«415471_j1468878815350_3_alg».proof.Proof.Spec
import proofs.«415471_j1468878815350_3_alg».proof.Proof.KIn
import proofs.«415471_j1468878815350_3_alg».proof.Proof.LibRows
import proofs.«415471_j1468878815350_3_alg».proof.Proof.KHost0
import Idealize.ShloMosaic.Lib.StableHlo.Run
import Idealize.ShloMosaic.Lib.StableHlo.Predicate
import Idealize.ShloMosaic.Lib.Pipeline.Value
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Take

/-- A word that is not negative is its own wrap. -/
theorem wrapW_of_nonneg (Nw w : BitVec 32) (h : 0 ≤ w.toInt) : Gcn.wrapW Nw w = w := by
  have hc : ¬ IntOp.cmpi .slt w 0#32 = 1 := by
    intro hc
    have := IntOp.cmpi_slt.mp hc
    have h0 : (0#32 : BitVec 32).toInt = 0 := by decide
    omega
  unfold Gcn.wrapW Scalar.select
  rw [if_neg hc]

/-- A fold over an index range of one element is the operation applied once. -/
theorem fold_fin_one {α : Type} (op : α → α → α) [Std.Commutative op] [Std.Associative op] (b : α) (n : ℕ) (hn : n = 1)
    (f : Fin n → α) : (Finset.univ : Finset (Fin n)).fold op b f = op (f ⟨0, by omega⟩) b := by
  subst hn
  rw [show (Finset.univ : Finset (Fin 1)) = {0} from rfl, Finset.fold_singleton]
  rfl

/-- The in-range test of a take, at row e: the conjunction over the column's one entry of "not below lo" and "not above
    hi" is 1 when the entry lies between them. -/
theorem mask_one {E : ℕ}
    (hred : (⟨2, ![E, 1]⟩ : Shape).ReducesTo [1] ⟨1, ![E]⟩) (hu : 0 < (⟨0, ![]⟩ : Shape).numel)
    (col lo hi : IVec ⟨2, ![E, 1]⟩ 32) (one : IVec ⟨0, ![]⟩ 1) (e : Fin E)
    (hone : ∀ i, one i = 1#1)
    (hlo : (lo (ix2 e (0 : Fin 1))).toInt ≤ (col (ix2 e (0 : Fin 1))).toInt)
    (hhi : (col (ix2 e (0 : Fin 1))).toInt ≤ (hi (ix2 e (0 : Fin 1))).toInt) :
    Host.reduce IntOp.andi (andi (cmpi .sge col lo) (cmpi .sle col hi)) one hred hu (ix1 e) = 1#1 := by
  obtain ⟨hr1, hr2⟩ := hred
  have hR : (⟨2, ![E, 1]⟩ : Shape).Reduces [1] ⟨1, ![E]⟩ := ⟨hr1, Nat.one_pos, hr2⟩
  -- the one source index over e is (e, 0)
  have hlift : ∀ k, hR.lift (ix1 e) k = ix2 e (0 : Fin 1) := by
    intro k
    have hk : k.val < 1 := k.isLt
    funext c
    apply Fin.ext
    match c with
    | ⟨0, _⟩ => rfl
    | ⟨1, _⟩ =>
      show k.val = 0
      omega
  -- so every entry the fold meets is 1
  have key : ∀ k, (andi (cmpi .sge col lo) (cmpi .sle col hi) ∘ hR.lift (ix1 e)) k = 1#1 := by
    intro k
    show IntOp.andi (IntOp.cmpi .sge (col (hR.lift (ix1 e) k)) (lo (hR.lift (ix1 e) k)))
      (IntOp.cmpi .sle (col (hR.lift (ix1 e) k)) (hi (hR.lift (ix1 e) k))) = 1#1
    rw [hlift k, IntOp.cmpi_sge.mpr hlo, IntOp.cmpi_sle.mpr hhi]
    rfl
  refine (Host.reduce_eq_fold_single IntOp.andi _ one ⟨hr1, hr2⟩ hR hu (ix1 e)).trans ?_
  refine (fold_fin_one IntOp.andi _ _ rfl _).trans ?_
  exact (congrArg₂ IntOp.andi (key _) (hone _)).trans rfl

/-- The rank-1 gather through an [E,1] column of start words reads, at e, the table at the word of (e, 0), read signed
    and clamped into the table. -/
theorem gather_vec {α : Type} {N E w : ℕ} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e)
      = x (ix1 (⟨min (idx (ix2 e (0 : Fin 1))).toInt.toNat (N - 1), by omega⟩ : Fin N)) := by
  have h1 : ∀ {n : ℕ} (k : Fin n), (ix1 k : (⟨1, ![n]⟩ : Shape).Idx) = Shape.Idx.ofFin k := by
    intro n k
    funext a
    match a with
    | ⟨0, _⟩ => exact (Shape.Idx.ofFin_zero k).symm
  have h2 : (StableHlo.Predicate.ixP e : (⟨2, ![E, 1]⟩ : Shape).Idx) = ix2 e (0 : Fin 1) := by
    funext a
    match a with
    | ⟨0, _⟩ => rfl
    | ⟨1, _⟩ => rfl
  rw [h1 e]
  refine (StableHlo.Predicate.gather_take d hcoll hob hsim hivd x idx e hN).trans ?_
  rw [← h1]
  refine congrArg x (congrArg (fun k : Fin N => (ix1 k : (⟨1, ![N]⟩ : Shape).Idx)) (Fin.ext ?_))
  show min (idx (StableHlo.Predicate.ixP e)).toInt.toNat (N - 1) = min (idx (ix2 e (0 : Fin 1))).toInt.toNat (N - 1)
  rw [h2]

end Take

namespace Take

/-- The column of wrapped start words: each word plus Nw where it is negative, laid out as an [E,1] column. -/
abbrev wcol {E : ℕ} (hs : (⟨0, ![]⟩ : Shape).BroadcastsInDim ⟨1, ![E]⟩ ![])
    (hc : (⟨1, ![E]⟩ : Shape).BroadcastsInDim ⟨2, ![E, 1]⟩ ![0]) (src : Gcn.Words E) (Nw : BitVec 32) :
    IVec ⟨2, ![E, 1]⟩ 32 :=
  broadcastInDim ⟨2, ![E, 1]⟩ ![0] hc
    (select (cmpi .slt src (broadcastInDim ⟨1, ![E]⟩ ![] hs (constantI ⟨0, ![]⟩ 32 0#32)))
      (addi src (broadcastInDim ⟨1, ![E]⟩ ![] hs (constantI ⟨0, ![]⟩ 32 Nw))) src)

theorem wcol_apply {E : ℕ} (hs : (⟨0, ![]⟩ : Shape).BroadcastsInDim ⟨1, ![E]⟩ ![])
    (hc : (⟨1, ![E]⟩ : Shape).BroadcastsInDim ⟨2, ![E, 1]⟩ ![0]) (src : Gcn.Words E) (Nw : BitVec 32) (e : Fin E) :
    wcol hs hc src Nw (ix2 e (0 : Fin 1)) = Gcn.wrapW Nw (src (ix1 e)) := by
  unfold wcol
  rw [Host0.col_apply]
  rfl

/-- The in-range test of a take through the wrapped column is 1 at every row whose wrapped word lies in [0, hiw]. -/
theorem take_mask_one {E : ℕ}
    (hs : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![E, 1]⟩ ![])
    (h1 : (⟨1, ![1]⟩ : Shape).BroadcastsInDim ⟨2, ![1, 1]⟩ ![1])
    (h11 : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (src : Gcn.Words E) (Nw hiw : BitVec 32) (e : Fin E)
    (hlo : 0 ≤ (Gcn.wrapW Nw (src (ix1 e))).toInt) (hhi : (Gcn.wrapW Nw (src (ix1 e))).toInt ≤ hiw.toInt) :
    Host.reduce IntOp.andi
        (andi
          (cmpi .sge (wcol hs hc src Nw) (broadcastInDim ⟨2, ![E, 1]⟩ ![] hz (constantI ⟨0, ![]⟩ 32 0#32)))
          (cmpi .sle (wcol hs hc src Nw)
            (broadcastInDim ⟨2, ![E, 1]⟩ ![0, 1] h11 (broadcastInDim ⟨2, ![1, 1]⟩ ![1] h1 (constantI ⟨1, ![1]⟩ 32 hiw)))))
        (constantI ⟨0, ![]⟩ 1 1#1) hred hu (ix1 e) = 1#1 := by
  have hw := wcol_apply hs hc src Nw e
  refine mask_one hred hu (wcol hs hc src Nw) _ _ _ e (fun _ => rfl) ?_ ?_
  · rw [hw]
    show (0#32 : BitVec 32).toInt ≤ _
    have h0 : (0#32 : BitVec 32).toInt = 0 := by decide
    omega
  · rw [hw]
    exact hhi

/-- The take of a flat table through the wrapped column: at a row whose wrapped word lies in [0, hiw] the fill is not
    selected, and the row reads the table at the row its word names. -/
theorem take_apply {N E : ℕ} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (hs : (⟨0, ![]⟩ : Shape).BroadcastsInDim ⟨1, ![E]⟩ ![])
    (hc : (⟨1, ![E]⟩ : Shape).BroadcastsInDim ⟨2, ![E, 1]⟩ ![0])
    (hz : (⟨0, ![]⟩ : Shape).BroadcastsInDim ⟨2, ![E, 1]⟩ ![])
    (h1 : (⟨1, ![1]⟩ : Shape).BroadcastsInDim ⟨2, ![1, 1]⟩ ![1])
    (h11 : (⟨2, ![1, 1]⟩ : Shape).BroadcastsInDim ⟨2, ![E, 1]⟩ ![0, 1])
    (hred : (⟨2, ![E, 1]⟩ : Shape).ReducesTo [1] ⟨1, ![E]⟩) (hu : 0 < (⟨0, ![]⟩ : Shape).numel)
    (tbl : Gcn.Words N) (src : Gcn.Words E) (Nw hiw fillw : BitVec 32) (e : Fin E)
    (hlo : 0 ≤ (Gcn.wrapW Nw (src (ix1 e))).toInt) (hhi : (Gcn.wrapW Nw (src (ix1 e))).toInt ≤ hiw.toInt) :
    select
        (Host.reduce IntOp.andi
          (andi
            (cmpi .sge (wcol hs hc src Nw) (broadcastInDim ⟨2, ![E, 1]⟩ ![] hz (constantI ⟨0, ![]⟩ 32 0#32)))
            (cmpi .sle (wcol hs hc src Nw)
              (broadcastInDim ⟨2, ![E, 1]⟩ ![0, 1] h11 (broadcastInDim ⟨2, ![1, 1]⟩ ![1] h1 (constantI ⟨1, ![1]⟩ 32 hiw)))))
          (constantI ⟨0, ![]⟩ 1 1#1) hred hu)
        (Host.gather d tbl (wcol hs hc src Nw))
        (broadcastInDim ⟨1, ![E]⟩ ![] hs (constantI ⟨0, ![]⟩ 32 fillw)) (ix1 e)
      = tbl (ix1 (Gcn.rowV N hN Nw (src (ix1 e)))) := by
  rw [select_apply, take_mask_one hs hc hz h1 h11 hred hu src Nw hiw e hlo hhi, select_one]
  refine (gather_vec d hcoll hob hsim hivd tbl _ e hN).trans ?_
  refine congrArg tbl (congrArg (fun k : Fin N => (ix1 k : (⟨1, ![N]⟩ : Shape).Idx)) (Fin.ext ?_))
  show min (wcol hs hc src Nw (ix2 e (0 : Fin 1))).toInt.toNat (N - 1) = min (Gcn.wrapW Nw (src (ix1 e))).toInt.toNat (N - 1)
  rw [wcol_apply]

end Take

/-! ## The argument tables are as launched

No operation before the second region writes an argument's buffer, and the first region's arrays are not arguments. -/

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_main_arg3 m ρ c

/-! ## The two takes -/

/-- After the first stretch the buffer main_v12 holds the composition of the two re-indexing tables. -/
theorem v12_val (c : Dev nD) (hg : (inOf m c).Good) (j : Fin 100000) :
    W3 m ρ c (Proc.devRef .tc main_v12) (ix1 j)
      = (inOf m c).inv (ix1 (Gcn.rowV 100000 (by decide) 100000#32 ((inOf m c).shuf (ix1 j)))) := by
  have hj := hg.shuf j
  have hsh : W2 m ρ c (Proc.devRef .tc main_arg8) = (inOf m c).shuf := W2_main_arg8 m ρ c
  have hinv : W2 m ρ c (Proc.devRef .tc main_arg7) = (inOf m c).inv := W2_main_arg7 m ρ c
  have h9 : (99999#32 : BitVec 32).toInt = 99999 := by decide
  show StableHlo.after hostOps1 (W2 m ρ c) (Proc.devRef .tc main_v12) (ix1 j) = _
  dsimp only [hostOps1]
  after_results_simp
  simp only [StableHlo.TRef.ofBuf, StableHlo.TRef.toBuf, cast_eq]
  refine (Take.take_apply (by decide) gather_S100000_S100000x1_S100000_n_0_n_n_0_1_1 rfl rfl rfl rfl
    bcast_S_S100000 bcast_S100000_S100000x1_0 bcast_S_S100000x1 bcast_S1_S1x1_1 bcast_S1x1_S100000x1_0_1
    reducesTo_S100000x1_S100000_d1 h_S_ _ _
    100000#32 99999#32 2147483648#32 j ?_ ?_).trans ?_
  · rw [hsh, Take.wrapW_of_nonneg _ _ hj.1]; exact hj.1
  · rw [hsh, Take.wrapW_of_nonneg _ _ hj.1, h9]; omega
  · rw [hsh, hinv]

/-- After the two stretches that compute it, the buffer main_v13 holds at edge e the composed index word. -/
theorem src1p_val (c : Dev nD) (hg : (inOf m c).Good) (e : Fin 100000) :
    W4 m ρ c (Proc.devRef .tc main_v13) (ix1 e)
      = (inOf m c).inv (ix1 (Gcn.rowV 100000 (by decide) 100000#32
          ((inOf m c).shuf (ix1 (Gcn.rowV 100000 (by decide) 100000#32 ((inOf m c).src1 (ix1 e))))))) := by
  have he := hg.src1 e
  have hsrc : W3 m ρ c (Proc.devRef .tc main_arg3) = (inOf m c).src1 := W3_main_arg3 m ρ c
  have h9 : (99999#32 : BitVec 32).toInt = 99999 := by decide
  show StableHlo.after hostOps1_1 (W3 m ρ c) (Proc.devRef .tc main_v13) (ix1 e) = _
  generalize hV : W3 m ρ c = V at hsrc ⊢
  dsimp only [hostOps1_1]
  after_results_simp
  simp only [StableHlo.TRef.ofBuf, StableHlo.TRef.toBuf, cast_eq]
  refine (Take.take_apply (by decide) gather_S100000_S100000x1_S100000_n_0_n_n_0_1_1 rfl rfl rfl rfl
    bcast_S_S100000 bcast_S100000_S100000x1_0 bcast_S_S100000x1 bcast_S1_S1x1_1 bcast_S1x1_S100000x1_0_1
    reducesTo_S100000x1_S100000_d1 h_S_ _ _
    100000#32 99999#32 2147483648#32 e ?_ ?_).trans ?_
  · rw [hsrc, Take.wrapW_of_nonneg _ _ he.1]; exact he.1
  · rw [hsrc, Take.wrapW_of_nonneg _ _ he.1, h9]; omega
  · rw [hsrc, ← hV]
    exact v12_val m ρ c hg _

end Cert.KernelIdeal.KVal

end
-- ==== Proof.KHost2.lean ====
/-
  What the third region finds in its three input arrays: the second layer's rows gathered along the last edge table,
  each message scaled by its source row's degree scale, summed per destination row and scaled; the last weight matrix
  as launched; the last bias as one row.  With the edge table's sources inside their range no gather fills.
-/
import proofs.«415471_j1468878815350_3_alg».proof.Proof.Gen.KernelIdeal.Frame
import proofs.«415471_j1468878815350_3_alg».proof.Proof.Spec
import proofs.«415471_j1468878815350_3_alg».proof.Proof.KIn
import proofs.«415471_j1468878815350_3_alg».proof.Proof.LibRows
import proofs.«415471_j1468878815350_3_alg».proof.Proof.KHost0
import Idealize.ShloMosaic.Lib.StableHlo.Run
import Idealize.ShloMosaic.Lib.StableHlo.Predicate
import Idealize.ShloMosaic.Lib.Pipeline.Value
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Host2

open Host0

/-! ## Layout operations read at an index -/

/-- The two spellings of a rank-1 index, and of row p of a one-column index, agree. -/
theorem ofFin_eq_ix1 {n : ℕ} (p : Fin n) : Shape.Idx.ofFin p = ix1 p := by
  funext a
  match a with
  | ⟨0, _⟩ => exact Fin.ext rfl
theorem ixP_eq_ix2 {n : ℕ} (p : Fin n) : StableHlo.Predicate.ixP p = ix2 p (0 : Fin 1) := by
  funext a
  match a with
  | ⟨0, _⟩ => rfl
  | ⟨1, _⟩ => rfl

/-- A vector laid along the rows of a rectangle reads, at (p, q), the vector at p. -/
theorem rowsplat_apply {α : Type} {n m : ℕ} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  refine broadcastInDim_apply _ h v _ (ix1 p) (fun a => ?_)
  match a with
  | ⟨0, _⟩ =>
    show p.val = if n = 1 then 0 else p.val
    have := p.isLt
    split <;> omega

/-- A column laid across the columns of a rectangle reads, at (p, q), the column at (p, 0). -/
theorem colrows_apply {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply _ h v _ (ix2 p (0 : Fin 1)) (fun a => ?_)
  match a with
  | ⟨0, _⟩ =>
    show p.val = if n = 1 then 0 else p.val
    have := p.isLt
    split <;> omega
  | ⟨1, _⟩ =>
    show (0 : ℕ) = if (1 : ℕ) = 1 then 0 else q.val
    rfl

/-! ## The mask of a take whose start words lie inside the table -/

/-- A left fold by "and" from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_one f l (fun n hn => h n (List.mem_cons_of_mem _ hn))

/-- A reduction by "and" from 1 of an array that is 1 everywhere is 1 everywhere. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ (fun i _ => hx i)

/-- A word w with 0 ≤ w < N (signed) is not wrapped, and the wrapped word passes the test 0 ≤ · ≤ N − 1. -/
theorem wrapped_in_range (w Nw Nm : BitVec 32) (N : ℤ) (hNm : Nm.toInt = N - 1) (h0 : 0 ≤ w.toInt) (h1 : w.toInt < N) :
    IntOp.andi (IntOp.cmpi .sge (Scalar.select (IntOp.cmpi .slt w 0#32) (IntOp.addi w Nw) w) 0#32)
      (IntOp.cmpi .sle (Scalar.select (IntOp.cmpi .slt w 0#32) (IntOp.addi w Nw) w) Nm) = 1#1 := by
  have z : (0#32 : BitVec 32).toInt = 0 := by decide
  have hc : ¬ IntOp.cmpi .slt w 0#32 = 1#1 := by rw [IntOp.cmpi_slt, z]; omega
  have hs : Scalar.select (IntOp.cmpi .slt w 0#32) (IntOp.addi w Nw) w = w := if_neg hc
  rw [hs, IntOp.andi_eq_one, IntOp.cmpi_sge, IntOp.cmpi_sle, z, hNm]
  exact ⟨h0, by omega⟩

section Take
variable {E : ℕ}
  (hs : (⟨0, ![]⟩ : Shape).BroadcastsInDim ⟨1, ![E]⟩ ![])
  (hc : (⟨1, ![E]⟩ : Shape).BroadcastsInDim ⟨2, ![E, 1]⟩ ![0])
  (hs2 : (⟨0, ![]⟩ : Shape).BroadcastsInDim ⟨2, ![E, 1]⟩ ![])
  (h1 : (⟨1, ![1]⟩ : Shape).BroadcastsInDim ⟨2, ![1, 1]⟩ ![1])
  (h11 : (⟨2, ![1, 1]⟩ : Shape).BroadcastsInDim ⟨2, ![E, 1]⟩ ![0, 1])
  (hred : (⟨2, ![E, 1]⟩ : Shape).ReducesTo [1] ⟨1, ![E]⟩) (hu : 0 < (⟨0, ![]⟩ : Shape).numel)
  (src : Gcn.Words E) (Nw Nm : BitVec 32) (N : ℤ) (hNm : Nm.toInt = N - 1)
  (hsrc : ∀ e : Fin E, 0 ≤ (src (ix1 e)).toInt ∧ (src (ix1 e)).toInt < N)

include hNm hsrc in
/-- The mask of a take (0 ≤ wrapped start word ≤ N − 1, reduced by "and" over the size-one axis) is 1 at every
    position when every start word lies in [0, N). -/
theorem mask_one (j : (⟨1, ![E]⟩ : Shape).Idx) :
    Host.reduce IntOp.andi
      (andi
        (cmpi .sge
          (broadcastInDim ⟨2, ![E, 1]⟩ ![0] hc
            (select (cmpi .slt src (broadcastInDim ⟨1, ![E]⟩ ![] hs (constantI ⟨0, ![]⟩ 32 0#32)))
              (addi src (broadcastInDim ⟨1, ![E]⟩ ![] hs (constantI ⟨0, ![]⟩ 32 Nw))) src))
          (broadcastInDim ⟨2, ![E, 1]⟩ ![] hs2 (constantI ⟨0, ![]⟩ 32 0#32)))
        (cmpi .sle
          (broadcastInDim ⟨2, ![E, 1]⟩ ![0] hc
            (select (cmpi .slt src (broadcastInDim ⟨1, ![E]⟩ ![] hs (constantI ⟨0, ![]⟩ 32 0#32)))
              (addi src (broadcastInDim ⟨1, ![E]⟩ ![] hs (constantI ⟨0, ![]⟩ 32 Nw))) src))
          (broadcastInDim ⟨2, ![E, 1]⟩ ![0, 1] h11 (broadcastInDim ⟨2, ![1, 1]⟩ ![1] h1 (constantI ⟨1, ![1]⟩ 32 Nm)))))
      (constantI ⟨0, ![]⟩ 1 1#1) hred hu j = 1#1 := by
  refine reduce_andi_one _ _ hred hu j rfl (fun i => ?_)
  obtain ⟨a, z, rfl⟩ : ∃ a z, i = ix2 a z := ⟨i 0, i 1, eq_ix2 i⟩
  obtain rfl : z = 0 := Subsingleton.elim _ _
  change IntOp.andi (IntOp.cmpi .sge (broadcastInDim _ _ hc _ (ix2 a 0)) _) (IntOp.cmpi .sle (broadcastInDim _ _ hc _ (ix2 a 0)) _) = 1#1
  rw [col_apply]
  exact wrapped_in_range (src (ix1 a)) Nw Nm N hNm (hsrc a).1 (hsrc a).2

include hNm hsrc in
/-- A take of table rows whose start words all lie in [0, N): no position is filled, and position (e, q) reads the
    table at the row the word of e selects, column q. -/
theorem take_rows {Nn C : ℕ} (hN : 0 < Nn) (d : GatherDims ⟨2, ![Nn, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hm : (⟨1, ![E]⟩ : Shape).BroadcastsInDim ⟨2, ![E, C]⟩ ![0])
    (hf : (⟨0, ![]⟩ : Shape).BroadcastsInDim ⟨2, ![E, C]⟩ ![])
    (X : (⟨2, ![Nn, C]⟩ : Shape).Idx → EReal) (fill : BitVec 32) (e : Fin E) (q : Fin C) :
    select
      (broadcastInDim ⟨2, ![E, C]⟩ ![0] hm
        (Host.reduce IntOp.andi
          (andi
            (cmpi .sge
              (broadcastInDim ⟨2, ![E, 1]⟩ ![0] hc
                (select (cmpi .slt src (broadcastInDim ⟨1, ![E]⟩ ![] hs (constantI ⟨0, ![]⟩ 32 0#32)))
                  (addi src (broadcastInDim ⟨1, ![E]⟩ ![] hs (constantI ⟨0, ![]⟩ 32 Nw))) src))
              (broadcastInDim ⟨2, ![E, 1]⟩ ![] hs2 (constantI ⟨0, ![]⟩ 32 0#32)))
            (cmpi .sle
              (broadcastInDim ⟨2, ![E, 1]⟩ ![0] hc
                (select (cmpi .slt src (broadcastInDim ⟨1, ![E]⟩ ![] hs (constantI ⟨0, ![]⟩ 32 0#32)))
                  (addi src (broadcastInDim ⟨1, ![E]⟩ ![] hs (constantI ⟨0, ![]⟩ 32 Nw))) src))
              (broadcastInDim ⟨2, ![E, 1]⟩ ![0, 1] h11 (broadcastInDim ⟨2, ![1, 1]⟩ ![1] h1 (constantI ⟨1, ![1]⟩ 32 Nm)))))
          (constantI ⟨0, ![]⟩ 1 1#1) hred hu))
      (Host.gather d X
        (broadcastInDim ⟨2, ![E, 1]⟩ ![0] hc
          (select (cmpi .slt src (broadcastInDim ⟨1, ![E]⟩ ![] hs (constantI ⟨0, ![]⟩ 32 0#32)))
            (addi src (broadcastInDim ⟨1, ![E]⟩ ![] hs (constantI ⟨0, ![]⟩ 32 Nw))) src)))
      (broadcastInDim ⟨2, ![E, C]⟩ ![] hf (constant (F := Ideal) ⟨0, ![]⟩ .f32 fill)) (ix2 e q)
      = X (ix2 (Gcn.rowV Nn hN Nw (src (ix1 e))) q) := by
  rw [select_apply, rowsplat_apply, mask_one hs hc hs2 h1 h11 hred hu src Nw Nm N hNm hsrc, select_one]
  exact gather_wrapped_rows hN d hoff hcoll hob hsb hsim hivd hs hc X src Nw e q

include hNm hsrc in
/-- The same for a take of table entries: position e reads the table at the entry the word of e selects. -/
theorem take_vec {Nn : ℕ} (hN : 0 < Nn) (d : GatherDims ⟨1, ![Nn]⟩ ⟨2, ![E, 1]⟩ ⟨1, ![E]⟩)
    (hcoll : d.collapsedSliceDims = [0]) (hob : d.operandBatchingDims = [])
    (hsim : d.startIndexMap = [0]) (hivd : d.indexVectorDim = 1)
    (hf : (⟨0, ![]⟩ : Shape).BroadcastsInDim ⟨1, ![E]⟩ ![])
    (x : (⟨1, ![Nn]⟩ : Shape).Idx → EReal) (fill : BitVec 32) (e : Fin E) :
    select
      (Host.reduce IntOp.andi
        (andi
          (cmpi .sge
            (broadcastInDim ⟨2, ![E, 1]⟩ ![0] hc
              (select (cmpi .slt src (broadcastInDim ⟨1, ![E]⟩ ![] hs (constantI ⟨0, ![]⟩ 32 0#32)))
                (addi src (broadcastInDim ⟨1, ![E]⟩ ![] hs (constantI ⟨0, ![]⟩ 32 Nw))) src))
            (broadcastInDim ⟨2, ![E, 1]⟩ ![] hs2 (constantI ⟨0, ![]⟩ 32 0#32)))
          (cmpi .sle
            (broadcastInDim ⟨2, ![E, 1]⟩ ![0] hc
              (select (cmpi .slt src (broadcastInDim ⟨1, ![E]⟩ ![] hs (constantI ⟨0, ![]⟩ 32 0#32)))
                (addi src (broadcastInDim ⟨1, ![E]⟩ ![] hs (constantI ⟨0, ![]⟩ 32 Nw))) src))
            (broadcastInDim ⟨2, ![E, 1]⟩ ![0, 1] h11 (broadcastInDim ⟨2, ![1, 1]⟩ ![1] h1 (constantI ⟨1, ![1]⟩ 32 Nm)))))
        (constantI ⟨0, ![]⟩ 1 1#1) hred hu)
      (Host.gather d x
        (broadcastInDim ⟨2, ![E, 1]⟩ ![0] hc
          (select (cmpi .slt src (broadcastInDim ⟨1, ![E]⟩ ![] hs (constantI ⟨0, ![]⟩ 32 0#32)))
            (addi src (broadcastInDim ⟨1, ![E]⟩ ![] hs (constantI ⟨0, ![]⟩ 32 Nw))) src)))
      (broadcastInDim ⟨1, ![E]⟩ ![] hf (constant (F := Ideal) ⟨0, ![]⟩ .f32 fill)) (ix1 e)
      = x (ix1 (Gcn.rowV Nn hN Nw (src (ix1 e)))) := by
  rw [select_apply, mask_one hs hc hs2 h1 h11 hred hu src Nw Nm N hNm hsrc, select_one]
  refine ((congrArg _ (ofFin_eq_ix1 e).symm).trans (StableHlo.Predicate.gather_take d hcoll hob hsim hivd x _ e hN)).trans ?_
  refine congrArg x ?_
  rw [ofFin_eq_ix1]
  refine congrArg ix1 (Fin.ext ?_)
  dsimp only [Gcn.rowV]
  rw [ixP_eq_ix2, col_apply]
  rfl

end Take

/-- The accumulating scatter into a vector from a zero base, its segment words laid out as a column: entry r is the sum
    of the updates whose segment word, read signed, is r. -/
theorem scatter_zero_vec {R E : ℕ} (d : ScatterDims ⟨1, ![R]⟩ ⟨2, ![E, 1]⟩ ⟨1, ![E]⟩)
    (huw : d.updateWindowDims = []) (hins : d.insertedWindowDims = [0]) (hsd : d.scatterDimsToOperandDims = [0])
    (hivd : d.indexVectorDim = 1)
    (hz : (⟨0, ![]⟩ : Shape).BroadcastsInDim ⟨1, ![R]⟩ ![])
    (hc : (⟨1, ![E]⟩ : Shape).BroadcastsInDim ⟨2, ![E, 1]⟩ ![0])
    (seg : Gcn.Words E) (upd : (⟨1, ![E]⟩ : Shape).Idx → EReal) (r : Fin R) :
    Host.scatterAdd (F := Ideal) (φ := .f32) d
        (broadcastInDim ⟨1, ![R]⟩ ![] hz (constant (F := Ideal) ⟨0, ![]⟩ .f32 0x00000000#32))
        (broadcastInDim ⟨2, ![E, 1]⟩ ![0] hc seg) upd (ix1 r)
      = Gcn.segsum seg (fun e => upd (ix1 e)) r.val := by
  refine (Gcn.Rows.scatterAdd_vec d huw hins hsd hivd _ _ upd r).trans ?_
  rw [splat_apply, constant_apply, Ideal.ofBits_zero_f32, zero_add]
  unfold Gcn.segsum
  refine Finset.sum_congr rfl (fun e _ => ?_)
  rw [col_apply]

end Host2

/-! ## The host stretches before the third region, one at a time, over any buffer contents V at the stretch's entry -/

namespace Host2

open Host0

section Stretches
variable (V : Valuation τ sig (Elt Ideal))

/-- After the first stretch: the constant 1, the vector of ones, and the source-degree counts. -/
theorem one_a : StableHlo.after (hostOps2 (F := Ideal)) V (Proc.devRef .tc main_cst_9) ix0 = Gcn.lit1 := by
  dsimp only [hostOps2]
  after_results
  rfl

theorem ones_a (e : Fin 10240) : StableHlo.after (hostOps2 (F := Ideal)) V (Proc.devRef .tc main_v38) (ix1 e) = Gcn.lit1 := by
  dsimp only [hostOps2]
  after_results
  exact splat_apply _ _ _

theorem count_src (src : Gcn.Words 10240) (h5 : V (Proc.devRef .tc main_arg5) = src) (j : Fin 10000) :
    StableHlo.after (hostOps2 (F := Ideal)) V (Proc.devRef .tc main_v41) (ix1 j) = Gcn.segsum src (fun _ => Gcn.lit1) j.val := by
  subst h5
  dsimp only [hostOps2]
  after_results
  refine (scatter_zero_vec scatter_S10000_S10240x1_S10240_n_0_0_1 rfl rfl rfl rfl bcast_S_S10000 bcast_S10240_S10240x1_0 _ _ j).trans ?_
  refine congrArg (fun u => Gcn.segsum _ u j.val) (funext fun e => ?_)
  exact splat_apply _ _ _

/-- The clamp of the source-degree counts below by one. -/
theorem clamp_src (one : EReal) (deg : Fin 10000 → EReal) (h9 : V (Proc.devRef .tc main_cst_9) ix0 = one)
    (h41 : ∀ j : Fin 10000, V (Proc.devRef .tc main_v41) (ix1 j) = deg j) (j : Fin 10000) :
    StableHlo.after (hostOps2_1 (F := Ideal)) V (Proc.devRef .tc main_v42) (ix1 j) = max one (deg j) := by
  dsimp only [hostOps2_1]
  after_results
  simp only [StableHlo.TRef.ofBuf, StableHlo.TRef.toBuf, cast_eq]
  rw [maximumf_apply, splat_apply, h41]
  exact congrArg (fun x => max x (deg j)) h9

/-- The inverse square root of the clamped source-degree counts. -/
theorem rsqrt_src (x : Fin 10000 → EReal) (h42 : ∀ j : Fin 10000, V (Proc.devRef .tc main_v42) (ix1 j) = x j) (j : Fin 10000) :
    StableHlo.after (hostOps2_2 (F := Ideal)) V (Proc.devRef .tc main_v43) (ix1 j) = Ideal.rsqrt (x j) := by
  dsimp only [hostOps2_2]
  after_results
  exact congrArg Ideal.rsqrt (h42 j)

set_option maxHeartbeats 1000000 in
/-- The take of the second layer's rows along the last edge table's sources. -/
theorem take_h (src : Gcn.Words 10240) (h5 : V (Proc.devRef .tc main_arg5) = src)
    (hsrc : ∀ e : Fin 10240, 0 ≤ (src (ix1 e)).toInt ∧ (src (ix1 e)).toInt < 10000)
    (X : Fin 10000 → Fin 128 → EReal) (h37 : ∀ a b, V (Proc.devRef .tc main_v37) (ix2 a b) = X a b)
    (e : Fin 10240) (k : Fin 128) :
    StableHlo.after (hostOps2_3 (F := Ideal)) V (Proc.devRef .tc main_v44) (ix2 e k)
      = X (Gcn.rowV 10000 (by decide) 10000#32 (src (ix1 e))) k := by
  subst h5
  dsimp only [hostOps2_3]
  after_results_simp
  simp only [StableHlo.TRef.ofBuf, StableHlo.TRef.toBuf, cast_eq]
  refine (take_rows bcast_S_S10240 bcast_S10240_S10240x1_0 bcast_S_S10240x1 bcast_S1_S1x1_1 bcast_S1x1_S10240x1_0_1
    reducesTo_S10240x1_S10240_d1 h_S_ _ 10000#32 9999#32 10000 (by decide) hsrc (by decide)
    gather_S10000x128_S10240x1_S10240x128_1_0_n_n_0_1_1128 rfl rfl rfl rfl rfl rfl
    bcast_S10240_S10240x128_0 bcast_S_S10240x128 _ _ e k).trans ?_
  exact h37 _ _

set_option maxHeartbeats 1000000 in
/-- The take of the source scales along the last edge table's sources. -/
theorem take_s (src : Gcn.Words 10240) (h5 : V (Proc.devRef .tc main_arg5) = src)
    (hsrc : ∀ e : Fin 10240, 0 ≤ (src (ix1 e)).toInt ∧ (src (ix1 e)).toInt < 10000)
    (y : Fin 10000 → EReal) (h43 : ∀ j : Fin 10000, V (Proc.devRef .tc main_v43) (ix1 j) = y j) (e : Fin 10240) :
    StableHlo.after (hostOps2_4 (F := Ideal)) V (Proc.devRef .tc main_v45) (ix1 e)
      = y (Gcn.rowV 10000 (by decide) 10000#32 (src (ix1 e))) := by
  subst h5
  dsimp only [hostOps2_4]
  after_results_simp
  simp only [StableHlo.TRef.ofBuf, StableHlo.TRef.toBuf, cast_eq]
  refine (take_vec bcast_S_S10240 bcast_S10240_S10240x1_0 bcast_S_S10240x1 bcast_S1_S1x1_1 bcast_S1x1_S10240x1_0_1
    reducesTo_S10240x1_S10240_d1 h_S_ _ 10000#32 9999#32 10000 (by decide) hsrc (by decide)
    gather_S10000_S10240x1_S10240_n_0_n_n_0_1_1 rfl rfl rfl rfl bcast_S_S10240 _ _ e).trans ?_
  exact h43 _

/-- The scaled messages summed per destination row; the destination-degree counts; the constant 1 again. -/
theorem sum_dst (dst : Gcn.Words 10240) (h6 : V (Proc.devRef .tc main_arg6) = dst)
    (A : Fin 10240 → Fin 128 → EReal) (h44 : ∀ e k, V (Proc.devRef .tc main_v44) (ix2 e k) = A e k)
    (s : Fin 10240 → EReal) (h45 : ∀ e : Fin 10240, V (Proc.devRef .tc main_v45) (ix1 e) = s e) (r : Fin 1024) (k : Fin 128) :
    StableHlo.after (hostOps2_5 (F := Ideal)) V (Proc.devRef .tc main_v51) (ix2 r k)
      = Gcn.segsum dst (fun e => A e k * s e) r.val := by
  subst h6
  dsimp only [hostOps2_5]
  after_results
  refine (scatter_zero_rows scatter_S1024x128_S10240x1_S10240x128_1_0_0_1 rfl rfl rfl rfl bcast_S_S1024x128
    bcast_S10240_S10240x1_0 _ _ r k).trans ?_
  refine congrArg (fun u => Gcn.segsum _ u r.val) (funext fun e => ?_)
  rw [mulf_apply, colrows_apply, col_apply, h44, h45]

theorem count_dst (dst : Gcn.Words 10240) (h6 : V (Proc.devRef .tc main_arg6) = dst) (one : EReal)
    (h38 : ∀ e : Fin 10240, V (Proc.devRef .tc main_v38) (ix1 e) = one) (r : Fin 1024) :
    StableHlo.after (hostOps2_5 (F := Ideal)) V (Proc.devRef .tc main_v54) (ix1 r) = Gcn.segsum dst (fun _ => one) r.val := by
  subst h6
  dsimp only [hostOps2_5]
  after_results
  refine (scatter_zero_vec scatter_S1024_S10240x1_S10240_n_0_0_1 rfl rfl rfl rfl bcast_S_S1024 bcast_S10240_S10240x1_0 _ _ r).trans ?_
  exact congrArg (fun u => Gcn.segsum _ u r.val) (funext fun e => h38 e)

theorem one_b : StableHlo.after (hostOps2_5 (F := Ideal)) V (Proc.devRef .tc main_cst_12) ix0 = Gcn.lit1 := by
  dsimp only [hostOps2_5]
  after_results
  rfl

/-- The clamp of the destination-degree counts below by one. -/
theorem clamp_dst (one : EReal) (deg : Fin 1024 → EReal) (h12 : V (Proc.devRef .tc main_cst_12) ix0 = one)
    (h54 : ∀ r : Fin 1024, V (Proc.devRef .tc main_v54) (ix1 r) = deg r) (r : Fin 1024) :
    StableHlo.after (hostOps2_6 (F := Ideal)) V (Proc.devRef .tc main_v55) (ix1 r) = max one (deg r) := by
  dsimp only [hostOps2_6]
  after_results
  simp only [StableHlo.TRef.ofBuf, StableHlo.TRef.toBuf, cast_eq]
  rw [maximumf_apply, splat_apply, h54]
  exact congrArg (fun x => max x (deg r)) h12

/-- The sums scaled by the inverse square root of the clamped destination-degree counts; the last bias as one row. -/
theorem scale_dst (B : Fin 1024 → Fin 128 → EReal) (h51 : ∀ r k, V (Proc.devRef .tc main_v51) (ix2 r k) = B r k)
    (t : Fin 1024 → EReal) (h55 : ∀ r : Fin 1024, V (Proc.devRef .tc main_v55) (ix1 r) = t r) (r : Fin 1024) (k : Fin 128) :
    StableHlo.after (hostOps2_7 (F := Ideal)) V (Proc.devRef .tc main_v59) (ix2 r k) = B r k * Ideal.rsqrt (t r) := by
  dsimp only [hostOps2_7]
  after_results
  rw [mulf_apply, colrows_apply, col_apply, h51]
  exact congrArg (fun x => B r k * Ideal.rsqrt x) (h55 r)

theorem bias_row (b : Gcn.Vect 47) (h14 : V (Proc.devRef .tc main_arg14) = b) (c' : Fin 47) :
    StableHlo.after (hostOps2_7 (F := Ideal)) V (Proc.devRef .tc main_v60) (ix2 (0 : Fin 1) c') = b (ix1 c') := by
  subst h14
  dsimp only [hostOps2_7]
  after_results
  exact row_apply shapeCasts_S47_S1x47 _ c'

end Stretches

end Host2

/-! ## Buffers a stretch does not write keep their contents -/

namespace Host2

/-- Closes "the stretch leaves this buffer as it was": no operation of the stretch writes it. -/
local macro "not_written" : tactic => `(tactic| (
  refine StableHlo.after_of_forall_not_mem _ _ (List.forall_iff_forall_mem.mp ?_)
  simp only [hostOps2, hostOps2_1, hostOps2_2, hostOps2_3, hostOps2_4, hostOps2_5, hostOps2_6, hostOps2_7,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section Keeps
variable (V : Valuation τ sig (Elt Ideal))

theorem k0_arg5 : StableHlo.after (hostOps2 (F := Ideal)) V (Proc.devRef .tc main_arg5) = V (Proc.devRef .tc main_arg5) := by not_written
theorem k1_arg5 : StableHlo.after (hostOps2_1 (F := Ideal)) V (Proc.devRef .tc main_arg5) = V (Proc.devRef .tc main_arg5) := by not_written
theorem k2_arg5 : StableHlo.after (hostOps2_2 (F := Ideal)) V (Proc.devRef .tc main_arg5) = V (Proc.devRef .tc main_arg5) := by not_written
theorem k3_arg5 : StableHlo.after (hostOps2_3 (F := Ideal)) V (Proc.devRef .tc main_arg5) = V (Proc.devRef .tc main_arg5) := by not_written
theorem k4_arg5 : StableHlo.after (hostOps2_4 (F := Ideal)) V (Proc.devRef .tc main_arg5) = V (Proc.devRef .tc main_arg5) := by not_written
theorem k5_arg5 : StableHlo.after (hostOps2_5 (F := Ideal)) V (Proc.devRef .tc main_arg5) = V (Proc.devRef .tc main_arg5) := by not_written
theorem k6_arg5 : StableHlo.after (hostOps2_6 (F := Ideal)) V (Proc.devRef .tc main_arg5) = V (Proc.devRef .tc main_arg5) := by not_written
theorem k7_arg5 : StableHlo.after (hostOps2_7 (F := Ideal)) V (Proc.devRef .tc main_arg5) = V (Proc.devRef .tc main_arg5) := by not_written
theorem k5_arg6 : StableHlo.after (hostOps2_5 (F := Ideal)) V (Proc.devRef .tc main_arg6) = V (Proc.devRef .tc main_arg6) := by not_written
theorem k6_arg6 : StableHlo.after (hostOps2_6 (F := Ideal)) V (Proc.devRef .tc main_arg6) = V (Proc.devRef .tc main_arg6) := by not_written
theorem k7_arg6 : StableHlo.after (hostOps2_7 (F := Ideal)) V (Proc.devRef .tc main_arg6) = V (Proc.devRef .tc main_arg6) := by not_written
theorem k7_arg14 : StableHlo.after (hostOps2_7 (F := Ideal)) V (Proc.devRef .tc main_arg14) = V (Proc.devRef .tc main_arg14) := by not_written
theorem k0_v37 : StableHlo.after (hostOps2 (F := Ideal)) V (Proc.devRef .tc main_v37) = V (Proc.devRef .tc main_v37) := by not_written
theorem k1_v37 : StableHlo.after (hostOps2_1 (F := Ideal)) V (Proc.devRef .tc main_v37) = V (Proc.devRef .tc main_v37) := by not_written
theorem k2_v37 : StableHlo.after (hostOps2_2 (F := Ideal)) V (Proc.devRef .tc main_v37) = V (Proc.devRef .tc main_v37) := by not_written
theorem k3_v43 : StableHlo.after (hostOps2_3 (F := Ideal)) V (Proc.devRef .tc main_v43) = V (Proc.devRef .tc main_v43) := by not_written
theorem k4_v44 : StableHlo.after (hostOps2_4 (F := Ideal)) V (Proc.devRef .tc main_v44) = V (Proc.devRef .tc main_v44) := by not_written
theorem k1_v38 : StableHlo.after (hostOps2_1 (F := Ideal)) V (Proc.devRef .tc main_v38) = V (Proc.devRef .tc main_v38) := by not_written
theorem k2_v38 : StableHlo.after (hostOps2_2 (F := Ideal)) V (Proc.devRef .tc main_v38) = V (Proc.devRef .tc main_v38) := by not_written
theorem k3_v38 : StableHlo.after (hostOps2_3 (F := Ideal)) V (Proc.devRef .tc main_v38) = V (Proc.devRef .tc main_v38) := by not_written
theorem k4_v38 : StableHlo.after (hostOps2_4 (F := Ideal)) V (Proc.devRef .tc main_v38) = V (Proc.devRef .tc main_v38) := by not_written
theorem k6_v51 : StableHlo.after (hostOps2_6 (F := Ideal)) V (Proc.devRef .tc main_v51) = V (Proc.devRef .tc main_v51) := by not_written

end Keeps

end Host2

/-! ## The argument tables where the stretches read them -/

namespace Host2

/-- The last edge table's sources, as launched, at the three stretches that read them. -/
theorem src_at (c : Dev nD) :
    W13 m ρ c (Proc.devRef .tc main_arg5) = (inOf m c).src2 ∧ W16 m ρ c (Proc.devRef .tc main_arg5) = (inOf m c).src2
      ∧ W17 m ρ c (Proc.devRef .tc main_arg5) = (inOf m c).src2 := by
  have e21 : W21 m ρ c (Proc.devRef .tc main_arg5) = (inOf m c).src2 :=
    (W22_of_ne m ρ c main_arg5 (by decide)).symm.trans (W22_main_arg5 m ρ c)
  have e20 : W20 m ρ c (Proc.devRef .tc main_arg5) = (inOf m c).src2 := (k7_arg5 (W20 m ρ c)).symm.trans e21
  have e19 : W19 m ρ c (Proc.devRef .tc main_arg5) = (inOf m c).src2 := (k6_arg5 (W19 m ρ c)).symm.trans e20
  have e18 : W18 m ρ c (Proc.devRef .tc main_arg5) = (inOf m c).src2 := (k5_arg5 (W18 m ρ c)).symm.trans e19
  have e17 : W17 m ρ c (Proc.devRef .tc main_arg5) = (inOf m c).src2 := (k4_arg5 (W17 m ρ c)).symm.trans e18
  have e16 : W16 m ρ c (Proc.devRef .tc main_arg5) = (inOf m c).src2 := (k3_arg5 (W16 m ρ c)).symm.trans e17
  have e15 : W15 m ρ c (Proc.devRef .tc main_arg5) = (inOf m c).src2 := (k2_arg5 (W15 m ρ c)).symm.trans e16
  have e14 : W14 m ρ c (Proc.devRef .tc main_arg5) = (inOf m c).src2 := (k1_arg5 (W14 m ρ c)).symm.trans e15
  have e13 : W13 m ρ c (Proc.devRef .tc main_arg5) = (inOf m c).src2 := (k0_arg5 (W13 m ρ c)).symm.trans e14
  exact ⟨e13, e16, e17⟩

/-- The last edge table's destinations, as launched, at the stretch that reads them. -/
theorem dst_at (c : Dev nD) : W18 m ρ c (Proc.devRef .tc main_arg6) = (inOf m c).dst2 := by
  have e21 : W21 m ρ c (Proc.devRef .tc main_arg6) = (inOf m c).dst2 :=
    (W22_of_ne m ρ c main_arg6 (by decide)).symm.trans (W22_main_arg6 m ρ c)
  have e20 : W20 m ρ c (Proc.devRef .tc main_arg6) = (inOf m c).dst2 := (k7_arg6 (W20 m ρ c)).symm.trans e21
  have e19 : W19 m ρ c (Proc.devRef .tc main_arg6) = (inOf m c).dst2 := (k6_arg6 (W19 m ρ c)).symm.trans e20
  exact (k5_arg6 (W18 m ρ c)).symm.trans e19

/-- The last bias, as launched, at the stretch that reads it. -/
theorem bias_at (c : Dev nD) : W20 m ρ c (Proc.devRef .tc main_arg14) = (inOf m c).b2 :=
  (k7_arg14 (W20 m ρ c)).symm.trans ((W22_of_ne m ρ c main_arg14 (by decide)).symm.trans (W22_main_arg14 m ρ c))

end Host2

/-! ## The third region's three inputs -/

/-- The second region's output rows, as the stretches after it find them. -/
abbrev Host2.hrows (c : Dev nD) : Fin 10000 → Fin 128 → EReal :=
  fun a b => W13 m ρ c (Proc.devRef .tc main_v37) (ix2 a b)

theorem host2_x (c : Dev nD) (hg : (inOf m c).Good) (r : Fin 1024) (k : Fin 128) :
    V21 m ρ c (Pipeline.arrRef spec2 0) (ix2 r k)
      = Gcn.aggS (fun (a : Fin 10000) (b : Fin 128) => W13 m ρ c (Proc.devRef .tc main_v37) (ix2 a b))
          (Gcn.g2 (inOf m c)) (Gcn.sc2 (inOf m c)) (inOf m c).dst2 (Gcn.ds2 (inOf m c)) r k := by
  obtain ⟨a13, a16, a17⟩ := Host2.src_at m ρ c
  have a6 := Host2.dst_at m ρ c
  -- the source side: degree counts, clamp, scale
  have d41 : ∀ j : Fin 10000, W14 m ρ c (Proc.devRef .tc main_v41) (ix1 j)
      = Gcn.segsum (inOf m c).src2 (fun _ => Gcn.lit1) j.val := fun j => Host2.count_src (W13 m ρ c) _ a13 j
  have c9 : W14 m ρ c (Proc.devRef .tc main_cst_9) ix0 = Gcn.lit1 := Host2.one_a (W13 m ρ c)
  have d42 : ∀ j : Fin 10000, W15 m ρ c (Proc.devRef .tc main_v42) (ix1 j)
      = max Gcn.lit1 (Gcn.segsum (inOf m c).src2 (fun _ => Gcn.lit1) j.val) := fun j => Host2.clamp_src (W14 m ρ c) _ _ c9 d41 j
  have d43 : ∀ j : Fin 10000, W16 m ρ c (Proc.devRef .tc main_v43) (ix1 j) = Gcn.scl (inOf m c).src2 j.val :=
    fun j => Host2.rsqrt_src (W15 m ρ c) _ d42 j
  have d43' : ∀ j : Fin 10000, W17 m ρ c (Proc.devRef .tc main_v43) (ix1 j) = Gcn.scl (inOf m c).src2 j.val :=
    fun j => (congrFun (Host2.k3_v43 (W16 m ρ c)) (ix1 j)).trans (d43 j)
  -- the two takes along the edge sources
  have d37 : ∀ (a : Fin 10000) (b : Fin 128), W16 m ρ c (Proc.devRef .tc main_v37) (ix2 a b)
      = W13 m ρ c (Proc.devRef .tc main_v37) (ix2 a b) := fun a b =>
    congrFun ((Host2.k2_v37 (W15 m ρ c)).trans ((Host2.k1_v37 (W14 m ρ c)).trans (Host2.k0_v37 (W13 m ρ c)))) (ix2 a b)
  have d44 : ∀ (e : Fin 10240) (q : Fin 128), W17 m ρ c (Proc.devRef .tc main_v44) (ix2 e q)
      = Host2.hrows m ρ c (Gcn.g2 (inOf m c) e) q := fun e q =>
    Host2.take_h (W16 m ρ c) _ a16 hg.src2 (Host2.hrows m ρ c) d37 e q
  have d44' : ∀ (e : Fin 10240) (q : Fin 128), W18 m ρ c (Proc.devRef .tc main_v44) (ix2 e q)
      = Host2.hrows m ρ c (Gcn.g2 (inOf m c) e) q := fun e q =>
    (congrFun (Host2.k4_v44 (W17 m ρ c)) (ix2 e q)).trans (d44 e q)
  have d45 : ∀ e : Fin 10240, W18 m ρ c (Proc.devRef .tc main_v45) (ix1 e) = Gcn.sc2 (inOf m c) e := fun e =>
    Host2.take_s (W17 m ρ c) _ a17 hg.src2 (fun j => Gcn.scl (inOf m c).src2 j.val) d43' e
  -- the destination side: sums, degree counts, clamp
  have d38 : ∀ e : Fin 10240, W18 m ρ c (Proc.devRef .tc main_v38) (ix1 e) = Gcn.lit1 := fun e =>
    (congrFun ((Host2.k4_v38 (W17 m ρ c)).trans ((Host2.k3_v38 (W16 m ρ c)).trans ((Host2.k2_v38 (W15 m ρ c)).trans
      (Host2.k1_v38 (W14 m ρ c))))) (ix1 e)).trans (Host2.ones_a (W13 m ρ c) e)
  have d51 : ∀ (p : Fin 1024) (q : Fin 128), W19 m ρ c (Proc.devRef .tc main_v51) (ix2 p q)
      = Gcn.segsum (inOf m c).dst2 (fun e => Host2.hrows m ρ c (Gcn.g2 (inOf m c) e) q * Gcn.sc2 (inOf m c) e) p.val := fun p q => Host2.sum_dst (W18 m ρ c) _ a6 _ d44' _ d45 p q
  have d51' : ∀ (p : Fin 1024) (q : Fin 128), W20 m ρ c (Proc.devRef .tc main_v51) (ix2 p q)
      = Gcn.segsum (inOf m c).dst2 (fun e => Host2.hrows m ρ c (Gcn.g2 (inOf m c) e) q * Gcn.sc2 (inOf m c) e) p.val := fun p q => (congrFun (Host2.k6_v51 (W19 m ρ c)) (ix2 p q)).trans (d51 p q)
  have d54 : ∀ p : Fin 1024, W19 m ρ c (Proc.devRef .tc main_v54) (ix1 p)
      = Gcn.segsum (inOf m c).dst2 (fun _ => Gcn.lit1) p.val := fun p => Host2.count_dst (W18 m ρ c) _ a6 _ d38 p
  have c12 : W19 m ρ c (Proc.devRef .tc main_cst_12) ix0 = Gcn.lit1 := Host2.one_b (W18 m ρ c)
  have d55 : ∀ p : Fin 1024, W20 m ρ c (Proc.devRef .tc main_v55) (ix1 p)
      = max Gcn.lit1 (Gcn.segsum (inOf m c).dst2 (fun _ => Gcn.lit1) p.val) := fun p => Host2.clamp_dst (W19 m ρ c) _ _ c12 d54 p
  show StableHlo.after hostOps2_7 (W20 m ρ c) (Proc.devRef .tc main_v59) (ix2 r k) = _
  exact Host2.scale_dst (W20 m ρ c) _ d51' _ d55 r k

theorem host2_w (c : Dev nD) (k : Fin 128) (c' : Fin 47) :
    V21 m ρ c (Pipeline.arrRef spec2 1) (ix2 k c') = (inOf m c).W2 (ix2 k c') := by
  have e : W21 m ρ c (Proc.devRef .tc main_arg13) = m ((c : Thread nD τ).loc main_arg13) :=
    ((W22_arr m ρ c 1).trans (((dat2 (V21 m ρ) c).arrAt_in 1 rfl _).trans (A_eq2 (V21 m ρ) c 1))).symm.trans (W22_main_arg13 m ρ c)
  exact congrFun e (ix2 k c')

theorem host2_b (c : Dev nD) (c' : Fin 47) :
    V21 m ρ c (Pipeline.arrRef spec2 2) (ix2 (0 : Fin 1) c') = (inOf m c).b2 (ix1 c') := by
  show StableHlo.after hostOps2_7 (W20 m ρ c) (Proc.devRef .tc main_v60) (ix2 (0 : Fin 1) c') = _
  exact Host2.bias_row (W20 m ρ c) _ (Host2.bias_at m ρ c) c'

end Cert.KernelIdeal.KVal

end
-- ==== Proof.KHost1Deg.lean ====
/-
  The two degree scales of the second layer, as the host leaves them.  The scale of a source row is one over the square
  root of the number of edges that leave it, the count clamped below by one; it is then gathered along the edges' source
  table, and with that table inside its range the gather does not fill.  The count of the edges that arrive at a
  destination row is clamped the same way; its inverse square root is taken by the stretch that follows.
-/
import proofs.«415471_j1468878815350_3_alg».proof.Proof.Gen.KernelIdeal.Frame
import proofs.«415471_j1468878815350_3_alg».proof.Proof.Spec
import proofs.«415471_j1468878815350_3_alg».proof.Proof.KIn
import proofs.«415471_j1468878815350_3_alg».proof.Proof.LibRows
import proofs.«415471_j1468878815350_3_alg».proof.Proof.KHost0
import proofs.«415471_j1468878815350_3_alg».proof.Proof.KHost2
import Idealize.ShloMosaic.Lib.StableHlo.Run
import Idealize.ShloMosaic.Lib.StableHlo.Predicate
import Idealize.ShloMosaic.Lib.Pipeline.Value
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Deg

/-- A buffer that no operation of a stretch writes holds after the stretch what it held before. -/
local macro "carry" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The source table of the second layer is, before the stretch that counts it, as launched. -/
theorem arg3_W4 (c : Dev nD) : W4 m ρ c (Proc.devRef .tc main_arg3) = (inOf m c).src1 :=
  calc W4 m ρ c (Proc.devRef .tc main_arg3)
    _ = W3 m ρ c (Proc.devRef .tc main_arg3) := by carry hostOps1_1
    _ = W2 m ρ c (Proc.devRef .tc main_arg3) := by carry hostOps1
    _ = W1 m ρ c (Proc.devRef .tc main_arg3) := W2_of_ne m ρ c main_arg3 (by decide)
    _ = W0 m ρ c (Proc.devRef .tc main_arg3) := by carry hostOps0
    _ = (inOf m c).src1 := rfl

/-- And still so before the stretch that gathers along it. -/
theorem arg3_W8 (c : Dev nD) : W8 m ρ c (Proc.devRef .tc main_arg3) = (inOf m c).src1 :=
  calc W8 m ρ c (Proc.devRef .tc main_arg3)
    _ = W7 m ρ c (Proc.devRef .tc main_arg3) := by carry hostOps1_5
    _ = W6 m ρ c (Proc.devRef .tc main_arg3) := by carry hostOps1_4
    _ = W5 m ρ c (Proc.devRef .tc main_arg3) := by carry hostOps1_3
    _ = W4 m ρ c (Proc.devRef .tc main_arg3) := by carry hostOps1_2
    _ = (inOf m c).src1 := arg3_W4 m ρ c

/-- The destination table of the second layer is, before the stretch that counts it, as launched. -/
theorem arg4_W9 (c : Dev nD) : W9 m ρ c (Proc.devRef .tc main_arg4) = (inOf m c).dst1 :=
  calc W9 m ρ c (Proc.devRef .tc main_arg4)
    _ = W8 m ρ c (Proc.devRef .tc main_arg4) := by carry hostOps1_6
    _ = W7 m ρ c (Proc.devRef .tc main_arg4) := by carry hostOps1_5
    _ = W6 m ρ c (Proc.devRef .tc main_arg4) := by carry hostOps1_4
    _ = W5 m ρ c (Proc.devRef .tc main_arg4) := by carry hostOps1_3
    _ = W4 m ρ c (Proc.devRef .tc main_arg4) := by carry hostOps1_2
    _ = W3 m ρ c (Proc.devRef .tc main_arg4) := by carry hostOps1_1
    _ = W2 m ρ c (Proc.devRef .tc main_arg4) := by carry hostOps1
    _ = W1 m ρ c (Proc.devRef .tc main_arg4) := W2_of_ne m ρ c main_arg4 (by decide)
    _ = W0 m ρ c (Proc.devRef .tc main_arg4) := by carry hostOps0
    _ = (inOf m c).dst1 := rfl

open Host0 Host2

section Stretches
variable (V : Valuation τ sig (Elt Ideal))

/-! ## The stretches, one at a time, over any buffer contents V at the stretch's entry -/

/-- The stretch that counts the edges leaving each source row: the vector of ones, -/
theorem ones_a (e : Fin 100000) :
    StableHlo.after (hostOps1_2 (F := Ideal)) V (Proc.devRef .tc main_v14) (ix1 e) = Gcn.lit1 := by
  dsimp only [hostOps1_2]
  after_results
  exact splat_apply _ _ _

/-- the counts, -/
theorem count_a (src : Gcn.Words 100000) (h3 : V (Proc.devRef .tc main_arg3) = src) (j : Fin 100000) :
    StableHlo.after (hostOps1_2 (F := Ideal)) V (Proc.devRef .tc main_v17) (ix1 j)
      = Gcn.segsum src (fun _ => Gcn.lit1) j.val := by
  subst h3
  dsimp only [hostOps1_2]
  after_results
  refine (scatter_zero_vec scatter_S100000_S100000x1_S100000_n_0_0_1 rfl rfl rfl rfl bcast_S_S100000
    bcast_S100000_S100000x1_0 _ _ j).trans ?_
  refine congrArg (fun u => Gcn.segsum _ u j.val) (funext fun e => ?_)
  exact splat_apply _ _ _

/-- and the constant one that clamps them. -/
theorem one_a : StableHlo.after (hostOps1_2 (F := Ideal)) V (Proc.devRef .tc main_cst_3) ix0 = Gcn.lit1 := by
  dsimp only [hostOps1_2]
  after_results
  rfl

/-- The clamp of the source counts below by one. -/
theorem clamp_a (one : EReal) (deg : Fin 100000 → EReal) (h : V (Proc.devRef .tc main_cst_3) ix0 = one)
    (h17 : ∀ j : Fin 100000, V (Proc.devRef .tc main_v17) (ix1 j) = deg j) (j : Fin 100000) :
    StableHlo.after (hostOps1_3 (F := Ideal)) V (Proc.devRef .tc main_v18) (ix1 j) = max one (deg j) := by
  dsimp only [hostOps1_3]
  after_results
  simp only [StableHlo.TRef.ofBuf, StableHlo.TRef.toBuf, cast_eq]
  rw [maximumf_apply, splat_apply, h17]
  exact congrArg (fun x => max x (deg j)) h

/-- The inverse square root of the clamped source counts. -/
theorem rsqrt_a (x : Fin 100000 → EReal) (h18 : ∀ j : Fin 100000, V (Proc.devRef .tc main_v18) (ix1 j) = x j)
    (j : Fin 100000) :
    StableHlo.after (hostOps1_4 (F := Ideal)) V (Proc.devRef .tc main_v19) (ix1 j) = Ideal.rsqrt (x j) := by
  dsimp only [hostOps1_4]
  after_results
  exact congrArg Ideal.rsqrt (h18 j)

set_option maxHeartbeats 1000000 in
/-- The take of the source scales along the edges' source words: inside the table, no position is filled. -/
theorem take_a (src : Gcn.Words 100000) (h3 : V (Proc.devRef .tc main_arg3) = src)
    (hsrc : ∀ e : Fin 100000, 0 ≤ (src (ix1 e)).toInt ∧ (src (ix1 e)).toInt < 100000)
    (y : Fin 100000 → EReal) (h19 : ∀ j : Fin 100000, V (Proc.devRef .tc main_v19) (ix1 j) = y j) (e : Fin 100000) :
    StableHlo.after (hostOps1_6 (F := Ideal)) V (Proc.devRef .tc main_v21) (ix1 e)
      = y (Gcn.rowV 100000 (by decide) 100000#32 (src (ix1 e))) := by
  subst h3
  dsimp only [hostOps1_6]
  after_results_simp
  simp only [StableHlo.TRef.ofBuf, StableHlo.TRef.toBuf, cast_eq]
  refine (take_vec bcast_S_S100000 bcast_S100000_S100000x1_0 bcast_S_S100000x1 bcast_S1_S1x1_1 bcast_S1x1_S100000x1_0_1
    reducesTo_S100000x1_S100000_d1 h_S_ _ 100000#32 99999#32 100000 (by decide) hsrc (by decide)
    gather_S100000_S100000x1_S100000_n_0_n_n_0_1_1 rfl rfl rfl rfl bcast_S_S100000 _ _ e).trans ?_
  exact h19 _

/-- The stretch that sums the messages also counts the edges arriving at each destination row, -/
theorem count_b (dst : Gcn.Words 100000) (h4 : V (Proc.devRef .tc main_arg4) = dst) (one : EReal)
    (h14 : ∀ e : Fin 100000, V (Proc.devRef .tc main_v14) (ix1 e) = one) (r : Fin 10000) :
    StableHlo.after (hostOps1_7 (F := Ideal)) V (Proc.devRef .tc main_v30) (ix1 r)
      = Gcn.segsum dst (fun _ => one) r.val := by
  subst h4
  dsimp only [hostOps1_7]
  after_results
  refine (scatter_zero_vec scatter_S10000_S100000x1_S100000_n_0_0_1 rfl rfl rfl rfl bcast_S_S10000
    bcast_S100000_S100000x1_0 _ _ r).trans ?_
  exact congrArg (fun u => Gcn.segsum _ u r.val) (funext fun e => h14 e)

/-- and makes the constant one that clamps the counts. -/
theorem one_b : StableHlo.after (hostOps1_7 (F := Ideal)) V (Proc.devRef .tc main_cst_6) ix0 = Gcn.lit1 := by
  dsimp only [hostOps1_7]
  after_results
  rfl

/-- The clamp of the destination counts below by one. -/
theorem clamp_b (one : EReal) (deg : Fin 10000 → EReal) (h : V (Proc.devRef .tc main_cst_6) ix0 = one)
    (h30 : ∀ r : Fin 10000, V (Proc.devRef .tc main_v30) (ix1 r) = deg r) (r : Fin 10000) :
    StableHlo.after (hostOps1_8 (F := Ideal)) V (Proc.devRef .tc main_v31) (ix1 r) = max one (deg r) := by
  dsimp only [hostOps1_8]
  after_results
  simp only [StableHlo.TRef.ofBuf, StableHlo.TRef.toBuf, cast_eq]
  rw [maximumf_apply, splat_apply, h30]
  exact congrArg (fun x => max x (deg r)) h

end Stretches

section Keeps
variable (V : Valuation τ sig (Elt Ideal))

/-! ## Buffers a stretch does not write keep their contents -/

theorem keep3_v14 : StableHlo.after (hostOps1_3 (F := Ideal)) V (Proc.devRef .tc main_v14) = V (Proc.devRef .tc main_v14) := by
  carry hostOps1_3
theorem keep4_v14 : StableHlo.after (hostOps1_4 (F := Ideal)) V (Proc.devRef .tc main_v14) = V (Proc.devRef .tc main_v14) := by
  carry hostOps1_4
theorem keep5_v14 : StableHlo.after (hostOps1_5 (F := Ideal)) V (Proc.devRef .tc main_v14) = V (Proc.devRef .tc main_v14) := by
  carry hostOps1_5
theorem keep6_v14 : StableHlo.after (hostOps1_6 (F := Ideal)) V (Proc.devRef .tc main_v14) = V (Proc.devRef .tc main_v14) := by
  carry hostOps1_6
theorem keep5_v19 : StableHlo.after (hostOps1_5 (F := Ideal)) V (Proc.devRef .tc main_v19) = V (Proc.devRef .tc main_v19) := by
  carry hostOps1_5

end Keeps

end Deg

/-- After the stretch that gathers it along the edges, the buffer main_v21 holds at edge e the degree scale of the
    edge's source row. -/
theorem sc1_val (c : Dev nD) (hg : (inOf m c).Good) (e : Fin 100000) :
    W9 m ρ c (Proc.devRef .tc main_v21) (ix1 e) = Gcn.sc1 (inOf m c) e := by
  have h17 : ∀ j : Fin 100000, W5 m ρ c (Proc.devRef .tc main_v17) (ix1 j)
      = Gcn.segsum (inOf m c).src1 (fun _ => Gcn.lit1) j.val :=
    fun j => Deg.count_a (W4 m ρ c) _ (Deg.arg3_W4 m ρ c) j
  have h18 : ∀ j : Fin 100000, W6 m ρ c (Proc.devRef .tc main_v18) (ix1 j)
      = max Gcn.lit1 (Gcn.segsum (inOf m c).src1 (fun _ => Gcn.lit1) j.val) :=
    fun j => Deg.clamp_a (W5 m ρ c) _ _ (Deg.one_a (W4 m ρ c)) h17 j
  have h19 : ∀ j : Fin 100000, W7 m ρ c (Proc.devRef .tc main_v19) (ix1 j) = Gcn.scl (inOf m c).src1 j.val :=
    fun j => Deg.rsqrt_a (W6 m ρ c) _ h18 j
  have h19' : ∀ j : Fin 100000, W8 m ρ c (Proc.devRef .tc main_v19) (ix1 j) = Gcn.scl (inOf m c).src1 j.val :=
    fun j => (congrFun (Deg.keep5_v19 (W7 m ρ c)) (ix1 j)).trans (h19 j)
  exact Deg.take_a (W8 m ρ c) _ (Deg.arg3_W8 m ρ c) hg.src1 (fun j => Gcn.scl (inOf m c).src1 j.val) h19' e

/-- After the stretch that clamps it, the buffer main_v31 holds at row r the number of edges that arrive at r, clamped
    below by one. -/
theorem ds1_val (c : Dev nD) (r : Fin 10000) :
    W11 m ρ c (Proc.devRef .tc main_v31) (ix1 r)
      = max Gcn.lit1 (Gcn.segsum (inOf m c).dst1 (fun _ => Gcn.lit1) r.val) := by
  have h14 : ∀ e : Fin 100000, W9 m ρ c (Proc.devRef .tc main_v14) (ix1 e) = Gcn.lit1 := fun e =>
    (congrFun ((Deg.keep6_v14 (W8 m ρ c)).trans ((Deg.keep5_v14 (W7 m ρ c)).trans
      ((Deg.keep4_v14 (W6 m ρ c)).trans (Deg.keep3_v14 (W5 m ρ c))))) (ix1 e)).trans (Deg.ones_a (W4 m ρ c) e)
  have h30 : ∀ r : Fin 10000, W10 m ρ c (Proc.devRef .tc main_v30) (ix1 r)
      = Gcn.segsum (inOf m c).dst1 (fun _ => Gcn.lit1) r.val :=
    fun r => Deg.count_b (W9 m ρ c) _ (Deg.arg4_W9 m ρ c) _ h14 r
  exact Deg.clamp_b (W10 m ρ c) _ _ (Deg.one_b (W9 m ρ c)) h30 r

end Cert.KernelIdeal.KVal

end
-- ==== Proof.KHost1.lean ====
/-
  What the second region finds in its three input arrays.  Between the first and the second region the host composes the
  two re-indexings into the edge table, gathers the first layer's rows through it, scales each message by its source
  row's degree scale, sums the messages per destination row and scales the sums.  With the gathered index tables inside
  their ranges no gather fills, so each gather reads the row its index word names.

  The composed index words and the two degree scales are read in two neighbouring modules.  Here: a read of a table
  through an index word at one position, each of the remaining stretches read over any contents it starts from, the
  buffers that the stretches in between leave alone, and the three inputs assembled from these.
-/
import proofs.«415471_j1468878815350_3_alg».proof.Proof.Gen.KernelIdeal.Frame
import proofs.«415471_j1468878815350_3_alg».proof.Proof.Spec
import proofs.«415471_j1468878815350_3_alg».proof.Proof.KIn
import proofs.«415471_j1468878815350_3_alg».proof.Proof.LibRows
import proofs.«415471_j1468878815350_3_alg».proof.Proof.KHost0
import proofs.«415471_j1468878815350_3_alg».proof.Proof.KHost1Idx
import proofs.«415471_j1468878815350_3_alg».proof.Proof.KHost1Deg
import Idealize.ShloMosaic.Lib.StableHlo.Run
import Idealize.ShloMosaic.Lib.StableHlo.Predicate
import Idealize.ShloMosaic.Lib.Pipeline.Value
set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

namespace Host1

/-! ### Words inside a table, and the wrap of negative words -/

/-- A 32-bit word whose signed reading lies in [0, N), N at most 2³¹, has its unsigned reading below N and below 2³¹. -/
theorem word_small {w : BitVec 32} {N : ℕ} (hN : N ≤ 2 ^ 31) (h : 0 ≤ w.toInt ∧ w.toInt < (N : ℤ)) :
    w.toNat < N ∧ w.toNat < 2 ^ 31 := by
  obtain ⟨h0, h1⟩ := h
  rw [BitVec.toInt_eq_toNat_cond] at h0 h1
  have := w.isLt
  split at h0 <;> omega

/-- The wrap leaves a word that is not negative as it is. -/
theorem wrapW_of_nonneg (Nw w : BitVec 32) (h0 : 0 ≤ w.toInt) : Gcn.wrapW Nw w = w := by
  unfold Gcn.wrapW
  have hc : IntOp.cmpi .slt w 0#32 = 0#1 := by
    unfold IntOp.cmpi
    have : w.slt 0#32 = false := by
      simp only [BitVec.slt, show (0#32 : BitVec 32).toInt = 0 from by decide, decide_eq_false_iff_not, not_lt]
      exact h0
    rw [this]; rfl
  rw [hc]; exact select_zero _ _

/-- A reduce by `and` whose initial bit and every contributing bit are 1 is 1. -/
theorem reduce_andi_one {s t u : Shape} {axes : List (Fin s.rank)} (x : s.Idx → BitVec 1) (init : u.Idx → BitVec 1)
    (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl, hinit]
  have key : ∀ l : List s.Idx, (∀ i ∈ l, x i = 1#1) → l.foldl (fun r i => IntOp.andi r (x i)) 1#1 = 1#1 := by
    intro l
    induction l with
    | nil => intro _; rfl
    | cons a l ih =>
      intro hl
      rw [List.foldl_cons, hl a List.mem_cons_self, show IntOp.andi 1#1 1#1 = 1#1 from by decide]
      exact ih (fun i hi => hl i (List.mem_cons_of_mem _ hi))
  exact key _ (fun i hi => hx i (by simpa using (List.mem_filter.1 hi).2))

/-! ### A read of a table of 100000 rows through an index word, at one position

The host wraps the index word, lays the wrapped words out as a column, tests each against [0, 99999], gathers the table
through the column (the gather clamps) and selects the gathered entry where the test holds, a fill elsewhere.  With the
index word inside the table the test holds, so the read is the row the word names. -/

/-- The wrapped index words as a column. -/
abbrev wrapCol (w : S100000.Idx → BitVec 32) : S100000x1.Idx → BitVec 32 :=
  broadcastInDim S100000x1 ![0] bcast_S100000_S100000x1_0
    (select (cmpi .slt w (broadcastInDim S100000 ![] bcast_S_S100000 (constantI S_ 32 0#32)))
      (addi w (broadcastInDim S100000 ![] bcast_S_S100000 (constantI S_ 32 100000#32))) w)

/-- The test of the column against [0, 99999], reduced over its one-entry axis. -/
abbrev inRange (w : S100000.Idx → BitVec 32) : S100000.Idx → BitVec 1 :=
  Host.reduce IntOp.andi
    (andi (cmpi .sge (wrapCol w) (broadcastInDim S100000x1 ![] bcast_S_S100000x1 (constantI S_ 32 0#32)))
      (cmpi .sle (wrapCol w) (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

theorem wrapCol_at (w : S100000.Idx → BitVec 32) (j : Fin 100000) :
    wrapCol w (ix2 j (0 : Fin 1)) = Gcn.wrapW 100000#32 (w (ix1 j)) := by
  unfold wrapCol
  refine (Host0.col_apply bcast_S100000_S100000x1_0 _ j).trans ?_
  rfl

theorem inRange_at (w : S100000.Idx → BitVec 32) (j : Fin 100000)
    (h : 0 ≤ (w (ix1 j)).toInt ∧ (w (ix1 j)).toInt < 100000) : inRange w (ix1 j) = 1#1 := by
  unfold inRange
  refine reduce_andi_one _ _ _ _ _ rfl ?_
  intro i hi
  have hv : ((reducesTo_S100000x1_S100000_d1.drop i) 0 : ℕ) = i 0 := Shape.ReducesTo.drop_apply_val reducesTo_S100000x1_S100000_d1 i 0
  rw [hi] at hv
  have hi0 : i = ix2 j (0 : Fin 1) := by
    rw [eq_ix2 i]
    congr 1
    · exact Fin.ext hv.symm
    · exact Fin.ext (by have := idx2_lt1 i; show (i 1).val = 0; omega)
  subst hi0
  show IntOp.andi (IntOp.cmpi .sge (wrapCol w (ix2 j 0)) 0#32) (IntOp.cmpi .sle (wrapCol w (ix2 j 0)) 99999#32) = 1#1
  rw [wrapCol_at, wrapW_of_nonneg _ _ h.1]
  obtain ⟨h1, h2⟩ := word_small (N := 100000) (by norm_num) h
  rw [(StableHlo.Predicate.sge_iff_toNat h2 (by decide)).mpr (Nat.zero_le _),
    (StableHlo.Predicate.sle_iff_toNat h2 (by decide)).mpr (by show (w (ix1 j)).toNat ≤ 99999; omega)]
  decide

/-- The read of the rows of a matrix: the test laid out along the rows. -/
theorem take2_at (tbl fill : S100000x128.Idx → EReal) (w : S100000.Idx → BitVec 32) (j : Fin 100000) (k : Fin 128)
    (h : 0 ≤ (w (ix1 j)).toInt ∧ (w (ix1 j)).toInt < 100000) :
    select (broadcastInDim S100000x128 ![0] bcast_S100000_S100000x128_0 (inRange w))
        (Host.gather gather_S100000x128_S100000x1_S100000x128_1_0_n_n_0_1_1128 tbl (wrapCol w)) fill (ix2 j k)
      = tbl (ix2 (Gcn.rowV 100000 (by decide) 100000#32 (w (ix1 j))) k) := by
  rw [select_apply]
  have hm : broadcastInDim S100000x128 ![0] bcast_S100000_S100000x128_0 (inRange w) (ix2 j k) = 1#1 :=
    (broadcastInDim_apply _ _ _ (ix2 j k) (ix1 j) (fun a => match a with | ⟨0, _⟩ => rfl)).trans (inRange_at w j h)
  rw [hm, select_one]
  refine (Gcn.Rows.gather_rows gather_S100000x128_S100000x1_S100000x128_1_0_n_n_0_1_1128 rfl rfl rfl rfl rfl rfl tbl (wrapCol w) j k (by decide)).trans ?_
  refine congrArg (fun r => tbl (ix2 r k)) (Fin.ext ?_)
  show min (wrapCol w (ix2 j (0 : Fin 1))).toInt.toNat (100000 - 1) = _
  rw [wrapCol_at]
  rfl

/-! ### The stretches, each read over any contents it starts from -/

section Stretches
variable (V : Valuation τ sig (Elt Ideal))

/-- The last stretch multiplies the aggregate by the destination rows' scale. -/
theorem stretch9_x (x27 : S10000x128.Idx → EReal) (x31 : S10000.Idx → EReal)
    (h27 : V (Proc.devRef .tc main_v27) = x27) (h31 : V (Proc.devRef .tc main_v31) = x31) (r : Fin 10000) (k : Fin 128) :
    StableHlo.after hostOps1_9 V (Proc.devRef .tc main_v35) (ix2 r k) = x27 (ix2 r k) * Ideal.rsqrt (x31 (ix1 r)) := by
  after_results
  subst h27 h31
  rw [mulf_apply]
  congr 1
  refine (broadcastInDim_apply _ _ _ (ix2 r k) (ix2 r (0 : Fin 1)) (fun a => match a with | ⟨0, _⟩ => rfl | ⟨1, _⟩ => rfl)).trans ?_
  refine (Host0.col_apply bcast_S10000_S10000x1_0 _ r).trans ?_
  rfl

/-- The stretch that clamps the destination counts leaves the aggregate alone. -/
theorem stretch8_keeps :
    StableHlo.after hostOps1_8 V (Proc.devRef .tc main_v27) = V (Proc.devRef .tc main_v27) := by
  after_results_simp

/-- The stretch that scales the gathered rows by their source rows' scale and sums them per destination row. -/
theorem stretch7_agg (dst : S100000.Idx → BitVec 32) (x20 : S100000x128.Idx → EReal) (x21 : S100000.Idx → EReal)
    (h4 : V (Proc.devRef .tc main_arg4) = dst) (h20 : V (Proc.devRef .tc main_v20) = x20)
    (h21 : V (Proc.devRef .tc main_v21) = x21) (r : Fin 10000) (k : Fin 128) :
    StableHlo.after hostOps1_7 V (Proc.devRef .tc main_v27) (ix2 r k)
      = Gcn.segsum dst (fun e => x20 (ix2 e k) * x21 (ix1 e)) r.val := by
  after_results
  subst h4 h20 h21
  refine (Host0.scatter_zero_rows scatter_S10000x128_S100000x1_S100000x128_1_0_0_1 rfl rfl rfl rfl
    bcast_S_S10000x128 bcast_S100000_S100000x1_0 _ _ r k).trans ?_
  refine congrArg (fun u => Gcn.segsum _ u r.val) (funext fun e => ?_)
  rw [mulf_apply]
  congr 1
  refine (broadcastInDim_apply _ _ _ (ix2 e k) (ix2 e (0 : Fin 1)) (fun a => match a with | ⟨0, _⟩ => rfl | ⟨1, _⟩ => rfl)).trans ?_
  exact Host0.col_apply bcast_S100000_S100000x1_0 _ e

/-- The stretch that gathers the source rows' scales leaves the gathered rows alone. -/
theorem stretch6_keeps :
    StableHlo.after hostOps1_6 V (Proc.devRef .tc main_v20) = V (Proc.devRef .tc main_v20) := by
  after_results_simp

/-- The stretch that gathers the first layer's rows through the composed index words. -/
theorem stretch5_rows (tbl : S100000x128.Idx → EReal) (w : S100000.Idx → BitVec 32)
    (h11 : V (Proc.devRef .tc main_v11) = tbl) (h13 : V (Proc.devRef .tc main_v13) = w) (e : Fin 100000) (k : Fin 128)
    (h : 0 ≤ (w (ix1 e)).toInt ∧ (w (ix1 e)).toInt < 100000) :
    StableHlo.after hostOps1_5 V (Proc.devRef .tc main_v20) (ix2 e k)
      = tbl (ix2 (Gcn.rowV 100000 (by decide) 100000#32 (w (ix1 e))) k) := by
  after_results_simp
  simp only [StableHlo.TRef.ofBuf, StableHlo.TRef.toBuf, cast_eq]
  subst h11 h13
  exact take2_at _ _ _ e k h

/-- The last stretch lays the bias out as one row. -/
theorem stretch9_b (b : S128.Idx → EReal)
    (h12 : V (Proc.devRef .tc main_arg12) = b) (q : Fin 128) :
    StableHlo.after hostOps1_9 V (Proc.devRef .tc main_v36) (ix2 (0 : Fin 1) q) = b (ix1 q) := by
  after_results
  subst h12
  exact Host0.row_apply shapeCasts_S128_S1x128 _ q

end Stretches

end Host1

/-! ### Buffers that the stretches in between leave alone -/

/-- The first region's output is not written between that region's exit and the stretch that gathers its rows. -/
theorem Host1.v11_kept (c : Dev nD) :
    W7 m ρ c (Proc.devRef .tc main_v11) = W2 m ρ c (Proc.devRef .tc main_v11) := by
  dsimp only [W7, W6, W5, W4, W3]
  after_results_simp

/-- The composed index words are not written between the stretch that computes them and the gather. -/
theorem Host1.v13_kept (c : Dev nD) :
    W7 m ρ c (Proc.devRef .tc main_v13) = W4 m ρ c (Proc.devRef .tc main_v13) := by
  dsimp only [W7, W6, W5]
  after_results_simp

/-- The destination table is an argument: no stretch writes it. -/
theorem Host1.dst1_kept (c : Dev nD) :
    W9 m ρ c (Proc.devRef .tc main_arg4) = (inOf m c).dst1 := by
  dsimp only [W9, W8, W7, W6, W5, W4, W3]
  after_results_simp
  rw [W2_of_ne m ρ c main_arg4 (by decide)]
  after_results_simp
  rfl

/-! ### The second region's three inputs -/

theorem host1_x (c : Dev nD) (hg : (inOf m c).Good) (r : Fin 10000) (k : Fin 128) :
    V12 m ρ c (Pipeline.arrRef spec1 0) (ix2 r k)
      = Gcn.aggS (fun (a : Fin 100000) (b : Fin 128) => W2 m ρ c (Proc.devRef .tc main_v11) (ix2 a b))
          (Gcn.p1 (inOf m c)) (Gcn.sc1 (inOf m c)) (inOf m c).dst1 (Gcn.ds1 (inOf m c)) r k := by
  show StableHlo.after hostOps1_9 (W11 m ρ c) (Proc.devRef .tc main_v35) (ix2 r k) = _
  refine (Host1.stretch9_x (W11 m ρ c) _ _ rfl rfl r k).trans ?_
  unfold Gcn.aggS
  refine congrArg₂ (fun (x y : EReal) => x * y) ?_ ?_
  · -- the aggregate
    rw [show W11 m ρ c (Proc.devRef .tc main_v27) = W10 m ρ c (Proc.devRef .tc main_v27) from Host1.stretch8_keeps _]
    refine (Host1.stretch7_agg (W9 m ρ c) _ _ _ (Host1.dst1_kept m ρ c) rfl rfl r k).trans ?_
    refine congrArg (fun u => Gcn.segsum _ u r.val) (funext fun e => ?_)
    refine congrArg₂ (fun (x y : EReal) => x * y) ?_ (sc1_val m ρ c hg e)
    -- the gathered row of edge e
    rw [show W9 m ρ c (Proc.devRef .tc main_v20) = W8 m ρ c (Proc.devRef .tc main_v20) from Host1.stretch6_keeps _]
    have hw := src1p_val m ρ c hg e
    refine (Host1.stretch5_rows (W7 m ρ c) _ _ (Host1.v11_kept m ρ c) (Host1.v13_kept m ρ c) e k ?_).trans ?_
    · rw [hw]; exact hg.inv _
    · rw [hw]; rfl
  · -- the destination row's scale
    rw [ds1_val]; rfl

theorem host1_w (c : Dev nD) (k : Fin 128) (c' : Fin 128) :
    V12 m ρ c (Pipeline.arrRef spec1 1) (ix2 k c') = (inOf m c).W1 (ix2 k c') := by
  show W12 m ρ c (Proc.devRef .tc main_arg11) (ix2 k c') = _
  refine congrFun ?_ (ix2 k c')
  dsimp only [W12, W11, W10, W9, W8, W7, W6, W5, W4, W3]
  after_results_simp
  rw [W2_of_ne m ρ c main_arg11 (by decide)]
  after_results_simp
  rfl

theorem host1_b (c : Dev nD) (c' : Fin 128) :
    V12 m ρ c (Pipeline.arrRef spec1 2) (ix2 (0 : Fin 1) c') = (inOf m c).b1 (ix1 c') := by
  show StableHlo.after hostOps1_9 (W11 m ρ c) (Proc.devRef .tc main_v36) (ix2 (0 : Fin 1) c') = _
  have h12 : W11 m ρ c (Proc.devRef .tc main_arg12) = (inOf m c).b1 := by
    dsimp only [W11, W10, W9, W8, W7, W6, W5, W4, W3]
    after_results_simp
    rw [W2_of_ne m ρ c main_arg12 (by decide)]
    after_results_simp
    rfl
  refine (Host1.stretch9_b (W11 m ρ c) _ h12 c').trans rfl

end Cert.KernelIdeal.KVal

end
-- ==== Proof.KValue.lean ====
/-
  The kernel program's three layers, composed: what each region leaves in its output array is the aggregate-first
  formula of the layer, over what the region before it left.
-/
import proofs.«415471_j1468878815350_3_alg».proof.Proof.KRegion0
import proofs.«415471_j1468878815350_3_alg».proof.Proof.KRegion1
import proofs.«415471_j1468878815350_3_alg».proof.Proof.KRegion2
import proofs.«415471_j1468878815350_3_alg».proof.Proof.KHost0
import proofs.«415471_j1468878815350_3_alg».proof.Proof.KHost1
import proofs.«415471_j1468878815350_3_alg».proof.Proof.KHost2

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- After the first region its output array holds the first layer, aggregate first. -/
theorem layer0 (c : Dev nD) (j : Fin 100000) (k : Fin 128) :
    W2 m ρ c (Proc.devRef .tc main_v11) (ix2 j k) = Gcn.H0K (inOf m c) j k := by
  show W2 m ρ c (Proc.devRef .tc (Pipeline.arrRef spec0 3)) (ix2 j k) = _
  rw [W2_arr m ρ c 3, region0_val (V1 m ρ) c j k]
  simp only [host0_x m ρ c, host0_w m ρ c, host0_b m ρ c]
  rfl

/-- After the second region its output array holds the second layer over the first. -/
theorem layer1 (c : Dev nD) (hg : (inOf m c).Good) (j : Fin 10000) (k : Fin 128) :
    W13 m ρ c (Proc.devRef .tc main_v37) (ix2 j k) = Gcn.H1K (inOf m c) j k := by
  show W13 m ρ c (Proc.devRef .tc (Pipeline.arrRef spec1 3)) (ix2 j k) = _
  rw [W13_arr m ρ c 3, region1_val (V12 m ρ) c j k]
  simp only [host1_x m ρ c hg, host1_w m ρ c, host1_b m ρ c, layer0 m ρ c]
  rfl

/-- After the third region the result buffer holds the third layer over the second. -/
theorem layer2 (c : Dev nD) (hg : (inOf m c).Good) (r : Fin 1024) (q : Fin 47) :
    W22 m ρ c (Proc.devRef .tc main_v61) (ix2 r q) = Gcn.outK (inOf m c) r q := by
  show W22 m ρ c (Proc.devRef .tc (Pipeline.arrRef spec2 3)) (ix2 r q) = _
  rw [W22_arr m ρ c 3, region2_val (V21 m ρ) c r q]
  simp only [host2_x m ρ c hg, host2_w m ρ c, host2_b m ρ c, layer1 m ρ c hg]
  rfl

end Cert.KernelIdeal.KVal

end
-- ==== Proof.RLayer0.lean ====
/-
  The reference's first layer before its relu and re-indexing: the features times the first weight matrix, the rows
  gathered along the first edge table and summed per destination row, plus the bias.
-/
import proofs.«415471_j1468878815350_3_alg».proof.Proof.Gen.ReferenceIdeal.Read
import proofs.«415471_j1468878815350_3_alg».proof.Proof.Spec
import proofs.«415471_j1468878815350_3_alg».proof.Proof.LibRows
import Idealize.ShloMosaic.Lib.StableHlo.Predicate

set_option maxRecDepth 16384
set_option Elab.async false

noncomputable section

namespace Cert.ReferenceIdeal.RVal

open Idealize.ShloMosaic Idealize.ShloMosaic.TcCoe Idealize.ShloMosaic.ValueIdx Idealize.SL.Sem
open Cert.ReferenceIdeal Cert.ReferenceIdeal.Gen Cert.ReferenceIdeal.Read

variable (a : Gcn.In)

namespace L0

/-! The index maps of the layout operations, at indices given by their coordinates. -/

theorem idx7 (e : Fin 1000000) : idx_main_v7 (ix2 e (0 : Fin 1)) = ix1 e :=
  funext fun d => Fin.ext (by match d with | ⟨0, _⟩ => rfl)
theorem idx10 (e : Fin 1000000) : idx_main_v10 (ix2 e (0 : Fin 1)) = ix1 e :=
  funext fun d => Fin.ext (by match d with | ⟨0, _⟩ => rfl)
theorem idx12 (k : Fin 128) : idx_main_v12 (ix2 (0 : Fin 1) k) = ix1 k :=
  funext fun d => Fin.ext (by match d with | ⟨0, _⟩ => rfl)
theorem idx13 (j : Fin 100000) (k : Fin 128) : idx_main_v13 (ix2 j k) = ix2 (0 : Fin 1) k :=
  funext fun d => Fin.ext (by match d with | ⟨0, _⟩ => rfl | ⟨1, _⟩ => rfl)
theorem lidx1 (r : Fin 500000) (q : Fin 128) (k : Fin 128) : lidx_main_v1 (ix2 r q) k = ix2 r k :=
  funext fun d => Fin.ext (by match d with | ⟨0, _⟩ => rfl | ⟨1, _⟩ => rfl)
theorem ridx1 (r : Fin 500000) (q : Fin 128) (k : Fin 128) : ridx_main_v1 (ix2 r q) k = ix2 k q :=
  funext fun d => Fin.ext (by match d with | ⟨0, _⟩ => rfl | ⟨1, _⟩ => rfl)

/-- The source word of an edge after the wrap of negatives: a negative word is shifted up by the table's row count. -/
theorem wrap_at (x1 : Gcn.Words 1000000) (e : Fin 1000000) :
    val_main_v6 (F := Ideal) x1 (ix1 e) = Gcn.wrapW 500000#32 (x1 (ix1 e)) := by
  rw [val_main_v6_apply, val_main_v3_apply, val_main_v5_apply, val_main_v2_apply, val_main_v4_apply,
    val_main_c_apply, val_main_c_0_apply]
  rfl

/-- The row gather along the wrapped source words reads the table at the row the word selects. -/
theorem gather_at (T : (⟨2, ![500000, 128]⟩ : Shape).Idx → EReal) (x1 : Gcn.Words 1000000) (e : Fin 1000000) (q : Fin 128) :
    Host.gather gather_S500000x128_S1000000x1_S1000000x128_1_0_n_n_0_1_1128 T (val_main_v7 (F := Ideal) x1) (ix2 e q)
      = T (ix2 (Gcn.rowV 500000 (by decide) 500000#32 (x1 (ix1 e))) q) := by
  refine (Gcn.Rows.gather_rows (N := 500000) (E := 1000000) (C := 128)
    gather_S500000x128_S1000000x1_S1000000x128_1_0_n_n_0_1_1128 rfl rfl rfl rfl rfl rfl
    T (val_main_v7 (F := Ideal) x1) e q (by decide)).trans
    (congrArg (fun i : Fin 500000 => T (ix2 i q)) (Fin.ext ?_))
  show min ((val_main_v7 (F := Ideal) x1 (ix2 e (0 : Fin 1))).toInt.toNat) (500000 - 1)
    = min ((Gcn.wrapW 500000#32 (x1 (ix1 e))).toInt.toNat) (500000 - 1)
  rw [val_main_v7_apply, idx7, wrap_at]

/-- The segment sum of update rows into zeros, along the destination words. -/
theorem scatter_at (U : (⟨2, ![1000000, 128]⟩ : Shape).Idx → EReal) (x2 : Gcn.Words 1000000) (j : Fin 100000) (k : Fin 128) :
    Ideal.hostScatterAdd scatter_S100000x128_S1000000x1_S1000000x128_1_0_0_1 (val_main_v9 (F := Ideal))
        (val_main_v10 (F := Ideal) x2) U (ix2 j k)
      = Gcn.segsum x2 (fun e => U (ix2 e k)) j.val := by
  rw [Gcn.Rows.scatterAdd_rows (R := 100000) (E := 1000000) (C := 128)
    scatter_S100000x128_S1000000x1_S1000000x128_1_0_0_1 rfl rfl rfl rfl,
    val_main_v9_apply, val_main_cst_1_apply, Ideal.ofBits_def, Ideal.ofBits_zero_f32, zero_add]
  unfold Gcn.segsum
  refine Finset.sum_congr rfl (fun e _ => ?_)
  rw [val_main_v10_apply, idx10]

/-- On the extended reals the accumulating scatter of the host is the exact one. -/
theorem scatterAdd_exact {s si su : Shape} {w : ℕ} (d : ScatterDims s si su) (x : s.Idx → EReal) (idx : IVec si w)
    (upd : su.Idx → EReal) :
    Host.scatterAdd (F := Ideal) (φ := .f32) d x idx upd = Ideal.hostScatterAdd d x idx upd := rfl

/-- The bias spread over the rows. -/
theorem bias_at (x10 : Gcn.Vect 128) (j : Fin 100000) (k : Fin 128) :
    val_main_v13 (F := Ideal) x10 (ix2 j k) = x10 (ix1 k) := by
  rw [val_main_v13_apply, idx13, val_main_v12_apply, idx12]

/-- The features times the first weight matrix, read at a row and a column. -/
theorem v1_at (r : Fin 500000) (q : Fin 128) :
    val_main_v1 (F := Ideal) a.X a.W0 (ix2 r q) = ∑ k : Fin 128, a.X (ix2 r k) * a.W0 (ix2 k q) := by
  rw [val_main_v1_apply]
  refine Finset.sum_congr rfl (fun k _ => ?_)
  rw [lidx1, ridx1]

/-- The products gathered along the edges. -/
theorem v8_at (e : Fin 1000000) (q : Fin 128) :
    val_main_v8 (F := Ideal) a.X a.src0 a.W0 (ix2 e q)
      = val_main_v1 (F := Ideal) a.X a.W0 (ix2 (Gcn.g0 a e) q) := by
  unfold val_main_v8
  exact gather_at _ a.src0 e q

/-- The gathered products summed per destination row. -/
theorem v11_at (j : Fin 100000) (k : Fin 128) :
    val_main_v11 (F := Ideal) a.X a.src0 a.dst0 a.W0 (ix2 j k)
      = Gcn.segsum a.dst0 (fun e => val_main_v8 (F := Ideal) a.X a.src0 a.W0 (ix2 e k)) j.val := by
  unfold val_main_v11
  exact (congrFun (scatterAdd_exact scatter_S100000x128_S1000000x1_S1000000x128_1_0_0_1 (val_main_v9 (F := Ideal))
    (val_main_v10 (F := Ideal) a.dst0) (val_main_v8 (F := Ideal) a.X a.src0 a.W0)) (ix2 j k)).trans
    (scatter_at (val_main_v8 (F := Ideal) a.X a.src0 a.W0) a.dst0 j k)

end L0

theorem layer0 (j : Fin 100000) (k : Fin 128) :
    val_main_v14 (F := Ideal) a.X a.src0 a.dst0 a.W0 a.b0 (ix2 j k)
      = Gcn.pre0R (Gcn.cX a) (Gcn.g0 a) a.dst0 (Gcn.cW0 a) (Gcn.cb0 a) j k := by
  have h : (fun e : Fin 1000000 => val_main_v8 (F := Ideal) a.X a.src0 a.W0 (ix2 e k))
      = fun e => ∑ k' : Fin 128, Gcn.cX a (Gcn.g0 a e) k' * Gcn.cW0 a k' k := by
    funext e
    rw [L0.v8_at, L0.v1_at]
    rfl
  rw [val_main_v14_apply, L0.v11_at, L0.bias_at, h]
  rfl

end Cert.ReferenceIdeal.RVal

end
-- ==== Proof.RLayer1.lean ====
/-
  The reference's second layer over its first: the first layer's rows re-indexed twice and clipped at zero, scaled by the
  source degree scales, times the second weight matrix, gathered along the second edge table, summed per destination
  row, scaled by the destination degree scales, plus the bias, clipped at zero.
-/
import proofs.«415471_j1468878815350_3_alg».proof.Proof.Gen.ReferenceIdeal.Read
import proofs.«415471_j1468878815350_3_alg».proof.Proof.Spec
import proofs.«415471_j1468878815350_3_alg».proof.Proof.LibRows
import Idealize.ShloMosaic.Lib.StableHlo.Predicate

set_option maxRecDepth 16384

noncomputable section

namespace Cert.ReferenceIdeal.RVal

open Idealize.ShloMosaic Idealize.ShloMosaic.TcCoe Idealize.ShloMosaic.ValueIdx Idealize.SL.Sem
open Cert.ReferenceIdeal Cert.ReferenceIdeal.Gen Cert.ReferenceIdeal.Read

variable (a : Gcn.In)

namespace L1

/-- The edge-table column read at (e, 0) is the table at e. -/
theorem idx32 (e : Fin 100000) : idx_main_v32 (ix2 e (0 : Fin 1)) = ix1 e :=
  funext fun d => Fin.ext (by match d with | ⟨0, _⟩ => rfl)

/-- The source scale at row j. -/
theorem srcScale (j : Fin 100000) :
    val_main_v35 (F := Ideal) a.src1 (ix1 j) = Gcn.scl a.src1 j.val := by
  rw [val_main_v35_apply, val_main_v34_apply, val_main_call1_v1_apply, val_main_call1_v0_apply, val_main_cst_8_apply]
  unfold val_main_v33
  simp only [Host.scatterAdd, Ideal.hostScatterAdd_def, Ideal.hostUnary_rsqrt_def, Ideal.maximumf_def]
  rw [Gcn.Rows.scatterAdd_vec scatter_S100000_S100000x1_S100000_n_0_0_1 rfl rfl rfl rfl
    (val_main_v31 (F := Ideal)) (val_main_v32 (F := Ideal) a.src1) (val_main_v30 (F := Ideal)) j]
  rw [val_main_v31_apply, val_main_cst_7_apply]
  simp only [val_main_v32_apply, idx32, val_main_v30_apply, val_main_cst_6_apply, Ideal.ofBits_def,
    Ideal.ofBits_zero_f32, zero_add]
  rfl

theorem idx51 (e : Fin 100000) : idx_main_v51 (ix2 e (0 : Fin 1)) = ix1 e :=
  funext fun d => Fin.ext (by match d with | ⟨0, _⟩ => rfl)

/-- The destination scale at row r. -/
theorem dstScale (r : Fin 10000) :
    val_main_v54 (F := Ideal) a.dst1 (ix1 r) = Gcn.scl a.dst1 r.val := by
  rw [val_main_v54_apply, val_main_v53_apply, val_main_call2_v1_apply, val_main_call2_v0_apply, val_main_cst_13_apply]
  unfold val_main_v52
  simp only [Host.scatterAdd, Ideal.hostScatterAdd_def, Ideal.hostUnary_rsqrt_def, Ideal.maximumf_def]
  rw [Gcn.Rows.scatterAdd_vec scatter_S10000_S100000x1_S100000_n_0_0_1 rfl rfl rfl rfl
    (val_main_v50 (F := Ideal)) (val_main_v51 (F := Ideal) a.dst1) (val_main_v30 (F := Ideal)) r]
  rw [val_main_v50_apply, val_main_cst_12_apply]
  simp only [val_main_v51_apply, idx51, val_main_v30_apply, val_main_cst_6_apply, Ideal.ofBits_def,
    Ideal.ofBits_zero_f32, zero_add]
  rfl

theorem idx20 (e : Fin 100000) : idx_main_v20 (ix2 e (0 : Fin 1)) = ix1 e :=
  funext fun d => Fin.ext (by match d with | ⟨0, _⟩ => rfl)
theorem idx27 (e : Fin 100000) : idx_main_v27 (ix2 e (0 : Fin 1)) = ix1 e :=
  funext fun d => Fin.ext (by match d with | ⟨0, _⟩ => rfl)

/-- The first re-indexing's start column at (i, 0): the wrapped word of the first table. -/
theorem wrap20 (i : Fin 100000) :
    val_main_v20 (F := Ideal) a.inv (ix2 i (0 : Fin 1)) = Gcn.wrapW 100000#32 (a.inv (ix1 i)) := by
  rw [val_main_v20_apply, idx20, val_main_v19_apply, val_main_v16_apply, val_main_v18_apply, val_main_v15_apply,
    val_main_v17_apply, val_main_c_2_apply, val_main_c_3_apply]
  rfl

/-- The second re-indexing's start column at (i, 0): the wrapped word of the second table. -/
theorem wrap27 (i : Fin 100000) :
    val_main_v27 (F := Ideal) a.shuf (ix2 i (0 : Fin 1)) = Gcn.wrapW 100000#32 (a.shuf (ix1 i)) := by
  rw [val_main_v27_apply, idx27, val_main_v26_apply, val_main_v23_apply, val_main_v25_apply, val_main_v22_apply,
    val_main_v24_apply, val_main_c_4_apply, val_main_c_5_apply]
  rfl

/-- The twice re-indexed first layer at (i, k'): the first layer at row perm i. -/
theorem gather28 (i : Fin 100000) (k' : Fin 128) :
    val_main_v28 (F := Ideal) a.X a.src0 a.dst0 a.inv a.shuf a.W0 a.b0 (ix2 i k')
      = val_main_v14 (F := Ideal) a.X a.src0 a.dst0 a.W0 a.b0 (ix2 (Gcn.perm a i) k') := by
  unfold val_main_v28
  rw [Gcn.Rows.gather_rows gather_S100000x128_S100000x1_S100000x128_1_0_n_n_0_1_1128 rfl rfl rfl rfl rfl rfl
    _ _ i k' (by decide)]
  unfold val_main_v21
  rw [Gcn.Rows.gather_rows gather_S100000x128_S100000x1_S100000x128_1_0_n_n_0_1_1128 rfl rfl rfl rfl rfl rfl
    _ _ _ k' (by decide)]
  refine congrArg (fun r : Fin 100000 => val_main_v14 (F := Ideal) a.X a.src0 a.dst0 a.W0 a.b0 (ix2 r k'))
    (Fin.ext ?_)
  simp only [wrap20, wrap27]
  rfl

theorem idx37 (i : Fin 100000) (k' : Fin 128) : idx_main_v37 (ix2 i k') = ix2 i (0 : Fin 1) :=
  funext fun d => Fin.ext (by match d with | ⟨0, _⟩ => rfl | ⟨1, _⟩ => rfl)
theorem idx36 (i : Fin 100000) : idx_main_v36 (ix2 i (0 : Fin 1)) = ix1 i :=
  funext fun d => Fin.ext (by match d with | ⟨0, _⟩ => rfl)

/-- The scaled, clipped, re-indexed first layer at (i, k'). -/
theorem stage38 (i : Fin 100000) (k' : Fin 128) :
    val_main_v38 (F := Ideal) a.X a.src0 a.dst0 a.src1 a.inv a.shuf a.W0 a.b0 (ix2 i k')
      = Gcn.relu (val_main_v14 (F := Ideal) a.X a.src0 a.dst0 a.W0 a.b0 (ix2 (Gcn.perm a i) k'))
          * Gcn.scl a.src1 i.val := by
  rw [val_main_v38_apply, val_main_v29_apply, gather28, val_main_call0_v0_apply, val_main_call0_cst_apply,
    val_main_v37_apply, idx37, val_main_v36_apply, idx36, srcScale]
  simp only [Ideal.mulf_def, Ideal.maximumf_def, Ideal.ofBits_def, Ideal.ofBits_zero_f32]
  rfl

theorem lidx39 (e : Fin 100000) (c k' : Fin 128) : lidx_main_v39 (ix2 e c) k' = ix2 e k' :=
  funext fun d => Fin.ext (by match d with | ⟨0, _⟩ => rfl | ⟨1, _⟩ => rfl)
theorem ridx39 (e : Fin 100000) (c k' : Fin 128) : ridx_main_v39 (ix2 e c) k' = ix2 k' c :=
  funext fun d => Fin.ext (by match d with | ⟨0, _⟩ => rfl | ⟨1, _⟩ => rfl)

/-- The product with the second weight matrix at (e, c). -/
theorem stage39 (e : Fin 100000) (c : Fin 128) :
    val_main_v39 (F := Ideal) a.X a.src0 a.dst0 a.src1 a.inv a.shuf a.W0 a.b0 a.W1 (ix2 e c)
      = ∑ k' : Fin 128,
          (Gcn.relu (val_main_v14 (F := Ideal) a.X a.src0 a.dst0 a.W0 a.b0 (ix2 (Gcn.perm a e) k'))
            * Gcn.scl a.src1 e.val) * a.W1 (ix2 k' c) := by
  rw [val_main_v39_apply]
  refine Finset.sum_congr rfl fun k' _ => ?_
  rw [lidx39, ridx39, stage38]

theorem idx45 (e : Fin 100000) : idx_main_v45 (ix2 e (0 : Fin 1)) = ix1 e :=
  funext fun d => Fin.ext (by match d with | ⟨0, _⟩ => rfl)

/-- The edge gather's start column at (e, 0): the wrapped source word. -/
theorem wrap45 (e : Fin 100000) :
    val_main_v45 (F := Ideal) a.src1 (ix2 e (0 : Fin 1)) = Gcn.wrapW 100000#32 (a.src1 (ix1 e)) := by
  rw [val_main_v45_apply, idx45, val_main_v44_apply, val_main_v41_apply, val_main_v43_apply, val_main_v40_apply,
    val_main_v42_apply, val_main_c_9_apply, val_main_c_10_apply]
  rfl

/-- The gathered products at (e, c): the product at the edge's source row. -/
theorem stage46 (e : Fin 100000) (c : Fin 128) :
    val_main_v46 (F := Ideal) a.X a.src0 a.dst0 a.src1 a.inv a.shuf a.W0 a.b0 a.W1 (ix2 e c)
      = val_main_v39 (F := Ideal) a.X a.src0 a.dst0 a.src1 a.inv a.shuf a.W0 a.b0 a.W1 (ix2 (Gcn.g1 a e) c) := by
  unfold val_main_v46
  rw [Gcn.Rows.gather_rows gather_S100000x128_S100000x1_S100000x128_1_0_n_n_0_1_1128 rfl rfl rfl rfl rfl rfl
    _ _ e c (by decide)]
  refine congrArg (fun r : Fin 100000 =>
    val_main_v39 (F := Ideal) a.X a.src0 a.dst0 a.src1 a.inv a.shuf a.W0 a.b0 a.W1 (ix2 r c)) (Fin.ext ?_)
  simp only [wrap45]
  rfl

theorem idx48 (e : Fin 100000) : idx_main_v48 (ix2 e (0 : Fin 1)) = ix1 e :=
  funext fun d => Fin.ext (by match d with | ⟨0, _⟩ => rfl)

/-- The per-destination sums at (r, c). -/
theorem stage49 (r : Fin 10000) (c : Fin 128) :
    val_main_v49 (F := Ideal) a.X a.src0 a.dst0 a.src1 a.dst1 a.inv a.shuf a.W0 a.b0 a.W1 (ix2 r c)
      = Gcn.segsum a.dst1 (fun e =>
          val_main_v46 (F := Ideal) a.X a.src0 a.dst0 a.src1 a.inv a.shuf a.W0 a.b0 a.W1 (ix2 e c)) r.val := by
  unfold val_main_v49
  simp only [Host.scatterAdd, Ideal.hostScatterAdd_def]
  rw [Gcn.Rows.scatterAdd_rows scatter_S10000x128_S100000x1_S100000x128_1_0_0_1 rfl rfl rfl rfl _ _ _ r c]
  rw [val_main_v47_apply, val_main_cst_11_apply]
  simp only [val_main_v48_apply, idx48, Ideal.ofBits_def, Ideal.ofBits_zero_f32, zero_add]
  rfl

theorem idx56 (r : Fin 10000) (c : Fin 128) : idx_main_v56 (ix2 r c) = ix2 r (0 : Fin 1) :=
  funext fun d => Fin.ext (by match d with | ⟨0, _⟩ => rfl | ⟨1, _⟩ => rfl)
theorem idx55 (r : Fin 10000) : idx_main_v55 (ix2 r (0 : Fin 1)) = ix1 r :=
  funext fun d => Fin.ext (by match d with | ⟨0, _⟩ => rfl)
theorem idx59 (r : Fin 10000) (c : Fin 128) : idx_main_v59 (ix2 r c) = ix2 (0 : Fin 1) c :=
  funext fun d => Fin.ext (by match d with | ⟨0, _⟩ => rfl | ⟨1, _⟩ => rfl)
theorem idx58 (c : Fin 128) : idx_main_v58 (ix2 (0 : Fin 1) c) = ix1 c :=
  funext fun d => Fin.ext (by match d with | ⟨0, _⟩ => rfl)

end L1

theorem layer1 (j : Fin 10000) (k : Fin 128) :
    val_main_v61 (F := Ideal) a.X a.src0 a.dst0 a.src1 a.dst1 a.inv a.shuf a.W0 a.b0 a.W1 a.b1 (ix2 j k)
      = Gcn.relu (Gcn.layerR
          (fun (i : Fin 100000) (k' : Fin 128) => Gcn.relu (val_main_v14 (F := Ideal) a.X a.src0 a.dst0 a.W0 a.b0 (ix2 i k')))
          (Gcn.p1 a) (Gcn.sc1 a) a.dst1 (Gcn.ds1 a) (Gcn.cW1 a) (Gcn.cb1 a) j k) := by
  rw [val_main_v61_apply, val_main_v60_apply, val_main_v57_apply, L1.stage49, val_main_v56_apply, L1.idx56,
    val_main_v55_apply, L1.idx55, L1.dstScale, val_main_v59_apply, L1.idx59, val_main_v58_apply, L1.idx58,
    val_main_call3_v0_apply, val_main_call3_cst_apply]
  simp only [L1.stage46, L1.stage39, Ideal.addf_def, Ideal.mulf_def, Ideal.maximumf_def, Ideal.ofBits_def,
    Ideal.ofBits_zero_f32]
  rfl

end Cert.ReferenceIdeal.RVal

end
-- ==== Proof.RLayer2.lean ====
/-
  The reference's third layer over its second: the second layer's rows scaled by the source degree scales, times the last
  weight matrix, gathered along the last edge table, summed per destination row, scaled by the destination degree
  scales, plus the bias.
-/
import proofs.«415471_j1468878815350_3_alg».proof.Proof.Gen.ReferenceIdeal.Read
import proofs.«415471_j1468878815350_3_alg».proof.Proof.Spec
import proofs.«415471_j1468878815350_3_alg».proof.Proof.LibRows
import Idealize.ShloMosaic.Lib.StableHlo.Predicate

set_option maxRecDepth 16384

noncomputable section

namespace Cert.ReferenceIdeal.RVal

open Idealize.ShloMosaic Idealize.ShloMosaic.TcCoe Idealize.ShloMosaic.ValueIdx Idealize.SL.Sem
open Cert.ReferenceIdeal Cert.ReferenceIdeal.Gen Cert.ReferenceIdeal.Read

variable (a : Gcn.In)

namespace L2

/-! The index maps of the layout operations, at indices given by their coordinates. -/

theorem idx64 (e : Fin 10240) : idx_main_v64 (ix2 e (0 : Fin 1)) = ix1 e :=
  funext fun d => Fin.ext (by match d with | ⟨0, _⟩ => rfl)
theorem idx77 (e : Fin 10240) : idx_main_v77 (ix2 e (0 : Fin 1)) = ix1 e :=
  funext fun d => Fin.ext (by match d with | ⟨0, _⟩ => rfl)
theorem idx80 (e : Fin 10240) : idx_main_v80 (ix2 e (0 : Fin 1)) = ix1 e :=
  funext fun d => Fin.ext (by match d with | ⟨0, _⟩ => rfl)
theorem idx83 (e : Fin 10240) : idx_main_v83 (ix2 e (0 : Fin 1)) = ix1 e :=
  funext fun d => Fin.ext (by match d with | ⟨0, _⟩ => rfl)
theorem idx68 (j : Fin 10000) : idx_main_v68 (ix2 j (0 : Fin 1)) = ix1 j :=
  funext fun d => Fin.ext (by match d with | ⟨0, _⟩ => rfl)
theorem idx69 (j : Fin 10000) (k : Fin 128) : idx_main_v69 (ix2 j k) = ix2 j (0 : Fin 1) :=
  funext fun d => Fin.ext (by match d with | ⟨0, _⟩ => rfl | ⟨1, _⟩ => rfl)
theorem idx87 (r : Fin 1024) : idx_main_v87 (ix2 r (0 : Fin 1)) = ix1 r :=
  funext fun d => Fin.ext (by match d with | ⟨0, _⟩ => rfl)
theorem idx88 (r : Fin 1024) (q : Fin 47) : idx_main_v88 (ix2 r q) = ix2 r (0 : Fin 1) :=
  funext fun d => Fin.ext (by match d with | ⟨0, _⟩ => rfl | ⟨1, _⟩ => rfl)
theorem idx90 (q : Fin 47) : idx_main_v90 (ix2 (0 : Fin 1) q) = ix1 q :=
  funext fun d => Fin.ext (by match d with | ⟨0, _⟩ => rfl)
theorem idx91 (r : Fin 1024) (q : Fin 47) : idx_main_v91 (ix2 r q) = ix2 (0 : Fin 1) q :=
  funext fun d => Fin.ext (by match d with | ⟨0, _⟩ => rfl | ⟨1, _⟩ => rfl)
theorem lidx71 (j : Fin 10000) (q : Fin 47) (k : Fin 128) : lidx_main_v71 (ix2 j q) k = ix2 j k :=
  funext fun d => Fin.ext (by match d with | ⟨0, _⟩ => rfl | ⟨1, _⟩ => rfl)
theorem ridx71 (j : Fin 10000) (q : Fin 47) (k : Fin 128) : ridx_main_v71 (ix2 j q) k = ix2 k q :=
  funext fun d => Fin.ext (by match d with | ⟨0, _⟩ => rfl | ⟨1, _⟩ => rfl)

/-- The vector of ones that both edge counts add up is the constant one. -/
theorem ones_at (e : Fin 10240) : val_main_v62 (F := Ideal) (ix1 e) = Gcn.lit1 := by
  rw [val_main_v62_apply, val_main_cst_14_apply]
  rfl

/-- The count of the edges whose source word is row j. -/
theorem count_src (x5 : Gcn.Words 10240) (j : Fin 10000) :
    val_main_v65 (F := Ideal) x5 (ix1 j) = Gcn.segsum x5 (fun _ => Gcn.lit1) j.val := by
  show Ideal.hostScatterAdd scatter_S10000_S10240x1_S10240_n_0_0_1 (val_main_v63 (F := Ideal))
      (val_main_v64 (F := Ideal) x5) (val_main_v62 (F := Ideal)) (ix1 j) = _
  rw [Gcn.Rows.scatterAdd_vec scatter_S10000_S10240x1_S10240_n_0_0_1 rfl rfl rfl rfl,
    val_main_v63_apply, val_main_cst_15_apply, Ideal.ofBits_def, Ideal.ofBits_zero_f32, zero_add]
  unfold Gcn.segsum
  refine Finset.sum_congr rfl (fun e _ => ?_)
  rw [val_main_v64_apply, idx64, ones_at]

/-- The source degree scale of row j. -/
theorem scale_src (x5 : Gcn.Words 10240) (j : Fin 10000) :
    val_main_v67 (F := Ideal) x5 (ix1 j) = Gcn.scl x5 j.val := by
  rw [val_main_v67_apply, val_main_v66_apply, val_main_call4_v1_apply, val_main_call4_v0_apply,
    val_main_cst_16_apply, count_src]
  rfl

/-- The count of the edges whose destination word is row r. -/
theorem count_dst (x6 : Gcn.Words 10240) (r : Fin 1024) :
    val_main_v84 (F := Ideal) x6 (ix1 r) = Gcn.segsum x6 (fun _ => Gcn.lit1) r.val := by
  show Ideal.hostScatterAdd scatter_S1024_S10240x1_S10240_n_0_0_1 (val_main_v82 (F := Ideal))
      (val_main_v83 (F := Ideal) x6) (val_main_v62 (F := Ideal)) (ix1 r) = _
  rw [Gcn.Rows.scatterAdd_vec scatter_S1024_S10240x1_S10240_n_0_0_1 rfl rfl rfl rfl,
    val_main_v82_apply, val_main_cst_20_apply, Ideal.ofBits_def, Ideal.ofBits_zero_f32, zero_add]
  unfold Gcn.segsum
  refine Finset.sum_congr rfl (fun e _ => ?_)
  rw [val_main_v83_apply, idx83, ones_at]

/-- The destination degree scale of row r. -/
theorem scale_dst (x6 : Gcn.Words 10240) (r : Fin 1024) :
    val_main_v86 (F := Ideal) x6 (ix1 r) = Gcn.scl x6 r.val := by
  rw [val_main_v86_apply, val_main_v85_apply, val_main_call5_v1_apply, val_main_call5_v0_apply,
    val_main_cst_21_apply, count_dst]
  rfl

/-- The source scale spread along a row. -/
theorem scale_src_bcast (x5 : Gcn.Words 10240) (j : Fin 10000) (k : Fin 128) :
    val_main_v69 (F := Ideal) x5 (ix2 j k) = Gcn.scl x5 j.val := by
  rw [val_main_v69_apply, idx69, val_main_v68_apply, idx68, scale_src]

/-- The destination scale spread along a row. -/
theorem scale_dst_bcast (x6 : Gcn.Words 10240) (r : Fin 1024) (q : Fin 47) :
    val_main_v88 (F := Ideal) x6 (ix2 r q) = Gcn.scl x6 r.val := by
  rw [val_main_v88_apply, idx88, val_main_v87_apply, idx87, scale_dst]

/-- The bias spread over the rows. -/
theorem bias_at (x14 : Gcn.Vect 47) (r : Fin 1024) (q : Fin 47) :
    val_main_v91 (F := Ideal) x14 (ix2 r q) = x14 (ix1 q) := by
  rw [val_main_v91_apply, idx91, val_main_v90_apply, idx90]

/-- The source word of an edge, wrapped as jnp wraps a negative index. -/
theorem wrap_at (x5 : Gcn.Words 10240) (e : Fin 10240) :
    val_main_v76 (F := Ideal) x5 (ix1 e) = Gcn.wrapW 10000#32 (x5 (ix1 e)) := by
  rw [val_main_v76_apply, val_main_v73_apply, val_main_v72_apply, val_main_c_17_apply, val_main_v75_apply,
    val_main_v74_apply, val_main_c_18_apply]
  rfl

/-- The row gather along the wrapped source words reads the table at the row the word selects. -/
theorem gather_at (T : (⟨2, ![10000, 47]⟩ : Shape).Idx → EReal) (x5 : Gcn.Words 10240) (e : Fin 10240) (q : Fin 47) :
    Host.gather gather_S10000x47_S10240x1_S10240x47_1_0_n_n_0_1_147 T (val_main_v77 (F := Ideal) x5) (ix2 e q)
      = T (ix2 (Gcn.rowV 10000 (by decide) 10000#32 (x5 (ix1 e))) q) := by
  refine (Gcn.Rows.gather_rows gather_S10000x47_S10240x1_S10240x47_1_0_n_n_0_1_147 rfl rfl rfl rfl rfl rfl
    T (val_main_v77 (F := Ideal) x5) e q (by decide)).trans
    (congrArg (fun i : Fin 10000 => T (ix2 i q)) (Fin.ext ?_))
  show min ((val_main_v77 (F := Ideal) x5 (ix2 e (0 : Fin 1))).toInt.toNat) (10000 - 1)
    = min ((Gcn.wrapW 10000#32 (x5 (ix1 e))).toInt.toNat) (10000 - 1)
  rw [val_main_v77_apply, idx77, wrap_at]

/-- The segment sum of update rows into zeros, along the destination words. -/
theorem scatter_at (U : (⟨2, ![10240, 47]⟩ : Shape).Idx → EReal) (x6 : Gcn.Words 10240) (r : Fin 1024) (q : Fin 47) :
    Ideal.hostScatterAdd scatter_S1024x47_S10240x1_S10240x47_1_0_0_1 (val_main_v79 (F := Ideal))
        (val_main_v80 (F := Ideal) x6) U (ix2 r q)
      = Gcn.segsum x6 (fun e => U (ix2 e q)) r.val := by
  rw [Gcn.Rows.scatterAdd_rows scatter_S1024x47_S10240x1_S10240x47_1_0_0_1 rfl rfl rfl rfl,
    val_main_v79_apply, val_main_cst_19_apply, Ideal.ofBits_def, Ideal.ofBits_zero_f32, zero_add]
  unfold Gcn.segsum
  refine Finset.sum_congr rfl (fun e _ => ?_)
  rw [val_main_v80_apply, idx80]

/-- The second layer's rows times their source scales. -/
theorem v70_at (j : Fin 10000) (k : Fin 128) :
    val_main_v70 (F := Ideal) a.X a.src0 a.dst0 a.src1 a.dst1 a.src2 a.inv a.shuf a.W0 a.b0 a.W1 a.b1 (ix2 j k)
      = val_main_v61 (F := Ideal) a.X a.src0 a.dst0 a.src1 a.dst1 a.inv a.shuf a.W0 a.b0 a.W1 a.b1 (ix2 j k) * Gcn.scl a.src2 j.val := by
  rw [val_main_v70_apply, scale_src_bcast]
  rfl

/-- The scaled rows times the last weight matrix. -/
theorem v71_at (j : Fin 10000) (q : Fin 47) :
    val_main_v71 (F := Ideal) a.X a.src0 a.dst0 a.src1 a.dst1 a.src2 a.inv a.shuf a.W0 a.b0 a.W1 a.b1 a.W2 (ix2 j q)
      = ∑ k : Fin 128, (val_main_v61 (F := Ideal) a.X a.src0 a.dst0 a.src1 a.dst1 a.inv a.shuf a.W0 a.b0 a.W1 a.b1 (ix2 j k) * Gcn.scl a.src2 j.val) * a.W2 (ix2 k q) := by
  rw [val_main_v71_apply]
  refine Finset.sum_congr rfl (fun k _ => ?_)
  rw [lidx71, ridx71, v70_at]

/-- The products gathered along the edges. -/
theorem v78_at (e : Fin 10240) (q : Fin 47) :
    val_main_v78 (F := Ideal) a.X a.src0 a.dst0 a.src1 a.dst1 a.src2 a.inv a.shuf a.W0 a.b0 a.W1 a.b1 a.W2 (ix2 e q)
      = val_main_v71 (F := Ideal) a.X a.src0 a.dst0 a.src1 a.dst1 a.src2 a.inv a.shuf a.W0 a.b0 a.W1 a.b1 a.W2 (ix2 (Gcn.g2 a e) q) := by
  unfold val_main_v78
  exact gather_at _ a.src2 e q

/-- The gathered products summed per destination row. -/
theorem v81_at (r : Fin 1024) (q : Fin 47) :
    val_main_v81 (F := Ideal) a.X a.src0 a.dst0 a.src1 a.dst1 a.src2 a.dst2 a.inv a.shuf a.W0 a.b0 a.W1 a.b1 a.W2 (ix2 r q)
      = Gcn.segsum a.dst2 (fun e => val_main_v78 (F := Ideal) a.X a.src0 a.dst0 a.src1 a.dst1 a.src2 a.inv a.shuf a.W0 a.b0 a.W1 a.b1 a.W2 (ix2 e q)) r.val := by
  unfold val_main_v81
  exact scatter_at _ a.dst2 r q

end L2

theorem layer2 (r : Fin 1024) (q : Fin 47) :
    val_main_v92 (F := Ideal) a.X a.src0 a.dst0 a.src1 a.dst1 a.src2 a.dst2 a.inv a.shuf a.W0 a.b0 a.W1 a.b1 a.W2 a.b2 (ix2 r q)
      = Gcn.layerR
          (fun (i : Fin 10000) (k' : Fin 128) =>
            val_main_v61 (F := Ideal) a.X a.src0 a.dst0 a.src1 a.dst1 a.inv a.shuf a.W0 a.b0 a.W1 a.b1 (ix2 i k'))
          (Gcn.g2 a) (Gcn.sc2 a) a.dst2 (Gcn.ds2 a) (Gcn.cW2 a) (Gcn.cb2 a) r q := by
  have h : (fun e : Fin 10240 => val_main_v78 (F := Ideal) a.X a.src0 a.dst0 a.src1 a.dst1 a.src2 a.inv a.shuf a.W0 a.b0 a.W1 a.b1 a.W2 (ix2 e q))
      = fun e => ∑ k : Fin 128,
          (val_main_v61 (F := Ideal) a.X a.src0 a.dst0 a.src1 a.dst1 a.inv a.shuf a.W0 a.b0 a.W1 a.b1 (ix2 (Gcn.g2 a e) k) * Gcn.sc2 a e) * Gcn.cW2 a k q := by
    funext e
    rw [L2.v78_at, L2.v71_at]
    rfl
  rw [val_main_v92_apply, val_main_v89_apply, L2.v81_at, L2.scale_dst_bcast, L2.bias_at, h]
  rfl

end Cert.ReferenceIdeal.RVal

end
-- ==== Proof.RValue.lean ====
/-
  The reference program's three layers, composed: its result at an index is the multiply-first formula of the network.
-/
import proofs.«415471_j1468878815350_3_alg».proof.Proof.RLayer0
import proofs.«415471_j1468878815350_3_alg».proof.Proof.RLayer1
import proofs.«415471_j1468878815350_3_alg».proof.Proof.RLayer2

set_option maxRecDepth 16384

noncomputable section

namespace Cert.ReferenceIdeal.RVal

open Idealize.ShloMosaic Idealize.ShloMosaic.TcCoe Idealize.ShloMosaic.ValueIdx Idealize.SL.Sem
open Cert.ReferenceIdeal Cert.ReferenceIdeal.Gen Cert.ReferenceIdeal.Read

theorem out_val (a : Gcn.In) (r : Fin 1024) (q : Fin 47) :
    val_main_v92 (F := Ideal) a.X a.src0 a.dst0 a.src1 a.dst1 a.src2 a.dst2 a.inv a.shuf a.W0 a.b0 a.W1 a.b1 a.W2 a.b2 (ix2 r q)
      = Gcn.outR a r q := by
  rw [layer2 a r q]
  simp only [layer1 a, layer0 a]
  rfl

end Cert.ReferenceIdeal.RVal

end
-- ==== Proof.PreFacts.lean ====
/-
  What the precondition says of the inputs: every float input is a real number, and every word of the four index tables
  that are gathered through lies, read signed, inside its table.
-/
import proofs.«415471_j1468878815350_3_alg».proof.Defs
import proofs.«415471_j1468878815350_3_alg».proof.Proof.Gen.Pre_finite_inputs
import proofs.«415471_j1468878815350_3_alg».proof.Proof.Spec
import proofs.«415471_j1468878815350_3_alg».proof.Proof.KIn
import Idealize.ShloMosaic.Lib.ReduceAll
import Idealize.ShloMosaic.Lib.StableHlo.Predicate

noncomputable section

namespace Cert.Proof.PreFacts

open Idealize.ShloMosaic Idealize.ShloMosaic.TcCoe Idealize.ShloMosaic.ValueIdx Idealize.SL.Sem
open Cert.Pre_finite_inputs

/-- The scalar shape has one index. -/
local instance scalarIdxSubsingleton : Subsingleton S_.Idx := ⟨fun a b => funext fun d => d.elim0⟩

/-- The float word 0x7F800000 denotes +∞. -/
theorem inf_eq_top : Ideal.ofBits .f32 0x7F800000#32 = (⊤ : EReal) := by simp [Ideal.ofBits, Ideal.ieee]

/-- An extended real x with |x| = max x (−x) strictly below +∞ is neither +∞ nor −∞ (−(−∞) = +∞), so it is a real. -/
theorem real_of_abs_lt_inf (x : EReal)
    (h : Ideal.cmp .olt (max x (-x)) (Ideal.ofBits .f32 0x7F800000#32) = 1#1) : ∃ r : ℝ, x = (r : EReal) := by
  rw [inf_eq_top] at h
  have hlt : max x (-x) < ⊤ := of_decide_eq_true ((StableHlo.Predicate.ofBool_eq_one_iff _).1 h)
  induction x using EReal.rec with
  | bot => simp at hlt
  | coe r => exact ⟨r, rfl⟩
  | top => simp at hlt

/-- A word w with (w ≥ 0) ∧ (w < N), both compares signed and N below 2³¹, reads signed as an integer in [0, N). -/
theorem range_of_word (w : BitVec 32) (N : ℕ) (hN : N < 2 ^ 31)
    (h : IntOp.andi (IntOp.cmpi .sge w 0#32) (IntOp.cmpi .slt w (BitVec.ofNat 32 N)) = 1#1) :
    0 ≤ w.toInt ∧ w.toInt < (N : ℤ) := by
  obtain ⟨h0, h1⟩ := IntOp.andi_eq_one.1 h
  rw [IntOp.cmpi_sge, show (0#32 : BitVec 32).toInt = 0 from by decide] at h0
  rw [IntOp.cmpi_slt, StableHlo.Predicate.toInt_ofNat_small N hN] at h1
  exact ⟨h0, h1⟩

/-- The elementwise conjunction of two bit arrays, read at an index. -/
theorem andi_apply {s : Shape} {w : ℕ} (x y : IVec s w) (i : s.Idx) : andi x y i = IntOp.andi (x i) (y i) := rfl

/-- The printed predicate, over any fifteen arrays of the inputs' shapes: it is a conjunction of eleven reductions by
    "and" over whole arrays, so if its one word is 1 then every reduced array is 1 at every index. For the seven float
    arrays the element is |x| < +∞, so x is real; for the four index arrays it is (w ≥ 0) ∧ (w < N) on signed words. -/
theorem decode [Facts]
    (a0 : FVec Ideal S500000x128 .f32) (a1 : IVec S1000000 32) (a2 : IVec S1000000 32) (a3 : IVec S100000 32)
    (a4 : IVec S100000 32) (a5 : IVec S10240 32) (a6 : IVec S10240 32) (a7 : IVec S100000 32) (a8 : IVec S100000 32)
    (a9 : FVec Ideal S128x128 .f32) (a10 : FVec Ideal S128 .f32) (a11 : FVec Ideal S128x128 .f32) (a12 : FVec Ideal S128 .f32)
    (a13 : FVec Ideal S128x47 .f32) (a14 : FVec Ideal S47 .f32)
    (h : fn (F := Ideal) a0 a1 a2 a3 a4 a5 a6 a7 a8 a9 a10 a11 a12 a13 a14 = fun _ => 1#1) :
    (∀ i, ∃ r : ℝ, a0 i = (r : EReal)) ∧ (∀ i, ∃ r : ℝ, a9 i = (r : EReal)) ∧ (∀ i, ∃ r : ℝ, a10 i = (r : EReal))
    ∧ (∀ i, ∃ r : ℝ, a11 i = (r : EReal)) ∧ (∀ i, ∃ r : ℝ, a12 i = (r : EReal)) ∧ (∀ i, ∃ r : ℝ, a13 i = (r : EReal))
    ∧ (∀ i, ∃ r : ℝ, a14 i = (r : EReal))
    ∧ (∀ i, 0 ≤ (a3 i).toInt ∧ (a3 i).toInt < 100000) ∧ (∀ i, 0 ≤ (a5 i).toInt ∧ (a5 i).toInt < 10000)
    ∧ (∀ i, 0 ≤ (a7 i).toInt ∧ (a7 i).toInt < 100000) ∧ (∀ i, 0 ≤ (a8 i).toInt ∧ (a8 i).toInt < 100000) := by
  have e := congrFun h ix0
  dsimp only [fn, fn_part1, fn_part2, fn_part3] at e
  simp only [andi_apply, IntOp.andi_eq_one] at e
  obtain ⟨⟨⟨⟨⟨⟨⟨⟨⟨⟨h0, h9⟩, h10⟩, h11⟩, h12⟩, h13⟩, h14⟩, h3⟩, h5⟩, h7⟩, h8⟩ := e
  refine ⟨fun i => real_of_abs_lt_inf _ (Host.reduce_andi_all _ _ _ _ _ h0 i),
    fun i => real_of_abs_lt_inf _ (Host.reduce_andi_all _ _ _ _ _ h9 i),
    fun i => real_of_abs_lt_inf _ (Host.reduce_andi_all _ _ _ _ _ h10 i),
    fun i => real_of_abs_lt_inf _ (Host.reduce_andi_all _ _ _ _ _ h11 i),
    fun i => real_of_abs_lt_inf _ (Host.reduce_andi_all _ _ _ _ _ h12 i),
    fun i => real_of_abs_lt_inf _ (Host.reduce_andi_all _ _ _ _ _ h13 i),
    fun i => real_of_abs_lt_inf _ (Host.reduce_andi_all _ _ _ _ _ h14 i),
    fun i => range_of_word _ 100000 (by norm_num) (Host.reduce_andi_all _ _ _ _ _ h3 i),
    fun i => range_of_word _ 10000 (by norm_num) (Host.reduce_andi_all _ _ _ _ _ h5 i),
    fun i => range_of_word _ 100000 (by norm_num) (Host.reduce_andi_all _ _ _ _ _ h7 i),
    fun i => range_of_word _ 100000 (by norm_num) (Host.reduce_andi_all _ _ _ _ _ h8 i)⟩

theorem good_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.inOf m c).Good := by
  obtain ⟨r0, r9, r10, r11, r12, r13, r14, q3, q5, q7, q8⟩ := decode _ _ _ _ _ _ _ _ _ _ _ _ _ _ _ (h c)
  refine ⟨⟨?_, ?_, ?_, ?_, ?_, ?_, ?_⟩, fun e => q3 (ix1 e), fun e => q5 (ix1 e), fun j => q7 (ix1 j), fun j => q8 (ix1 j)⟩
  · choose f hf using fun (i : Fin 500000) (k : Fin 128) => r0 (ix2 i k)
    exact ⟨f, hf⟩
  · choose f hf using fun (i : Fin 128) (k : Fin 128) => r9 (ix2 i k)
    exact ⟨f, hf⟩
  · choose f hf using fun (i : Fin 128) => r10 (ix1 i)
    exact ⟨f, hf⟩
  · choose f hf using fun (i : Fin 128) (k : Fin 128) => r11 (ix2 i k)
    exact ⟨f, hf⟩
  · choose f hf using fun (i : Fin 128) => r12 (ix1 i)
    exact ⟨f, hf⟩
  · choose f hf using fun (i : Fin 128) (k : Fin 47) => r13 (ix2 i k)
    exact ⟨f, hf⟩
  · choose f hf using fun (i : Fin 47) => r14 (ix1 i)
    exact ⟨f, hf⟩

end Cert.Proof.PreFacts

end
-- ==== Proof.Algebra.lean ====
/-
  The two arrangements of a layer agree on real data.

  With every entry real, a row of the aggregate times the weight matrix is, by distributivity and the exchange of two
  finite sums, the aggregate of the rows' products; a common scale of a destination row moves across the sum over k.
  On the extended reals these laws need finiteness, which is why each array is first written as the image of a real one.
-/
import proofs.«415471_j1468878815350_3_alg».proof.Proof.Spec

noncomputable section

namespace Gcn

open Idealize.ShloMosaic Idealize.ShloMosaic.ValueIdx

namespace Alg

/-- A finite sum of real numbers read in the extended reals is the real sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The same for a sum whose terms are kept or dropped by a test. -/
theorem coe_sum_ite {ι : Type} (s : Finset ι) (P : ι → Prop) [DecidablePred P] (f : ι → ℝ) :
    (∑ i ∈ s, if P i then (f i : EReal) else 0) = ((∑ i ∈ s, if P i then f i else 0 : ℝ) : EReal) := by
  rw [← coe_sum]
  refine Finset.sum_congr rfl (fun i _ => ?_)
  split_ifs <;> simp

theorem coe_max (x y : ℝ) : ((max x y : ℝ) : EReal) = max (x : EReal) (y : EReal) :=
  EReal.coe_strictMono.monotone.map_max

/-- The segment sum over the reals. -/
def rseg {E : ℕ} (seg : Words E) (u : Fin E → ℝ) (r : ℕ) : ℝ :=
  ∑ e : Fin E, if (seg (ix1 e)).toInt = (r : ℤ) then u e else 0

theorem segsum_coe {E : ℕ} (seg : Words E) (u : Fin E → ℝ) (r : ℕ) :
    segsum seg (fun e => (u e : EReal)) r = ((rseg seg u r : ℝ) : EReal) := by
  unfold segsum rseg
  exact coe_sum_ite _ _ _

end Alg

open Alg

theorem lit1_eq : lit1 = ((1 : ℝ) : EReal) := by
  unfold lit1
  rw [EReal.coe_one]
  simp [Ideal.ofBits, Ideal.ieee, -EReal.coe_mul]; norm_num

section Laws
variable {J E K R C : ℕ}

theorem relu_real (x : ℝ) : relu (x : EReal) = ((max x 0 : ℝ) : EReal) := by
  unfold relu
  rw [coe_max, EReal.coe_zero]

theorem scl_real {E : ℕ} (seg : Words E) (r : ℕ) : ∃ s : ℝ, scl seg r = (s : EReal) := by
  unfold scl
  rw [lit1_eq, segsum_coe seg (fun _ => (1 : ℝ)) r, ← coe_max, Ideal.rsqrt_coe]
  have h1 : (1 : ℝ) ≤ max 1 (rseg seg (fun _ => (1 : ℝ)) r) := le_max_left _ _
  have hpos : (0 : ℝ) < max 1 (rseg seg (fun _ => (1 : ℝ)) r) := lt_of_lt_of_le one_pos h1
  rw [if_neg (not_lt.mpr hpos.le), if_neg hpos.ne']
  exact ⟨_, rfl⟩

namespace Alg

/-- Over the reals: a row of segment sums against a column of weights is the segment sum of the rows' products
    (distributivity, then the two finite sums exchanged). -/
theorem rseg_dot (seg : Words E) (y : Fin E → Fin K → ℝ) (w : Fin K → ℝ) (r : ℕ) :
    ∑ k : Fin K, rseg seg (fun e => y e k) r * w k = rseg seg (fun e => ∑ k : Fin K, y e k * w k) r := by
  unfold rseg
  simp_rw [Finset.sum_mul]
  rw [Finset.sum_comm]
  refine Finset.sum_congr rfl (fun e _ => ?_)
  split_ifs
  · rfl
  · simp

/-- The same with a common scale d of the row, which moves across the sum over k. -/
theorem rseg_dot_scaled (seg : Words E) (y : Fin E → Fin K → ℝ) (w : Fin K → ℝ) (d : ℝ) (r : ℕ) :
    ∑ k : Fin K, (rseg seg (fun e => y e k) r * d) * w k = rseg seg (fun e => ∑ k : Fin K, y e k * w k) r * d := by
  rw [← rseg_dot, Finset.sum_mul]
  refine Finset.sum_congr rfl (fun k _ => ?_)
  ring

/-- Aggregate first, on real data: the row of segment sums times the weight column, as one real number. -/
theorem sum_segsum_mul_coe (seg : Words E) (y : Fin E → Fin K → ℝ) (w : Fin K → ℝ) (r : ℕ) :
    ∑ k : Fin K, segsum seg (fun e => (y e k : EReal)) r * (w k : EReal)
      = ((∑ k : Fin K, rseg seg (fun e => y e k) r * w k : ℝ) : EReal) := by
  rw [← coe_sum]
  refine Finset.sum_congr rfl (fun k _ => ?_)
  rw [segsum_coe seg (fun e => y e k) r, EReal.coe_mul]

/-- Multiply first, on real data: the segment sum of the rows' products, as one real number. -/
theorem segsum_sum_mul_coe (seg : Words E) (y : Fin E → Fin K → ℝ) (w : Fin K → ℝ) (r : ℕ) :
    segsum seg (fun e => ∑ k : Fin K, (y e k : EReal) * (w k : EReal)) r
      = ((rseg seg (fun e => ∑ k : Fin K, y e k * w k) r : ℝ) : EReal) := by
  rw [← segsum_coe]
  congr 1
  funext e
  rw [← coe_sum]
  refine Finset.sum_congr rfl (fun k _ => ?_)
  rw [EReal.coe_mul]

/-- Aggregate first with the row's scale, on real data. -/
theorem sum_segsum_scaled_mul_coe (seg : Words E) (y : Fin E → Fin K → ℝ) (w : Fin K → ℝ) (d : ℝ) (r : ℕ) :
    ∑ k : Fin K, (segsum seg (fun e => (y e k : EReal)) r * (d : EReal)) * (w k : EReal)
      = ((∑ k : Fin K, (rseg seg (fun e => y e k) r * d) * w k : ℝ) : EReal) := by
  rw [← coe_sum]
  refine Finset.sum_congr rfl (fun k _ => ?_)
  rw [segsum_coe seg (fun e => y e k) r, EReal.coe_mul, EReal.coe_mul]

/-- The unscaled layer, aggregate first, on real data, as a real number. -/
theorem h0K_coe (fX : Fin J → Fin K → ℝ) (g : Fin E → Fin J) (dst : Words E) (fW : Fin K → Fin C → ℝ) (fb : Fin C → ℝ)
    (r : Fin R) (c : Fin C) :
    h0K (fun i k => (fX i k : EReal)) g dst (fun k c => (fW k c : EReal)) (fun c => (fb c : EReal)) r c
      = ((max ((∑ k : Fin K, rseg dst (fun e => fX (g e) k) r.val * fW k c) + fb c) 0 : ℝ) : EReal) := by
  unfold h0K dense agg0
  rw [← relu_real, EReal.coe_add, ← sum_segsum_mul_coe dst (fun e k => fX (g e) k) (fun k => fW k c) r.val]

/-- The unscaled layer, multiply first, on real data, as a real number. -/
theorem pre0R_coe (fX : Fin J → Fin K → ℝ) (g : Fin E → Fin J) (dst : Words E) (fW : Fin K → Fin C → ℝ) (fb : Fin C → ℝ)
    (r : Fin R) (c : Fin C) :
    pre0R (fun i k => (fX i k : EReal)) g dst (fun k c => (fW k c : EReal)) (fun c => (fb c : EReal)) r c
      = ((rseg dst (fun e => ∑ k : Fin K, fX (g e) k * fW k c) r.val + fb c : ℝ) : EReal) := by
  unfold pre0R
  rw [EReal.coe_add, ← segsum_sum_mul_coe dst (fun e k => fX (g e) k) (fun k => fW k c) r.val]

/-- The scaled layer, aggregate first, on real data, as a real number. -/
theorem layerK_coe (fH : Fin J → Fin K → ℝ) (p : Fin E → Fin J) (fsc : Fin E → ℝ) (dst : Words E) (fds : Fin R → ℝ)
    (fW : Fin K → Fin C → ℝ) (fb : Fin C → ℝ) (r : Fin R) (c : Fin C) :
    layerK (fun i k => (fH i k : EReal)) p (fun e => (fsc e : EReal)) dst (fun r => (fds r : EReal))
        (fun k c => (fW k c : EReal)) (fun c => (fb c : EReal)) r c
      = (((∑ k : Fin K, (rseg dst (fun e => fH (p e) k * fsc e) r.val * fds r) * fW k c) + fb c : ℝ) : EReal) := by
  unfold layerK dense aggS
  rw [EReal.coe_add, ← sum_segsum_scaled_mul_coe dst (fun e k => fH (p e) k * fsc e) (fun k => fW k c) (fds r) r.val]
  simp only [EReal.coe_mul]

/-- The scaled layer, multiply first, on real data, as a real number. -/
theorem layerR_coe (fH : Fin J → Fin K → ℝ) (p : Fin E → Fin J) (fsc : Fin E → ℝ) (dst : Words E) (fds : Fin R → ℝ)
    (fW : Fin K → Fin C → ℝ) (fb : Fin C → ℝ) (r : Fin R) (c : Fin C) :
    layerR (fun i k => (fH i k : EReal)) p (fun e => (fsc e : EReal)) dst (fun r => (fds r : EReal))
        (fun k c => (fW k c : EReal)) (fun c => (fb c : EReal)) r c
      = ((rseg dst (fun e => ∑ k : Fin K, (fH (p e) k * fsc e) * fW k c) r.val * fds r + fb c : ℝ) : EReal) := by
  unfold layerR
  rw [EReal.coe_add, EReal.coe_mul, ← segsum_sum_mul_coe dst (fun e k => fH (p e) k * fsc e) (fun k => fW k c) r.val]
  simp only [EReal.coe_mul]

end Alg

theorem h0K_eq (X : Fin J → Fin K → EReal) (g : Fin E → Fin J) (dst : Words E) (W : Fin K → Fin C → EReal) (b : Fin C → EReal)
    (hX : IsReal2 X) (hW : IsReal2 W) (hb : IsReal1 b) (r : Fin R) (c : Fin C) :
    h0K X g dst W b r c = relu (pre0R X g dst W b r c) := by
  obtain ⟨fX, hfX⟩ := hX
  obtain ⟨fW, hfW⟩ := hW
  obtain ⟨fb, hfb⟩ := hb
  obtain rfl : X = fun i k => (fX i k : EReal) := by funext i k; exact hfX i k
  obtain rfl : W = fun k c => (fW k c : EReal) := by funext k c; exact hfW k c
  obtain rfl : b = fun c => (fb c : EReal) := by funext c; exact hfb c
  rw [h0K_coe, pre0R_coe, relu_real, rseg_dot dst (fun e k => fX (g e) k) (fun k => fW k c) r.val]

theorem h0K_real (X : Fin J → Fin K → EReal) (g : Fin E → Fin J) (dst : Words E) (W : Fin K → Fin C → EReal) (b : Fin C → EReal)
    (hX : IsReal2 X) (hW : IsReal2 W) (hb : IsReal1 b) : IsReal2 (h0K (R := R) X g dst W b) := by
  obtain ⟨fX, hfX⟩ := hX
  obtain ⟨fW, hfW⟩ := hW
  obtain ⟨fb, hfb⟩ := hb
  obtain rfl : X = fun i k => (fX i k : EReal) := by funext i k; exact hfX i k
  obtain rfl : W = fun k c => (fW k c : EReal) := by funext k c; exact hfW k c
  obtain rfl : b = fun c => (fb c : EReal) := by funext c; exact hfb c
  exact ⟨_, fun r c => h0K_coe fX g dst fW fb r c⟩

theorem layerK_eq (H : Fin J → Fin K → EReal) (p : Fin E → Fin J) (sc : Fin E → EReal) (dst : Words E) (ds : Fin R → EReal)
    (W : Fin K → Fin C → EReal) (b : Fin C → EReal)
    (hH : IsReal2 H) (hsc : IsReal1 sc) (hds : IsReal1 ds) (hW : IsReal2 W) (hb : IsReal1 b) (r : Fin R) (c : Fin C) :
    layerK H p sc dst ds W b r c = layerR H p sc dst ds W b r c := by
  obtain ⟨fH, hfH⟩ := hH
  obtain ⟨fsc, hfsc⟩ := hsc
  obtain ⟨fds, hfds⟩ := hds
  obtain ⟨fW, hfW⟩ := hW
  obtain ⟨fb, hfb⟩ := hb
  obtain rfl : H = fun i k => (fH i k : EReal) := by funext i k; exact hfH i k
  obtain rfl : sc = fun e => (fsc e : EReal) := by funext e; exact hfsc e
  obtain rfl : ds = fun r => (fds r : EReal) := by funext r; exact hfds r
  obtain rfl : W = fun k c => (fW k c : EReal) := by funext k c; exact hfW k c
  obtain rfl : b = fun c => (fb c : EReal) := by funext c; exact hfb c
  rw [layerK_coe, layerR_coe,
    rseg_dot_scaled dst (fun e k => fH (p e) k * fsc e) (fun k => fW k c) (fds r) r.val]

theorem layerK_real (H : Fin J → Fin K → EReal) (p : Fin E → Fin J) (sc : Fin E → EReal) (dst : Words E) (ds : Fin R → EReal)
    (W : Fin K → Fin C → EReal) (b : Fin C → EReal)
    (hH : IsReal2 H) (hsc : IsReal1 sc) (hds : IsReal1 ds) (hW : IsReal2 W) (hb : IsReal1 b) :
    IsReal2 (layerK H p sc dst ds W b) := by
  obtain ⟨fH, hfH⟩ := hH
  obtain ⟨fsc, hfsc⟩ := hsc
  obtain ⟨fds, hfds⟩ := hds
  obtain ⟨fW, hfW⟩ := hW
  obtain ⟨fb, hfb⟩ := hb
  obtain rfl : H = fun i k => (fH i k : EReal) := by funext i k; exact hfH i k
  obtain rfl : sc = fun e => (fsc e : EReal) := by funext e; exact hfsc e
  obtain rfl : ds = fun r => (fds r : EReal) := by funext r; exact hfds r
  obtain rfl : W = fun k c => (fW k c : EReal) := by funext k c; exact hfW k c
  obtain rfl : b = fun c => (fb c : EReal) := by funext c; exact hfb c
  exact ⟨_, fun r c => layerK_coe fH p fsc dst fds fW fb r c⟩

end Laws

namespace Alg

theorem scl_isReal {E A : ℕ} (seg : Words E) (row : Fin A → ℕ) : IsReal1 (fun i : Fin A => scl seg (row i)) :=
  ⟨fun i => (scl_real seg (row i)).choose, fun i => (scl_real seg (row i)).choose_spec⟩

/-- Relu keeps an array real. -/
theorem relu_isReal2 {A B : ℕ} (X : Fin A → Fin B → EReal) (hX : IsReal2 X) : IsReal2 (fun i j => relu (X i j)) := by
  obtain ⟨f, hf⟩ := hX
  refine ⟨fun i j => max (f i j) 0, fun i j => ?_⟩
  show relu (X i j) = ((max (f i j) 0 : ℝ) : EReal)
  rw [hf, relu_real]

theorem H0K_real (a : In) (ha : a.Real) : IsReal2 (H0K a) :=
  h0K_real _ _ _ _ _ ha.X ha.W0 ha.b0

theorem H0K_eq_H0R (a : In) (ha : a.Real) : H0K a = H0R a := by
  funext j k
  exact h0K_eq _ _ _ _ _ ha.X ha.W0 ha.b0 j k

theorem sc1_real (a : In) : IsReal1 (sc1 a) := scl_isReal a.src1 (fun e => (g1 a e).val)
theorem ds1_real (a : In) : IsReal1 (ds1 a) := scl_isReal a.dst1 (fun r => r.val)
theorem sc2_real (a : In) : IsReal1 (sc2 a) := scl_isReal a.src2 (fun e => (g2 a e).val)
theorem ds2_real (a : In) : IsReal1 (ds2 a) := scl_isReal a.dst2 (fun r => r.val)

theorem H1K_real (a : In) (ha : a.Real) : IsReal2 (H1K a) :=
  relu_isReal2 _ (layerK_real (H0K a) (p1 a) (sc1 a) a.dst1 (ds1 a) (cW1 a) (cb1 a)
    (H0K_real a ha) (sc1_real a) (ds1_real a) ha.W1 ha.b1)

theorem H1K_eq_H1R (a : In) (ha : a.Real) : H1K a = H1R a := by
  funext j k
  show relu (layerK (H0K a) (p1 a) (sc1 a) a.dst1 (ds1 a) (cW1 a) (cb1 a) j k)
    = relu (layerR (H0R a) (p1 a) (sc1 a) a.dst1 (ds1 a) (cW1 a) (cb1 a) j k)
  rw [← H0K_eq_H0R a ha,
    layerK_eq (H0K a) (p1 a) (sc1 a) a.dst1 (ds1 a) (cW1 a) (cb1 a)
      (H0K_real a ha) (sc1_real a) (ds1_real a) ha.W1 ha.b1 j k]

end Alg

/-- The whole network: aggregate-first and multiply-first agree on real float inputs. -/
theorem outK_eq_outR (a : In) (ha : a.Real) (r : Fin 1024) (q : Fin 47) : outK a r q = outR a r q := by
  show layerK (H1K a) (g2 a) (sc2 a) a.dst2 (ds2 a) (cW2 a) (cb2 a) r q
    = layerR (H1R a) (g2 a) (sc2 a) a.dst2 (ds2 a) (cW2 a) (cb2 a) r q
  rw [← H1K_eq_H1R a ha]
  exact layerK_eq (H1K a) (g2 a) (sc2 a) a.dst2 (ds2 a) (cW2 a) (cb2 a)
    (H1K_real a ha) (sc2_real a) (ds2_real a) ha.W2 ha.b2 r q

end Gcn

end
-- ==== Proof.lean ====
/-
  A three-layer sampled graph convolution: a kernel program that aggregates along the edges first and applies each
  dense layer afterwards (three pallas regions, one per dense layer, among host gathers and segment sums), against a
  reference that applies each dense layer first and aggregates the products.

  The frames of the two kernel programs are the generated ones; the reference's frame is its generated run with the
  result dropped.  The idealization's ledger is empty.  For the values: the kernel program's run leaves in its result
  buffer the aggregate-first formula of the network (each region's output array read off the run as the dense map of its
  input arrays, each input array read through the host operations before it), the reference's run leaves the
  multiply-first formula, and on real inputs the two formulas agree by distributivity and the exchange of finite sums.
  The precondition is used twice: the float inputs are real, which the algebra needs on the extended reals; and the four
  index tables that the kernel program reads with a filling gather lie inside their tables, so that no fill is taken and
  each such gather reads the row the reference's clamping gather reads.
-/
import proofs.«415471_j1468878815350_3_alg».proof.Defs
import proofs.«415471_j1468878815350_3_alg».proof.Proof.Gen.Kernel
import proofs.«415471_j1468878815350_3_alg».proof.Proof.Gen.Kernel.Skeleton
import proofs.«415471_j1468878815350_3_alg».proof.Proof.Gen.Kernel.Launch
import proofs.«415471_j1468878815350_3_alg».proof.Proof.Gen.Kernel.Points
import proofs.«415471_j1468878815350_3_alg».proof.Proof.Gen.Kernel.Frame
import proofs.«415471_j1468878815350_3_alg».proof.Proof.Gen.KernelIdeal
import proofs.«415471_j1468878815350_3_alg».proof.Proof.Gen.KernelIdeal.Skeleton
import proofs.«415471_j1468878815350_3_alg».proof.Proof.Gen.KernelIdeal.Launch
import proofs.«415471_j1468878815350_3_alg».proof.Proof.Gen.KernelIdeal.Points
import proofs.«415471_j1468878815350_3_alg».proof.Proof.Gen.KernelIdeal.Frame
import proofs.«415471_j1468878815350_3_alg».proof.Proof.Gen.ReferenceIdeal
import proofs.«415471_j1468878815350_3_alg».proof.Proof.Gen.Pre_finite_inputs
import proofs.«415471_j1468878815350_3_alg».proof.Proof.Gen.ReferenceIdeal.Run
import proofs.«415471_j1468878815350_3_alg».proof.Proof.Gen.ReferenceIdeal.Read
import proofs.«415471_j1468878815350_3_alg».proof.Proof.KernelRun
import proofs.«415471_j1468878815350_3_alg».proof.Proof.KValue
import proofs.«415471_j1468878815350_3_alg».proof.Proof.RValue
import proofs.«415471_j1468878815350_3_alg».proof.Proof.PreFacts
import proofs.«415471_j1468878815350_3_alg».proof.Proof.Algebra
import Idealize.ShloMosaic.Adequacy
import Idealize.ShloMosaic.Init

noncomputable section

namespace Cert.Proof

open Idealize.ShloMosaic Idealize.ShloMosaic.ValueIdx Idealize.SL.Sem

instance : Cert.Pre_finite_inputs.Facts := Cert.Pre_finite_inputs.Gen.facts

theorem frame_k : Cert.frame_Kernel (hKernel := Cert.Kernel.Gen.facts) := fun m ρ _ => Cert.Kernel.Gen.frame m ρ
theorem frame_ki : Cert.frame_KernelIdeal (hKernelIdeal := Cert.KernelIdeal.Gen.facts) := fun m ρ _ => Cert.KernelIdeal.Gen.frame m ρ
theorem frame_ri : Cert.frame_ReferenceIdeal (hReferenceIdeal := Cert.ReferenceIdeal.Gen.facts) := fun m ρ _ =>
  (θ_run Cert.ReferenceIdeal.defs _ _).mono (fun _ h c => (h c).2) (Cert.ReferenceIdeal.Value.run (F := Ideal) m ρ)

/-- The two idealized programs end with equal results: both results are the network's formula, in the two arrangements,
    of the same inputs. -/
theorem algebraic : Cert.algebraic_KernelIdeal_ReferenceIdeal (hKernelIdeal := Cert.KernelIdeal.Gen.facts)
    (hReferenceIdeal := Cert.ReferenceIdeal.Gen.facts) := by
  intro m ρ m' ρ' hpre hagree
  refine ⟨_, Cert.KernelIdeal.Gen.run_out (F := Ideal) m ρ, ?_⟩
  refine (θ_run Cert.ReferenceIdeal.defs _ _).mono (fun _ h c => ⟨(h c).1.trans ?_, (h c).2⟩)
    (Cert.ReferenceIdeal.Value.run (F := Ideal) m' ρ')
  have hg := Cert.Proof.PreFacts.good_of_pre m hpre c
  rw [Cert.ReferenceIdeal.Read.val_main_v92_eq]
  funext i
  obtain ⟨r, q, rfl⟩ : ∃ (r : Fin 1024) (q : Fin 47), i = ix2 r q := ⟨i 0, i 1, eq_ix2 i⟩
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2.1, (hagree c).2.2.2.2.2.2.2.2.2.2.2.2.2.2]
  refine ((Cert.ReferenceIdeal.RVal.out_val (Cert.KernelIdeal.inOf m c) r q).trans
    (Gcn.outK_eq_outR _ hg.real r q).symm).trans ?_
  exact (Cert.KernelIdeal.KVal.layer2 m ρ c hg r q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
